-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1000 : Shape := ⟨2, ![8192, 1000]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1000 : S_.BroadcastsInDim S8192x1000 (![] : Fin 0 → Fin S8192x1000.rank)
  reducesTo_S8192x1000_S_d0_1 : S8192x1000.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : FVec F S8192x1000 .f32) (main_arg2 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x1000 .f32 := Host.absf main_arg1
  let main_cst_0 : FVec F S_ .f32 := constant S_ .f32 0x7F800000#32
  let main_v5 : FVec F S8192x1000 .f32 := broadcastInDim S8192x1000 ![] bcast_S_S8192x1000 main_cst_0
  let main_v6 : IVec S8192x1000 1 := cmpf .olt main_v4 main_v5
  let main_c_1 : IVec S_ 1 := constantI S_ 1 1#1
  let main_v7 : IVec S_ 1 := (fun x v => Host.reduce IntOp.andi x v reducesTo_S8192x1000_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1000#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x256 : Shape := ⟨2, ![8192, 256]⟩
abbrev S8192x1000 : Shape := ⟨2, ![8192, 1000]⟩
abbrev S8192 : Shape := ⟨1, ![8192]⟩
abbrev S_ : Shape := ⟨0, ![]⟩
abbrev S8192x1 : Shape := ⟨2, ![8192, 1]⟩
abbrev S512x256 : Shape := ⟨2, ![512, 256]⟩
abbrev S512 : Shape := ⟨1, ![512]⟩
abbrev S256x512 : Shape := ⟨2, ![256, 512]⟩
abbrev S512x512 : Shape := ⟨2, ![512, 512]⟩
abbrev S512x1 : Shape := ⟨2, ![512, 1]⟩
abbrev S1x512 : Shape := ⟨2, ![1, 512]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 39
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x1000, .f32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512, .i32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S1024x1000, .f32⟩
  | .local _ .vmem, ⟨18, _⟩ => ⟨S1024x1000, .f32⟩
  | .local _ .vmem, ⟨19, _⟩ => ⟨S1024, .i32⟩
  | .local _ .vmem, ⟨20, _⟩ => ⟨S1024, .i32⟩
  | .local _ .vmem, ⟨21, _⟩ => ⟨S1024, .f32⟩
  | .local _ .vmem, ⟨22, _⟩ => ⟨S1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S1024x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S512_S512_0 : ∀ a, (![0] : Fin 1 → Nat) a + S512.size a ≤ S512.size a
  h_S512 : 0 < S512.numel
  shapeCasts_S512_S512 : S512.ShapeCasts S512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  natLt_1_32 : 1 < 32
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  bcast_S_S8192 : S_.BroadcastsInDim S8192 (![] : Fin 0 → Fin S8192.rank)
  reducesTo_S8192_S_d0 : S8192.ReducesTo [0] S_
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024_S1024_0 : ∀ a, (![0] : Fin 1 → Nat) a + S1024.size a ≤ S1024.size a
  h_S1024 : 0 < S1024.numel
  iota_S1024x1000_d1_w32 : S1024x1000.Iotas .tc 32 [1]
  shapeCasts_S1024x1_S1024 : S1024x1.ShapeCasts S1024
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .i32 = 32 ∨ (Rect.block (s := S8192) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .i32 = 32 ∨ (Rect.block (s := S8192) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .f32 = 32 ∨ (Rect.block (s := S8192) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S8192.size a
  hwx0_6 : ∀ i : grid0.Coords, EltTy.bits .f32 = 32 ∨ (Rect.block (s := S8192) S512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1000.size a ≤ S8192x1000.size a
  hwx1_0 : ∀ i : grid1.Coords, EltTy.bits .f32 = 32 ∨ (Rect.block (s := S8192x1000) S1024x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S8192.size a
  hwx1_1 : ∀ i : grid1.Coords, EltTy.bits .i32 = 32 ∨ (Rect.block (s := S8192) S1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .f32 = 32 ∨ (Rect.block (s := S8192) S1024.size (cc1_transform_2 i) (hinb1_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v5) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1024x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x1000 : Shape := ⟨2, ![8192, 1000]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1000, .f32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x1, .i32⟩
  | .hbm, ⟨34, _⟩ => ⟨S1x8192, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .i1⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x1000, .f32⟩
  | .hbm, ⟨68, _⟩ => ⟨S8192x1000, .f32⟩
  | .hbm, ⟨69, _⟩ => ⟨S8192x1000, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1, .f32⟩
  | .hbm, ⟨74, _⟩ => ⟨S8192x1000, .f32⟩
  | .hbm, ⟨75, _⟩ => ⟨S8192x1000, .f32⟩
  | .hbm, ⟨76, _⟩ => ⟨S8192x1, .i32⟩
  | .hbm, ⟨77, _⟩ => ⟨S_, .i32⟩
  | .hbm, ⟨78, _⟩ => ⟨S8192x1, .i32⟩
  | .hbm, ⟨79, _⟩ => ⟨S8192x1, .i1⟩
  | .hbm, ⟨80, _⟩ => ⟨S_, .i32⟩
  | .hbm, ⟨81, _⟩ => ⟨S8192x1, .i32⟩
  | .hbm, ⟨82, _⟩ => ⟨S8192x1, .i32⟩
  | .hbm, ⟨83, _⟩ => ⟨S8192x1, .i32⟩
  | .hbm, ⟨84, _⟩ => ⟨S8192x1x1, .i32⟩
  | .hbm, ⟨85, _⟩ => ⟨S1, .i32⟩
  | .hbm, ⟨86, _⟩ => ⟨S_, .i32⟩
  | .hbm, ⟨87, _⟩ => ⟨S8192x1x1, .i32⟩
  | .hbm, ⟨88, _⟩ => ⟨S8192x1x1, .i1⟩
  | .hbm, ⟨89, _⟩ => ⟨S1x1x1, .i32⟩
  | .hbm, ⟨90, _⟩ => ⟨S8192x1x1, .i32⟩
  | .hbm, ⟨91, _⟩ => ⟨S8192x1x1, .i1⟩
  | .hbm, ⟨92, _⟩ => ⟨S8192x1x1, .i1⟩
  | .hbm, ⟨93, _⟩ => ⟨S_, .i1⟩
  | .hbm, ⟨94, _⟩ => ⟨S8192x1, .i1⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_call2_cst_0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_cst_1 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_v41 : Ref sig .tc := ⟨.hbm, 75, rfl⟩
abbrev main_v42 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v43 : Ref sig .tc := ⟨.hbm, 98, rfl⟩
abbrev main_v44 : Ref sig .tc := ⟨.hbm, 99, rfl⟩
abbrev main_cst_10 : Ref sig .tc := ⟨.hbm, 100, rfl⟩
abbrev main_v45 : Ref sig .tc := ⟨.hbm, 101, rfl⟩
abbrev main_cst_11 : Ref sig .tc := ⟨.hbm, 102, rfl⟩
abbrev main_v46 : Ref sig .tc := ⟨.hbm, 103, rfl⟩
abbrev main_v47 : Ref sig .tc := ⟨.hbm, 104, rfl⟩
abbrev main_cst_12 : Ref sig .tc := ⟨.hbm, 105, rfl⟩
abbrev main_v48 : Ref sig .tc := ⟨.hbm, 106, rfl⟩
abbrev main_v49 : Ref sig .tc := ⟨.hbm, 107, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x1000_S8192_d1 : S8192x1000.ReducesTo [1] S8192
  bcast_S8192x1_S8192x1000_0_1 : S8192x1.BroadcastsInDim S8192x1000 (![0, 1] : Fin 2 → Fin S8192x1000.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  dot_S8192x256_S256x8192_S8192x8192_1_0_0_1_n_n_wf : DotDims.WF S8192x256 S256x8192 S8192x8192 [1] [0] [0] [1] [] []
  gather_S8192x1000_S8192x1x1_S8192x1_n_1_0_0_1_2_11_wf : GatherDims.WF S8192x1000 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x1000_S8192x1x1_S8192x1_n_1_0_0_1_2_11 : GatherDims S8192x1000 S8192x1x1 S8192x1 where
  offsetDims := []
  collapsedSliceDims := [1]
  operandBatchingDims := [0]
  startIndicesBatchingDims := [0]
  startIndexMap := [1]
  indexVectorDim := 2
  sliceSizes := ![1, 1]
  wf := gather_S8192x1000_S8192x1x1_S8192x1_n_1_0_0_1_2_11_wf

class Facts : Prop extends Facts₀ where

variable [Facts]
-- ==== Proof.WordData0.lean ====
/-
  The first kernel region (the soft-nearest-neighbour row sums): what each window's staging buffer and
  the three accumulators hold after the body at a grid point, as a function of the region's entry contents.
  The grid is 16 × 16, point `t` at coordinates `(i, j) = (t / 16, t % 16)`. The body at `(i, j)` reads rows
  `512·i …` and rows `512·j …` of the normalised matrix and of the labels, forms the 512 × 512 tile
  `E = exp(−(1 − ⟨x_r, x_c⟩)/T)`, the tile of "same label and not the same row" and of "not the same row",
  and adds the three tiles' row sums into three accumulators that it zeroes when `j = 0`; after every point it
  copies the accumulators to the three output windows, whose block index is `i` alone, so that what reaches the
  arrays is what the accumulators hold at `j = 15`.
-/
import proofs.«424374_j52003464020705_1_alg».proof.Proof.Gen.Kernel.Launch
import proofs.«424374_j52003464020705_1_alg».proof.Proof.Gen.Kernel.Skeleton
import proofs.«424374_j52003464020705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators as one value: (Σ E·same·notself, Σ E·notself, Σ same·notself), one entry per row of the tile. -/
abbrev Acc (F : FTy → Type) [FloatOps F] : Type := Vec F S512 .f32 × Vec F S512 .f32 × Vec F S512 .f32

/-- The accumulators as the reset at `j = 0` leaves them. -/
def accZero : Acc F := (k0_pay4 (F := F), k0_pay5 (F := F), k0_pay6 (F := F))

/-- One point's update of the accumulators: each gains the row sums of its tile, built from the row block `xr`, the
    column block `xc`, and the two label blocks. -/
def accStep (i : grid0.Coords) (xr xc : Vec F S512x256 .bf16) (lr lc : Vec F S512 .i32) (a : Acc F) : Acc F :=
  (k0_pay1 (k0_pay10 i xr xc lr lc) a.1, k0_pay2 (k0_pay11 i xr xc) a.2.1, k0_pay3 (k0_pay9 i lr lc) a.2.2)

/-- What the accumulators hold after point `n` (counting points from 0; beyond the grid, what the last point left):
    the reset value or the previous point's, updated by the point's tiles. -/
def accAt (c : Dev nD) : ℕ → Acc F
  | 0 => if h : 0 < cfg0.N then
      accStep (cfg0.grid.coords ⟨0, h⟩) (iblk V c 0 ⟨0, h⟩) (iblk V c 1 ⟨0, h⟩) (iblk V c 2 ⟨0, h⟩) (iblk V c 3 ⟨0, h⟩) accZero
    else accZero
  | n + 1 => if h : n + 1 < cfg0.N then
      accStep (cfg0.grid.coords ⟨n + 1, h⟩) (iblk V c 0 ⟨n + 1, h⟩) (iblk V c 1 ⟨n + 1, h⟩) (iblk V c 2 ⟨n + 1, h⟩) (iblk V c 3 ⟨n + 1, h⟩)
        (if (n + 1) % 16 = 0 then accZero else accAt c n)
    else accAt c n

/-- The body's invariant before point `t`: the three accumulator buffers whole at some contents, which after the
    first point are `accAt` of the point before; the other scoped buffers and the generator register untouched. -/
def Φ0 (c : Dev nD) (t : Fin (cfg0.N + 1)) : sProp 𝕄 :=
  iprop(∃ a : Acc F, ⌜0 < t.val → a = accAt V c (t.val - 1)⌝
    ∗ owns (c : Thread nD τ) (Memref.whole cc0_scratch0) fullShare a.1
    ∗ owns (c : Thread nD τ) (Memref.whole cc0_scratch1) fullShare a.2.1
    ∗ owns (c : Thread nD τ) (Memref.whole cc0_scratch2) fullShare a.2.2
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ r, prngReg c r))

/-- The region's proof data on core `c`. The two windows on the normalised matrix, and the two on the labels, each hold
    half of their array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val).1
    | ⟨5, _⟩ => (accAt V c t.val).2.1
    | ⟨6, _⟩ => (accAt V c t.val).2.2
  Φ t := Φ0 V c t
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (accAt V c t.val).1 := by dsimp only [dat]
theorem after_5 (c : Dev nD) (t : Fin cfg0.N) : (dat V c).after 5 t = (accAt V c t.val).2.1 := by dsimp only [dat]
theorem after_6 (c : Dev nD) (t : Fin cfg0.N) : (dat V c).after 6 t = (accAt V c t.val).2.2 := by dsimp only [dat]

end

end Cert.Kernel.Region0

end
-- ==== Proof.WordData1.lean ====
/-
  The second kernel region (the cross-entropy rows): what each window's staging buffer holds after the
  body at a grid point, as a function of the region's entry contents. The grid has eight points; point
  `t` reads rows `1024·t … 1024·t+1023` of the logits and of the labels and writes the same rows of the
  result, `selected − (rowmax + log Σ exp(logit − rowmax))` per row, the selected logit taken by a
  one-hot sum over the thousand columns.
-/
import proofs.«424374_j52003464020705_1_alg».proof.Proof.Gen.Kernel.Launch
import proofs.«424374_j52003464020705_1_alg».proof.Proof.Gen.Kernel.Skeleton
import proofs.«424374_j52003464020705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the result the body computes from a block of logits and a block of labels. -/
def outRows (x0 : Vec F S1024x1000 .f32) (x1 : Vec F S1024 .i32) : Vec F S1024 .f32 := k1_pay1 x0 x1

/-- The region's proof data on core `c`: inputs stay at their blocks, the output buffer holds `outRows` of them. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outRows (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outRows (iblk V c 0 t) (iblk V c 1 t) := by dsimp only [dat]

end

end Cert.Kernel.Region1

end
-- ==== Proof.WordBody0.lean ====
/-
  The first kernel region's body, point by point. At grid point (i, j) the body, when j = 0, overwrites the three
  accumulators with zeros; it then reads the row block, the column block and the two label blocks whole, adds to each
  accumulator the row sums of its 512 × 512 tile, and copies the three accumulators whole into the three output
  windows' buffers. So after the point the accumulators hold one update (`accStep`) of the zero value when j = 0 and
  of what the point before left otherwise — which is `accAt` at the point, by its defining recursion — and each output
  window's buffer holds the matching component. The input windows' buffers are read only, and hold their blocks at
  every point whether the block was brought in there or kept from the point before.
-/
import proofs.«424374_j52003464020705_1_alg».proof.Proof.WordData0
import Idealize.ShloMosaic.Lib.Pipeline.Value

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access, rank one and rank two, are zero. -/
theorem hz1 : (![0] : Fin 1 → Nat) = fun _ => 0 := funext fun a => by fin_cases a; rfl
theorem hz2 : (![0, 0] : Fin 2 → Nat) = fun _ => 0 := funext fun a => by fin_cases a <;> rfl

/-- A buffer whose last store was a whole-block store reads, whatever was stored before, what that store wrote. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-block load after a whole-block store, whatever was stored before it, reads what that store wrote. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The reset condition of the body, from the grid coordinates: the column coordinate is zero. -/
abbrev resets (i : grid0.Coords) : Prop :=
  (Scalar.cmpi .ne (Scalar.extui (Scalar.cmpi .eq (BitVec.ofNat 32 (i 1).val) 0#32)) 0#32) = 1#1

/-- It holds at the first point of each row of the grid: decided over the grid's points. -/
theorem resets_iff : ∀ t : Fin cfg0.N, resets (grid0.coords t) ↔ t.val % 16 = 0 :=
  (by decide +kernel : ∀ t : Fin grid0.N, resets (grid0.coords t) ↔ t.val % 16 = 0)

set_option maxHeartbeats 4000000 in
/-- A point that resets (j = 0): on whole buffers, the inputs' at contents `xr xc lr lc`, the outputs' at anything, the
    accumulators at any `a`, the body leaves the inputs as they were and the accumulators, and the outputs, at one
    update of the zero value by the point's tiles: every store covers its buffer, so each buffer ends at the payload of
    its last store, and a buffer read back after a covering store reads that store's payload. -/
theorem sound_kernel_reset (c : Dev nD) (E : Set ℕ) (i : grid0.Coords)
    (arg2 : Memref sig .tc .vmem S512x256 .bf16) (harg2 : arg2.IsWhole) (arg3 : Memref sig .tc .vmem S512x256 .bf16) (harg3 : arg3.IsWhole)
    (arg4 : Memref sig .tc .vmem S512 .i32) (harg4 : arg4.IsWhole) (arg5 : Memref sig .tc .vmem S512 .i32) (harg5 : arg5.IsWhole)
    (arg6 : Memref sig .tc .vmem S512 .f32) (harg6 : arg6.IsWhole) (arg7 : Memref sig .tc .vmem S512 .f32) (harg7 : arg7.IsWhole)
    (arg8 : Memref sig .tc .vmem S512 .f32) (harg8 : arg8.IsWhole) (arg9 : Memref sig .tc .vmem S512 .f32) (harg9 : arg9.IsWhole)
    (arg10 : Memref sig .tc .vmem S512 .f32) (harg10 : arg10.IsWhole) (arg11 : Memref sig .tc .vmem S512 .f32) (harg11 : arg11.IsWhole)
    (hc : resets i)
    (xr xc : Vec F S512x256 .bf16) (lr lc : Vec F S512 .i32) (a : Acc F) (K : PUnit → sProp 𝕄) :
    iprop(owns (c : Thread nD τ) arg2 fullShare xr ∗ owns (c : Thread nD τ) arg3 fullShare xc
        ∗ owns (c : Thread nD τ) arg4 fullShare lr ∗ owns (c : Thread nD τ) arg5 fullShare lc
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a.1 ∗ owns (c : Thread nD τ) arg10 fullShare a.2.1 ∗ owns (c : Thread nD τ) arg11 fullShare a.2.2
        ∗ (iprop(owns (c : Thread nD τ) arg2 fullShare xr ∗ owns (c : Thread nD τ) arg3 fullShare xc
            ∗ owns (c : Thread nD τ) arg4 fullShare lr ∗ owns (c : Thread nD τ) arg5 fullShare lc
            ∗ owns (c : Thread nD τ) arg6 fullShare (accStep i xr xc lr lc accZero).1
            ∗ owns (c : Thread nD τ) arg7 fullShare (accStep i xr xc lr lc accZero).2.1
            ∗ owns (c : Thread nD τ) arg8 fullShare (accStep i xr xc lr lc accZero).2.2
            ∗ owns (c : Thread nD τ) arg9 fullShare (accStep i xr xc lr lc accZero).1
            ∗ owns (c : Thread nD τ) arg10 fullShare (accStep i xr xc lr lc accZero).2.1
            ∗ owns (c : Thread nD τ) arg11 fullShare (accStep i xr xc lr lc accZero).2.2) -∗ K ⟨⟩))
      ⊢ wp frame (wpE (defs₀ (F := F)) Variants.none c none) E
          (cc0__snnl_kernel i arg2 harg2 arg3 harg3 arg4 harg4 arg5 harg5 arg6 harg6 arg7 harg7 arg8 harg8 arg9 harg9 arg10 harg10 arg11 harg11) K := by
  unfold accStep accZero; dsimp only
  simp only [cc0__snnl_kernel_eq_skeleton]; unfold cc0__snnl_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩,
    ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H7]
  · iexists _; isplitr
    swap; · iexact H7
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H8]
  · iexists _; isplitr
    swap; · iexact H8
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H9]
  · iexists _; isplitr
    swap; · iexact H9
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H10]
  · iexists _; isplitr
    swap; · iexact H10
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  iexists _; isplitr
  swap; · iexact H11
  ipureintro
  sl_unfold_words
  rw [read_writes_cons_whole (S := S512) _ _ hz1]
  simp only [readCov_cons_whole (S := S512) _ hz1, View.readAt_eq_ld, harg2.read_unread, harg3.read_unread, harg4.read_unread,
    harg5.read_unread, harg9.read_unread, harg10.read_unread, harg11.read_unread,
    View.ld_unit_zero (S := S512) hz1, View.ld_unit_zero (S := S512x256) hz2]

set_option maxHeartbeats 4000000 in
/-- A point that does not reset (j ≠ 0): the same, the accumulators and the outputs ending at one update of the value
    `a` the accumulators were handed at. -/
theorem sound_kernel_keep (c : Dev nD) (E : Set ℕ) (i : grid0.Coords)
    (arg2 : Memref sig .tc .vmem S512x256 .bf16) (harg2 : arg2.IsWhole) (arg3 : Memref sig .tc .vmem S512x256 .bf16) (harg3 : arg3.IsWhole)
    (arg4 : Memref sig .tc .vmem S512 .i32) (harg4 : arg4.IsWhole) (arg5 : Memref sig .tc .vmem S512 .i32) (harg5 : arg5.IsWhole)
    (arg6 : Memref sig .tc .vmem S512 .f32) (harg6 : arg6.IsWhole) (arg7 : Memref sig .tc .vmem S512 .f32) (harg7 : arg7.IsWhole)
    (arg8 : Memref sig .tc .vmem S512 .f32) (harg8 : arg8.IsWhole) (arg9 : Memref sig .tc .vmem S512 .f32) (harg9 : arg9.IsWhole)
    (arg10 : Memref sig .tc .vmem S512 .f32) (harg10 : arg10.IsWhole) (arg11 : Memref sig .tc .vmem S512 .f32) (harg11 : arg11.IsWhole)
    (hc : ¬resets i)
    (xr xc : Vec F S512x256 .bf16) (lr lc : Vec F S512 .i32) (a : Acc F) (K : PUnit → sProp 𝕄) :
    iprop(owns (c : Thread nD τ) arg2 fullShare xr ∗ owns (c : Thread nD τ) arg3 fullShare xc
        ∗ owns (c : Thread nD τ) arg4 fullShare lr ∗ owns (c : Thread nD τ) arg5 fullShare lc
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a.1 ∗ owns (c : Thread nD τ) arg10 fullShare a.2.1 ∗ owns (c : Thread nD τ) arg11 fullShare a.2.2
        ∗ (iprop(owns (c : Thread nD τ) arg2 fullShare xr ∗ owns (c : Thread nD τ) arg3 fullShare xc
            ∗ owns (c : Thread nD τ) arg4 fullShare lr ∗ owns (c : Thread nD τ) arg5 fullShare lc
            ∗ owns (c : Thread nD τ) arg6 fullShare (accStep i xr xc lr lc a).1
            ∗ owns (c : Thread nD τ) arg7 fullShare (accStep i xr xc lr lc a).2.1
            ∗ owns (c : Thread nD τ) arg8 fullShare (accStep i xr xc lr lc a).2.2
            ∗ owns (c : Thread nD τ) arg9 fullShare (accStep i xr xc lr lc a).1
            ∗ owns (c : Thread nD τ) arg10 fullShare (accStep i xr xc lr lc a).2.1
            ∗ owns (c : Thread nD τ) arg11 fullShare (accStep i xr xc lr lc a).2.2) -∗ K ⟨⟩))
      ⊢ wp frame (wpE (defs₀ (F := F)) Variants.none c none) E
          (cc0__snnl_kernel i arg2 harg2 arg3 harg3 arg4 harg4 arg5 harg5 arg6 harg6 arg7 harg7 arg8 harg8 arg9 harg9 arg10 harg10 arg11 harg11) K := by
  unfold accStep; dsimp only
  simp only [cc0__snnl_kernel_eq_skeleton]; unfold cc0__snnl_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩,
    ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H7]
  · iexists _; isplitr
    swap; · iexact H7
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H8]
  · iexists _; isplitr
    swap; · iexact H8
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H9]
  · iexists _; isplitr
    swap; · iexact H9
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H10]
  · iexists _; isplitr
    swap; · iexact H10
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  iexists _; isplitr
  swap; · iexact H11
  ipureintro
  sl_unfold_words
  rw [read_writes_cons_whole (S := S512) _ _ hz1]
  simp only [readCov_cons_whole (S := S512) _ hz1, View.readAt_eq_ld, harg2.read_unread, harg3.read_unread, harg4.read_unread,
    harg5.read_unread, harg9.read_unread, harg10.read_unread, harg11.read_unread,
    View.ld_unit_zero (S := S512) hz1, View.ld_unit_zero (S := S512x256) hz2]

section
variable (V : (c : Dev nD) → (b : Ref sig .tc) → Buf (Elt F) ((c : Thread nD τ).loc b))

/-- Each input window's current staging buffer holds its block at every point, fetched there or not: a window whose
    block index does not move between two points keeps the block it was handed. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The accumulators after a point that resets them: one update of the reset value by the point's tiles. -/
theorem accAt_reset (c : Dev nD) (t : Fin cfg0.N) (h : t.val % 16 = 0) :
    accAt V c t.val = accStep (cfg0.grid.coords t) (iblk V c 0 t) (iblk V c 1 t) (iblk V c 2 t) (iblk V c 3 t) accZero := by
  obtain ⟨n, hn⟩ := t
  cases n with
  | zero => exact dif_pos hn
  | succ n =>
    exact (dif_pos hn).trans (congrArg (accStep (cfg0.grid.coords ⟨n + 1, hn⟩) (iblk V c 0 ⟨n + 1, hn⟩) (iblk V c 1 ⟨n + 1, hn⟩)
      (iblk V c 2 ⟨n + 1, hn⟩) (iblk V c 3 ⟨n + 1, hn⟩)) (if_pos h))

/-- The accumulators after a point that does not: one update of what the point before left. -/
theorem accAt_keep (c : Dev nD) (t : Fin cfg0.N) (h : ¬t.val % 16 = 0) :
    accAt V c t.val = accStep (cfg0.grid.coords t) (iblk V c 0 t) (iblk V c 1 t) (iblk V c 2 t) (iblk V c 3 t) (accAt V c (t.val - 1)) := by
  obtain ⟨n, hn⟩ := t
  cases n with
  | zero => exact absurd (Nat.zero_mod 16) h
  | succ n =>
    exact (dif_pos hn).trans (congrArg (accStep (cfg0.grid.coords ⟨n + 1, hn⟩) (iblk V c 0 ⟨n + 1, hn⟩) (iblk V c 1 ⟨n + 1, hn⟩)
      (iblk V c 2 ⟨n + 1, hn⟩) (iblk V c 3 ⟨n + 1, hn⟩)) (if_neg h))

/-- What the body is called with at point `t`: the invariant, what the core owes, and each window's current staging
    buffer at what the pipeline left in it, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

set_option maxHeartbeats 4000000 in
/-- The body at any point: the input windows' buffers hold their blocks; the invariant hands over the three accumulators,
    after the first point at what the point before left; the point either resets them or not, and in either case leaves
    them, and the three output windows' buffers, at the accumulators' value after this point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = Φ0 V c t.succ from rfl, show (dat V c).Φ t.castSucc = Φ0 V c t.castSucc from rfl,
    show (dat V c).owesAt () t.succ = (dat V c).owesAt () t.castSucc from rfl,
    after_0, after_1, after_2, after_3, after_4, after_5, after_6]
  unfold Φ0
  simp only [Fin.val_succ, Fin.coe_castSucc, Nat.add_sub_cancel]
  by_cases h : t.val % 16 = 0
  · rw [accAt_reset V c t h]
    iintro ⟨⟨%a, -, HS0, HS1, HS2, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel_reset c Set.univ (grid0.coords t) _ _ _ _ _ _ _ _ _ _ _ _ _ _ _ _ _ _ _ _ ((resets_iff t).mpr h)
      (iblk V c 0 t) (iblk V c 1 t) (iblk V c 2 t) (iblk V c 3 t) a _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hrest]
    · iexists _; isplitr; · ipureintro; exact fun _ => rfl
      isplitl [HS0]; · iexact HS0
      isplitl [HS1]; · iexact HS1
      isplitl [HS2]; · iexact HS2
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_keep V c t h]
    iintro ⟨⟨%a, %ha, HS0, HS1, HS2, Hrest⟩, Ho, ⟨%d0, H0⟩, ⟨%d1, H1⟩, ⟨%d2, H2⟩, ⟨%d3, H3⟩, ⟨%d4, H4⟩, ⟨%d5, H5⟩, ⟨%d6, H6⟩⟩
    obtain rfl : a = accAt V c (t.val - 1) := ha (Nat.pos_of_ne_zero fun e => h (by rw [e]))
    iapply (sound_kernel_keep c Set.univ (grid0.coords t) _ _ _ _ _ _ _ _ _ _ _ _ _ _ _ _ _ _ _ _ (fun hr => h ((resets_iff t).mp hr))
      (iblk V c 0 t) (iblk V c 1 t) (iblk V c 2 t) (iblk V c 3 t) (accAt V c (t.val - 1)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hrest]
    · iexists _; isplitr; · ipureintro; exact fun _ => rfl
      isplitl [HS0]; · iexact HS0
      isplitl [HS1]; · iexact HS1
      isplitl [HS2]; · iexact HS2
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first region, at every point of its grid. -/
theorem body_obligation (c : Dev nD) : BodyObligation (dat (F := F) V c) (defs₀ (F := F)) Variants.none () Set.univ := fun t => by
  rw [bigSep_W0, bigSep_W0]
  exact sound_body V c t

end

end Cert.Kernel.Region0

end
-- ==== Proof.WordBody1.lean ====
/-
  The second kernel region (the cross-entropy rows): the body obligation. At every grid point the body,
  called on the three windows' current staging buffers, the logits' and the labels' holding their blocks
  and the result's holding anything, leaves the two inputs as they were and the result's buffer at the
  rows computed from the two blocks. Each access of the body goes through the whole buffer, so a load
  reads the buffer's contents and the one store leaves its payload.
-/
import proofs.«424374_j52003464020705_1_alg».proof.Proof.WordData1
import Idealize.ShloMosaic.Lib.Pipeline.Value

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles -/

/-- The offsets of the whole-buffer rectangle of a rank-one buffer are zero. -/
theorem offsets_zero_rank1 : (![0] : Fin 1 → ℕ) = fun _ => 0 := funext fun a => by fin_cases a <;> rfl

/-- The offsets of the whole-buffer rectangle of a rank-two buffer are zero. -/
theorem offsets_zero_rank2 : (![0, 0] : Fin 2 → ℕ) = fun _ => 0 := funext fun a => by fin_cases a <;> rfl

/-- The one store of the body, through the whole result buffer, covers every row. -/
theorem store_covers_rows (w : Vec F S1024 .f32) (y : S1024.Idx) :
    ∃ pc ∈ ([⟨Rect.unit (s := S1024) ![0] S1024.size inb_S1024_S1024_0, w⟩] : List (View.Piece (Elt F) S1024 .f32)),
      y ∈ pc.1.set :=
  ⟨_, List.mem_singleton_self _, View.mem_set_unit_zero offsets_zero_rank1 inb_S1024_S1024_0 y⟩

section
variable (V : (c : Dev nD) → (b : Ref sig .tc) → Buf (Elt F) ((c : Thread nD τ).loc b))

/-! ## The inputs' staging buffers hold their blocks -/

/-- The logits' current staging buffer holds the point's block of logits, fetched at this point or not, for any
    proof data whose array is the region's entry contents and whose body leaves the block in place. -/
theorem logits_before_eq_block {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The labels' current staging buffer holds the point's block of labels, likewise. -/
theorem labels_before_eq_block {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

theorem logits_before (c : Dev nD) (t : Fin cfg1.N) (d) : (dat V c).before 0 t d = iblk V c 0 t :=
  logits_before_eq_block V (dat V c) (A_eq V c 0) (after_0 V c) t d

theorem labels_before (c : Dev nD) (t : Fin cfg1.N) (d) : (dat V c).before 1 t d = iblk V c 1 t :=
  labels_before_eq_block V (dat V c) (A_eq V c 1) (after_1 V c) t d

end

/-! ## The body's triple -/

set_option maxHeartbeats 1000000 in
/-- The kernel body on whole staging memrefs, the logits' at contents `x0`, the labels' at `x1` and the result's
    at anything, runs to the continuation holding the inputs' as they were and the result's at the rows computed
    from `x0` and `x1`: the two loads read `x0` and `x1`, the load of the result buffer is not used, and the store
    through the whole result buffer leaves its payload. -/
theorem kernel_leaves_rows (c : Dev nD) (E : Set ℕ) (i : grid1.Coords)
    (arg1 : Memref sig .tc .vmem S1024x1000 .f32) (harg1 : arg1.IsWhole)
    (arg2 : Memref sig .tc .vmem S1024 .i32) (harg2 : arg2.IsWhole)
    (arg3 : Memref sig .tc .vmem S1024 .f32) (harg3 : arg3.IsWhole)
    (x0 : Vec F S1024x1000 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outRows x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers_rows _), View.canon_unit_zero offsets_zero_rank1]
  unfold outRows
  rw [View.readAt_eq_ld, View.readAt_eq_ld, View.ld_unit_zero offsets_zero_rank2, View.ld_unit_zero offsets_zero_rank1]

section
variable (V : (c : Dev nD) → (b : Ref sig .tc) → Buf (Elt F) ((c : Thread nD τ).loc b))

/-! ## The body obligation, at a generic point -/

/-- What the body is called with at point `t`: the invariant, the core's debts, and the three windows' current
    staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the body's triple applies; the invariant and
    the core's debts pass through unread. -/
theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [logits_before, labels_before]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (kernel_leaves_rows c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point: the three windows opened one by one. -/
theorem body_obligation (c : Dev nD) :
    BodyObligation (dat (F := F) V c) (defs₀ (F := F)) Variants.none () Set.univ := fun t => by
  rw [bigSep_W1, bigSep_W1]
  exact body_at_point V c t

end

end Cert.Kernel.Region1

end
-- ==== Proof.WordShares0.lean ====
/-
  The first kernel region's arrays at its entry and at its exit, when windows share an array. Of a core's unscoped
  buffers at a valuation, the five distinct buffers behind the seven windows are each held whole at the full share;
  the region's proof data holds the two windows on the normalised matrix at the two halves of that buffer's share,
  the two windows on the labels at the two halves of theirs, and each output window at the full share. A full share
  splits into its two halves and the halves rejoin, at the same contents: that is the whole of the passage in
  either direction.
-/
import proofs.«424374_j52003464020705_1_alg».proof.Proof.WordData0
import proofs.«424374_j52003464020705_1_alg».proof.Proof.Gen.Kernel.Launch
import proofs.«424374_j52003464020705_1_alg».proof.Proof.Gen.Kernel.Skeleton
import proofs.«424374_j52003464020705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's unscoped buffers at a valuation are the distinct buffers behind the windows' arrays and the rest. -/
theorem unscoped_split (c : Dev nD) (W : (b : Ref sig .tc) → Buf (Elt F) ((c : Thread nD τ).loc b)) :
    (unscopedBufs c W : sProp 𝕄) = iprop((Pipeline.arrBufs spec0 c W : sProp 𝕄) ∗ Pipeline.unscopedRest spec0 c W) :=
  Pipeline.unscopedBufs_split₀ cfgs 0 winFacts₀0.arr_unscoped c W

/-- The distinct buffers behind the seven windows are five, each whole at the full share. -/
theorem arrBufs_chain (c : Dev nD) (W : (b : Ref sig .tc) → Buf (Elt F) ((c : Thread nD τ).loc b)) :
    (Pipeline.arrBufs spec0 c W : sProp 𝕄)
      = iprop((((c : Thread nD τ).loc main_v5) ↦{fullShare} W main_v5)
        ∗ (((c : Thread nD τ).loc main_arg2) ↦{fullShare} W main_arg2)
        ∗ (((c : Thread nD τ).loc main_v6_0) ↦{fullShare} W main_v6_0)
        ∗ (((c : Thread nD τ).loc main_v6_1) ↦{fullShare} W main_v6_1)
        ∗ (((c : Thread nD τ).loc main_v6_2) ↦{fullShare} W main_v6_2)) := by
  unfold Pipeline.arrBufs
  exact bigSep_eq_bigSepL_of_eq [main_v5, main_arg2, main_v6_0, main_v6_1, main_v6_2] (by decide) (by decide) _

section
variable (V : (c : Dev nD) → (b : Ref sig .tc) → Buf (Elt F) ((c : Thread nD τ).loc b))

/-- The shares the region's data holds the windows' arrays at: the inputs' own halves, the outputs' full. -/
theorem share_0 (c : Dev nD) : (dat V c).share 0 = fullShare.left := rfl
theorem share_1 (c : Dev nD) : (dat V c).share 1 = fullShare.right := rfl
theorem share_2 (c : Dev nD) : (dat V c).share 2 = fullShare.left := rfl
theorem share_3 (c : Dev nD) : (dat V c).share 3 = fullShare.right := rfl
theorem share_4 (c : Dev nD) : (dat V c).share 4 = fullShare := rfl
theorem share_5 (c : Dev nD) : (dat V c).share 5 = fullShare := rfl
theorem share_6 (c : Dev nD) : (dat V c).share 6 = fullShare := rfl

/-- The region's arrays at contents `G`, window by window: every window's array is a whole buffer. -/
theorem arrays_chain (c : Dev nD) (G : (w : Fin cfg0.W) → Buf (Elt F) ((cfg0.win w).arr.view.loc (c : Thread nD τ))) :
    ((dat V c).arrays G : sProp 𝕄)
      = iprop((((c : Thread nD τ).loc main_v5) ↦{fullShare.left} G 0)
        ∗ (((c : Thread nD τ).loc main_v5) ↦{fullShare.right} G 1)
        ∗ (((c : Thread nD τ).loc main_arg2) ↦{fullShare.left} G 2)
        ∗ (((c : Thread nD τ).loc main_arg2) ↦{fullShare.right} G 3)
        ∗ (((c : Thread nD τ).loc main_v6_0) ↦{fullShare} G 4)
        ∗ (((c : Thread nD τ).loc main_v6_1) ↦{fullShare} G 5)
        ∗ (((c : Thread nD τ).loc main_v6_2) ↦{fullShare} G 6)) := by
  unfold Dat.arrays
  -- windows 0 and 1 share one whole buffer, windows 2 and 3 another: the fact for the first of a pair rewrites both
  rewrite [bigSep_W0, (arr_whole0 0).set_eq_univ, (arr_whole0 2).set_eq_univ, (arr_whole0 4).set_eq_univ,
    (arr_whole0 5).set_eq_univ, (arr_whole0 6).set_eq_univ,
    share_0, share_1, share_2, share_3, share_4, share_5, share_6]
  rfl

end

section
variable (V : (c : Dev nD) → (b : Ref sig .tc) → Buf (Elt F) ((c : Thread nD τ).loc b))

/-- ENTRY: a core's unscoped buffers at `V` are the region's arrays at their entry contents and the unscoped rest.
    The buffer behind two windows is split into the two halves of its share, one per window. -/
theorem entry_arrays (c : Dev nD) :
    (unscopedBufs c (V c) : sProp 𝕄) ⊢ iprop((dat V c).arrays ((dat V c).arrAt · 0) ∗ Pipeline.unscopedRest spec0 c (V c)) := by
  rw [unscoped_split, arrBufs_chain, arrays_chain]
  iintro ⟨⟨Hx, Hl, H0, H1, H2⟩, HR⟩
  ihave Hx := (pointsTo_share (PosShare.mem_left_op_right fullShare)).1 $$ Hx
  icases Hx with ⟨Hx₁, Hx₂⟩
  ihave Hl := (pointsTo_share (PosShare.mem_left_op_right fullShare)).1 $$ Hl
  icases Hl with ⟨Hl₁, Hl₂⟩
  isplitr [HR]
  · isplitl [Hx₁]; · iexact Hx₁
    isplitl [Hx₂]; · iexact Hx₂
    isplitl [Hl₁]; · iexact Hl₁
    isplitl [Hl₂]; · iexact Hl₂
    isplitl [H0]; · iexact H0
    isplitl [H1]; · iexact H1
    iexact H2
  · iexact HR

/-- EXIT: the region's arrays at their exit contents and the unscoped rest at `V` are the core's unscoped buffers at
    any valuation `V'` that has the arrays at their exit contents and agrees with `V` off them. The two halves of a
    shared buffer, both at what `V'` has there, rejoin into the full share. -/
theorem exit_arrays (V' : (c : Dev nD) → (b : Ref sig .tc) → Buf (Elt F) ((c : Thread nD τ).loc b)) (c : Dev nD)
    (hF : ∀ w, (dat V c).arrAt w cfg0.N = V' c (Pipeline.arrRef spec0 w))
    (hrest : ∀ b, b ∉ Finset.univ.image (Pipeline.arrRef spec0) → V' c b = V c b) :
    iprop((dat V c).arrays ((dat V c).arrAt · cfg0.N) ∗ Pipeline.unscopedRest spec0 c (V c)) ⊢ (unscopedBufs c (V' c) : sProp 𝕄) := by
  have hR : (Pipeline.unscopedRest spec0 c (V c) : sProp 𝕄) = Pipeline.unscopedRest spec0 c (V' c) := by
    unfold Pipeline.unscopedRest
    exact bigSep_congr fun b hb => by rw [hrest b (Finset.mem_sdiff.mp hb).2]
  rw [unscoped_split, arrBufs_chain, arrays_chain, hR, hF 0, hF 1, hF 2, hF 3, hF 4, hF 5, hF 6]
  iintro ⟨⟨Hx₁, Hx₂, Hl₁, Hl₂, H0, H1, H2⟩, HR⟩
  ihave Hx := (pointsTo_share (PosShare.mem_left_op_right fullShare)).2 $$ [Hx₁ Hx₂]
  · isplitl [Hx₁] <;> iassumption
  ihave Hl := (pointsTo_share (PosShare.mem_left_op_right fullShare)).2 $$ [Hl₁ Hl₂]
  · isplitl [Hl₁] <;> iassumption
  isplitr [HR]
  · isplitl [Hx]; · iexact Hx
    isplitl [Hl]; · iexact Hl
    isplitl [H0]; · iexact H0
    isplitl [H1]; · iexact H1
    iexact H2
  · iexact HR

end

end Cert.Kernel.Region0

end
-- ==== Proof.WordRun.lean ====
/-
  The kernel program's run, read at every unscoped buffer. @main is eight items: two host stretches (the
  rows' norms; the division and the change of format), the first kernel region (three per-row sums over all columns,
  accumulated block by block), three host stretches (the fallback for rows with no same-label neighbour, the log of
  the quotient and its mean), the second kernel region (the log-probability at each row's label), and the last host
  stretch (its mean and the weighted sum of the two terms). Between two items each core holds every unscoped buffer
  whole at a known valuation: the launch contents pushed through the host stretches, with the regions' result arrays
  replaced by what their write-backs leave. The run is the library's launch of that list of segments; the frame and the
  result's value are read off its last valuation.
-/
import proofs.«424374_j52003464020705_1_alg».proof.Proof.WordData0
import proofs.«424374_j52003464020705_1_alg».proof.Proof.WordData1
import proofs.«424374_j52003464020705_1_alg».proof.Proof.WordBody0
import proofs.«424374_j52003464020705_1_alg».proof.Proof.WordBody1
import proofs.«424374_j52003464020705_1_alg».proof.Proof.WordShares0
import proofs.«424374_j52003464020705_1_alg».proof.Proof.Gen.Kernel.Regions
import proofs.«424374_j52003464020705_1_alg».proof.Proof.Gen.Kernel.Launch
import proofs.«424374_j52003464020705_1_alg».proof.Proof.Gen.Kernel.Skeleton
import proofs.«424374_j52003464020705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s unscoped buffers when the first region is entered: the launch contents after the two host stretches
    that normalise the rows. -/
abbrev Win0 (c : Dev nD) : Valuation τ sig (Elt F) := Gen.V2 m c
/-- The same, read at the TensorCore's references. -/
abbrev Vin0 : (c : Dev nD) → (b : Ref sig .tc) → Buf (Elt F) ((c : Thread nD τ).loc b) := fun c b => Win0 m c b

/-- What the first region leaves in its three result arrays. -/
def top0 (c : Dev nD) : Buf (Elt F) ((c : Thread nD τ).loc main_v6_0) := (Region0.dat (Vin0 m) c).arrAt 4 cfg0.N
def bot0 (c : Dev nD) : Buf (Elt F) ((c : Thread nD τ).loc main_v6_1) := (Region0.dat (Vin0 m) c).arrAt 5 cfg0.N
def mask0 (c : Dev nD) : Buf (Elt F) ((c : Thread nD τ).loc main_v6_2) := (Region0.dat (Vin0 m) c).arrAt 6 cfg0.N

/-- What the regions leave, as the unknowns of the contents fold: the first region's three result arrays. -/
def outsA : Gen.Outs (F := F) := fun _ r c =>
  if h : r = main_v6_0 then (by subst h; exact top0 m c)
  else if h : r = main_v6_1 then (by subst h; exact bot0 m c)
  else if h : r = main_v6_2 then (by subst h; exact mask0 m c)
  else m ((c : Thread nD τ).loc r)

/-- Core `c`'s unscoped buffers when the second region is entered. -/
abbrev Win1 (c : Dev nD) : Valuation τ sig (Elt F) := Gen.V6 m (outsA m) c
abbrev Vin1 : (c : Dev nD) → (b : Ref sig .tc) → Buf (Elt F) ((c : Thread nD τ).loc b) := fun c b => Win1 m c b

/-- What the second region leaves in its result array. -/
def sel1 (c : Dev nD) : Buf (Elt F) ((c : Thread nD τ).loc main_v15) := (Region1.dat (Vin1 m) c).arrAt 2 cfg1.N

/-- The unknowns of the fold, all four arrays. -/
def outs : Gen.Outs (F := F) := fun j r c =>
  if h : r = main_v15 then (by subst h; exact sel1 m c) else outsA m j r c

theorem outs_top (j : ℕ) (c : Dev nD) : outs m j main_v6_0 c = top0 m c := by
  unfold outs outsA; rw [dif_neg (by decide), dif_pos rfl]
theorem outs_bot (j : ℕ) (c : Dev nD) : outs m j main_v6_1 c = bot0 m c := by
  unfold outs outsA; rw [dif_neg (by decide), dif_neg (by decide), dif_pos rfl]
theorem outs_mask (j : ℕ) (c : Dev nD) : outs m j main_v6_2 c = mask0 m c := by
  unfold outs outsA; rw [dif_neg (by decide), dif_neg (by decide), dif_neg (by decide), dif_pos rfl]
theorem outs_sel (j : ℕ) (c : Dev nD) : outs m j main_v15 c = sel1 m c := by
  unfold outs; rw [dif_pos rfl]
theorem outsA_top (j : ℕ) (c : Dev nD) : outsA m j main_v6_0 c = top0 m c := by
  unfold outsA; rw [dif_pos rfl]
theorem outsA_bot (j : ℕ) (c : Dev nD) : outsA m j main_v6_1 c = bot0 m c := by
  unfold outsA; rw [dif_neg (by decide), dif_pos rfl]
theorem outsA_mask (j : ℕ) (c : Dev nD) : outsA m j main_v6_2 c = mask0 m c := by
  unfold outsA; rw [dif_neg (by decide), dif_neg (by decide), dif_pos rfl]

/-- The fold up to the second region's entry reads the unknowns only at the first region's arrays. -/
theorem V3_outs (c : Dev nD) : Gen.V3 m (outs m) c = Gen.V3 m (outsA m) c := by
  unfold Gen.V3; rw [outs_top, outs_bot, outs_mask, outsA_top, outsA_bot, outsA_mask]
theorem V6_outs (c : Dev nD) : Gen.V6 m (outs m) c = Win1 m c := by
  unfold Win1 Gen.V6 Gen.V5 Gen.V4; rw [V3_outs]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Region0.dat (Vin0 m) c
  | ⟨1, _⟩ => fun c => Region1.dat (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev Rest (c : Dev nD) : sProp 𝕄 := iprop((∃ r, prngReg c r) ∗ ∃ W, owes (c : Thread nD τ) (0 : CellTallies nD τ sig Unit) W)
abbrev E : Fin 3 → Dev nD → sProp 𝕄 := fun _ c => Rest c

/-! ## The second region as a segment -/

theorem hF1 (c : Dev nD) (w : Fin cfg1.W) : (Region1.dat (Vin1 m) c).arrAt w cfg1.N = Gen.V7 m (outs m) c (Pipeline.arrRef spec1 w) := by
  have h0 : (Region1.dat (Vin1 m) c).arrAt 0 cfg1.N = Gen.V7 m (outs m) c (Pipeline.arrRef spec1 0) := by
    rw [(Region1.dat (Vin1 m) c).arrAt_in 0 rfl _, Region1.A_eq]
    exact ((Gen.V7_of m (outs m) c main_arg1 (by decide)).trans (congrFun (V6_outs m c) _)).symm
  have h1 : (Region1.dat (Vin1 m) c).arrAt 1 cfg1.N = Gen.V7 m (outs m) c (Pipeline.arrRef spec1 1) := by
    rw [(Region1.dat (Vin1 m) c).arrAt_in 1 rfl _, Region1.A_eq]
    exact ((Gen.V7_of m (outs m) c main_arg2 (by decide)).trans (congrFun (V6_outs m c) _)).symm
  have h2 : (Region1.dat (Vin1 m) c).arrAt 2 cfg1.N = Gen.V7 m (outs m) c (Pipeline.arrRef spec1 2) := by
    show sel1 m c = Function.update (Gen.V6 m (outs m) c) (Proc.devRef .tc main_v15) (outs m 7 main_v15 c) (Proc.devRef .tc main_v15)
    rw [Function.update_self, outs_sel]
  match w with
  | ⟨0, _⟩ => exact h0
  | ⟨1, _⟩ => exact h1
  | ⟨2, _⟩ => exact h2
theorem hrest1 (c : Dev nD) : ∀ b, b ∉ Finset.univ.image (Pipeline.arrRef spec1) → Gen.V7 m (outs m) c b = Vin1 m c b := by
  intro b hb
  have hne : b ≠ main_v15 := fun e => hb (Finset.mem_image.mpr ⟨2, Finset.mem_univ _, e.symm⟩)
  exact (Gen.V7_of m (outs m) c b (by simpa using hne)).trans (congrFun (V6_outs m c) _)

set_option backward.isDefEq.respectTransparency.types false in
/-- The second region over the thread state: entered from every unscoped buffer at its entry contents, left with its
    result array at what the write-backs leave and every other buffer as entered. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (Vin1 m) c).loose
  hwaits := Pipeline.hwaits_of_owed_zero _ _ _ _ L lv 1 fun _ _ => rfl
  pre c := iprop(StableHlo.held (c : Thread nD τ) (Pipeline.ucRefs τ sig) (Gen.V6 m (outs m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V6_outs]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first region as a segment -/

theorem hF0 (c : Dev nD) (w : Fin cfg0.W) : (Region0.dat (Vin0 m) c).arrAt w cfg0.N = Gen.V3 m (outs m) c (Pipeline.arrRef spec0 w) := by
  have hin (w : Fin cfg0.W) (hw : (cfg0.win w).isOut = false) (b : Ref sig .tc) (hb : Pipeline.arrRef spec0 w = b)
      (hn : b ∉ ([main_v6_0, main_v6_1, main_v6_2] : List (Ref sig .tc))) :
      (Region0.dat (Vin0 m) c).arrAt w cfg0.N = Gen.V3 m (outs m) c (Pipeline.arrRef spec0 w) := by
    rw [(Region0.dat (Vin0 m) c).arrAt_in w hw _, Region0.A_eq]
    subst hb
    exact (Gen.V3_of m (outs m) c _ hn).symm
  have h4 : (Region0.dat (Vin0 m) c).arrAt 4 cfg0.N = Gen.V3 m (outs m) c (Pipeline.arrRef spec0 4) := by
    show top0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_0)
    rw [Function.update_of_ne (StableHlo.devRef_ne_of_ne (by decide)), Function.update_of_ne (StableHlo.devRef_ne_of_ne (by decide)), Function.update_self, outs_top]
  have h5 : (Region0.dat (Vin0 m) c).arrAt 5 cfg0.N = Gen.V3 m (outs m) c (Pipeline.arrRef spec0 5) := by
    show bot0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_1)
    rw [Function.update_of_ne (StableHlo.devRef_ne_of_ne (by decide)), Function.update_self, outs_bot]
  have h6 : (Region0.dat (Vin0 m) c).arrAt 6 cfg0.N = Gen.V3 m (outs m) c (Pipeline.arrRef spec0 6) := by
    show mask0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_2)
    rw [Function.update_self, outs_mask]
  match w with
  | ⟨0, _⟩ => exact hin 0 rfl main_v5 rfl (by decide)
  | ⟨1, _⟩ => exact hin 1 rfl main_v5 rfl (by decide)
  | ⟨2, _⟩ => exact hin 2 rfl main_arg2 rfl (by decide)
  | ⟨3, _⟩ => exact hin 3 rfl main_arg2 rfl (by decide)
  | ⟨4, _⟩ => exact h4
  | ⟨5, _⟩ => exact h5
  | ⟨6, _⟩ => exact h6
theorem hrest0 (c : Dev nD) : ∀ b, b ∉ Finset.univ.image (Pipeline.arrRef spec0) → Gen.V3 m (outs m) c b = Vin0 m c b := by
  intro b hb
  have h4 : b ≠ main_v6_0 := fun e => hb (Finset.mem_image.mpr ⟨4, Finset.mem_univ _, e.symm⟩)
  have h5 : b ≠ main_v6_1 := fun e => hb (Finset.mem_image.mpr ⟨5, Finset.mem_univ _, e.symm⟩)
  have h6 : b ≠ main_v6_2 := fun e => hb (Finset.mem_image.mpr ⟨6, Finset.mem_univ _, e.symm⟩)
  exact Gen.V3_of m (outs m) c b (by simp [h4, h5, h6])

set_option backward.isDefEq.respectTransparency.types false in
/-- The first region over the thread state: entered from every unscoped buffer at its entry contents — the normalised
    matrix and the labels each dealt in halves to the two windows that read them —, left with its three result arrays at
    what the write-backs leave and every other buffer as entered; the three accumulators come out of the scoped rest at
    the first point and go back to it, forgotten, after the last. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Region0.body_obligation (Vin0 m) c).loose
  hwaits := Pipeline.hwaits_of_owed_zero _ _ _ _ L lv 0 fun _ _ => rfl
  pre c := iprop(StableHlo.held (c : Thread nD τ) (Pipeline.ucRefs τ sig) (Gen.V2 m c) ∗ E 0 c)
  post c := iprop(StableHlo.held (c : Thread nD τ) (Pipeline.ucRefs τ sig) (Gen.V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Region0.entry_arrays (F := F) (Vin0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Region0.Φ0 (Vin0 m) c 0 from rfl]; unfold Region0.Φ0
    rw [show Pipeline.scopedRest (Pipeline.pin (pcfgs (F := F)) Gen.adm 0).spec c = (Pipeline.scopedRest (Ix := Unit) (Name := ℕ) (U := UR sig nD τ) (Lvl := ℕ) (Val := Elt F) spec0 c : sProp 𝕄) from rfl, scopedRest0_eq]; simp only [owns_whole]
    iintro ⟨Hp, -, ⟨%f0, H0⟩, ⟨%f1, H1⟩, ⟨%f2, H2⟩, Ha, Hb, Hc, Hd, He, Hf⟩
    iexists (f0, f1, f2)
    isplitr; · ipureintro; intro h; exact absurd h (Nat.lt_irrefl 0)
    isplitl [H0]; · iexact H0
    isplitl [H1]; · iexact H1
    isplitl [H2]; · iexact H2
    isplitl [Ha]; · iexact Ha
    isplitl [Hb]; · iexact Hb
    isplitl [Hc]; · iexact Hc
    isplitl [Hd]; · iexact Hd
    isplitl [He]; · iexact He
    isplitl [Hf]; · iexact Hf
    iexact Hp
  hout c := by
    rw [Pipeline.ownSems0_none, show (pdats m 0 c).Φ (Fin.last _) = Region0.Φ0 (Vin0 m) c (Fin.last _) from rfl]; unfold Region0.Φ0
    rw [show Pipeline.scopedRest (Pipeline.pin (pcfgs (F := F)) Gen.adm 0).spec c = (Pipeline.scopedRest (Ix := Unit) (Name := ℕ) (U := UR sig nD τ) (Lvl := ℕ) (Val := Elt F) spec0 c : sProp 𝕄) from rfl, scopedRest0_eq]; simp only [owns_whole]
    iintro ⟨%a, -, H0, H1, H2, Ha, Hb, Hc, Hd, He, Hf, Hp⟩
    isplitl [Hp]; · iexact Hp
    isplitr; · iempintro
    isplitl [H0]; · iexists _; iexact H0
    isplitl [H1]; · iexists _; iexact H1
    isplitl [H2]; · iexists _; iexact H2
    isplitl [Ha]; · iexact Ha
    isplitl [Hb]; · iexact Hb
    isplitl [Hc]; · iexact Hc
    isplitl [Hd]; · iexact Hd
    isplitl [He]; · iexact He
    iexact Hf
  hexit c := by
    have hjoin := Region0.exit_arrays (F := F) (Vin0 m) (fun c b => Gen.V3 m (outs m) c b) c (hF0 m c) (hrest0 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## The run: every unscoped buffer read at the end -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer of every core ends at the contents fold's last valuation: the launch contents through the host
    stretches, with the four result arrays of the two regions at what their write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V8 m (outs m) c))
    (hch := fun c => ⟨.rfl, .rfl, .rfl, .rfl, .rfl, .rfl, .rfl, .rfl,
      sep_mono .rfl (show E 2 c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c)⟩) (run_all m ρ)

/-- The run with the result buffer named: it ends at the last host stretch's value of the fold. -/
theorem run_result : θ_run defs (onTc (τ := τ) (main (F := F))) ⟨m, fun _ => 0, ρ⟩ (fun r => ∀ c : Dev nD,
      r.2.mem ((c.tc : Thread nD τ).loc main_v20) = Gen.V8 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v20 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c)⟩) (run_all m ρ)

end Cert.Kernel.Run

end
-- ==== Proof.Data0.lean ====
/-
  The first kernel region (the soft-nearest-neighbour row sums): what each window's staging buffer and
  the three accumulators hold after the body at a grid point, as a function of the region's entry contents.
  The grid is 16 × 16, point `t` at coordinates `(i, j) = (t / 16, t % 16)`. The body at `(i, j)` reads rows
  `512·i …` and rows `512·j …` of the normalised matrix and of the labels, forms the 512 × 512 tile
  `E = exp(−(1 − ⟨x_r, x_c⟩)/T)`, the tile of "same label and not the same row" and of "not the same row",
  and adds the three tiles' row sums into three accumulators that it zeroes when `j = 0`; after every point it
  copies the accumulators to the three output windows, whose block index is `i` alone, so that what reaches the
  arrays is what the accumulators hold at `j = 15`.
-/
import proofs.«424374_j52003464020705_1_alg».proof.Proof.Gen.KernelIdeal.Launch
import proofs.«424374_j52003464020705_1_alg».proof.Proof.Gen.KernelIdeal.Skeleton
import proofs.«424374_j52003464020705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators as one value: (Σ E·same·notself, Σ E·notself, Σ same·notself), one entry per row of the tile. -/
abbrev Acc (F : FTy → Type) [FloatOps F] : Type := Vec F S512 .f32 × Vec F S512 .f32 × Vec F S512 .f32

/-- The accumulators as the reset at `j = 0` leaves them. -/
def accZero : Acc F := (k0_pay4 (F := F), k0_pay5 (F := F), k0_pay6 (F := F))

/-- One point's update of the accumulators: each gains the row sums of its tile, built from the row block `xr`, the
    column block `xc`, and the two label blocks. -/
def accStep (i : grid0.Coords) (xr xc : Vec F S512x256 .bf16) (lr lc : Vec F S512 .i32) (a : Acc F) : Acc F :=
  (k0_pay1 (k0_pay10 i xr xc lr lc) a.1, k0_pay2 (k0_pay11 i xr xc) a.2.1, k0_pay3 (k0_pay9 i lr lc) a.2.2)

/-- What the accumulators hold after point `n` (counting points from 0; beyond the grid, what the last point left):
    the reset value or the previous point's, updated by the point's tiles. -/
def accAt (c : Dev nD) : ℕ → Acc F
  | 0 => if h : 0 < cfg0.N then
      accStep (cfg0.grid.coords ⟨0, h⟩) (iblk V c 0 ⟨0, h⟩) (iblk V c 1 ⟨0, h⟩) (iblk V c 2 ⟨0, h⟩) (iblk V c 3 ⟨0, h⟩) accZero
    else accZero
  | n + 1 => if h : n + 1 < cfg0.N then
      accStep (cfg0.grid.coords ⟨n + 1, h⟩) (iblk V c 0 ⟨n + 1, h⟩) (iblk V c 1 ⟨n + 1, h⟩) (iblk V c 2 ⟨n + 1, h⟩) (iblk V c 3 ⟨n + 1, h⟩)
        (if (n + 1) % 16 = 0 then accZero else accAt c n)
    else accAt c n

/-- The body's invariant before point `t`: the three accumulator buffers whole at some contents, which after the
    first point are `accAt` of the point before; the other scoped buffers and the generator register untouched. -/
def Φ0 (c : Dev nD) (t : Fin (cfg0.N + 1)) : sProp 𝕄 :=
  iprop(∃ a : Acc F, ⌜0 < t.val → a = accAt V c (t.val - 1)⌝
    ∗ owns (c : Thread nD τ) (Memref.whole cc0_scratch0) fullShare a.1
    ∗ owns (c : Thread nD τ) (Memref.whole cc0_scratch1) fullShare a.2.1
    ∗ owns (c : Thread nD τ) (Memref.whole cc0_scratch2) fullShare a.2.2
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ r, prngReg c r))

/-- The region's proof data on core `c`. The two windows on the normalised matrix, and the two on the labels, each hold
    half of their array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val).1
    | ⟨5, _⟩ => (accAt V c t.val).2.1
    | ⟨6, _⟩ => (accAt V c t.val).2.2
  Φ t := Φ0 V c t
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (accAt V c t.val).1 := by dsimp only [dat]
theorem after_5 (c : Dev nD) (t : Fin cfg0.N) : (dat V c).after 5 t = (accAt V c t.val).2.1 := by dsimp only [dat]
theorem after_6 (c : Dev nD) (t : Fin cfg0.N) : (dat V c).after 6 t = (accAt V c t.val).2.2 := by dsimp only [dat]

end

end Cert.KernelIdeal.Region0

end
-- ==== Proof.Data1.lean ====
/-
  The second kernel region (the cross-entropy rows): what each window's staging buffer holds after the
  body at a grid point, as a function of the region's entry contents. The grid has eight points; point
  `t` reads rows `1024·t … 1024·t+1023` of the logits and of the labels and writes the same rows of the
  result, `selected − (rowmax + log Σ exp(logit − rowmax))` per row, the selected logit taken by a
  one-hot sum over the thousand columns.
-/
import proofs.«424374_j52003464020705_1_alg».proof.Proof.Gen.KernelIdeal.Launch
import proofs.«424374_j52003464020705_1_alg».proof.Proof.Gen.KernelIdeal.Skeleton
import proofs.«424374_j52003464020705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the result the body computes from a block of logits and a block of labels. -/
def outRows (x0 : Vec F S1024x1000 .f32) (x1 : Vec F S1024 .i32) : Vec F S1024 .f32 := k1_pay1 x0 x1

/-- The region's proof data on core `c`: inputs stay at their blocks, the output buffer holds `outRows` of them. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outRows (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outRows (iblk V c 0 t) (iblk V c 1 t) := by dsimp only [dat]

end

end Cert.KernelIdeal.Region1

end
-- ==== Proof.Body0.lean ====
/-
  The first kernel region's body, point by point. At grid point (i, j) the body, when j = 0, overwrites the three
  accumulators with zeros; it then reads the row block, the column block and the two label blocks whole, adds to each
  accumulator the row sums of its 512 × 512 tile, and copies the three accumulators whole into the three output
  windows' buffers. So after the point the accumulators hold one update (`accStep`) of the zero value when j = 0 and
  of what the point before left otherwise — which is `accAt` at the point, by its defining recursion — and each output
  window's buffer holds the matching component. The input windows' buffers are read only, and hold their blocks at
  every point whether the block was brought in there or kept from the point before.
-/
import proofs.«424374_j52003464020705_1_alg».proof.Proof.Data0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access, rank one and rank two, are zero. -/
theorem hz1 : (![0] : Fin 1 → Nat) = fun _ => 0 := funext fun a => by fin_cases a; rfl
theorem hz2 : (![0, 0] : Fin 2 → Nat) = fun _ => 0 := funext fun a => by fin_cases a <;> rfl

/-- A buffer whose last store was a whole-block store reads, whatever was stored before, what that store wrote. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-block load after a whole-block store, whatever was stored before it, reads what that store wrote. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The reset condition of the body, from the grid coordinates: the column coordinate is zero. -/
abbrev resets (i : grid0.Coords) : Prop :=
  (Scalar.cmpi .ne (Scalar.extui (Scalar.cmpi .eq (BitVec.ofNat 32 (i 1).val) 0#32)) 0#32) = 1#1

/-- It holds at the first point of each row of the grid: decided over the grid's points. -/
theorem resets_iff : ∀ t : Fin cfg0.N, resets (grid0.coords t) ↔ t.val % 16 = 0 :=
  (by decide +kernel : ∀ t : Fin grid0.N, resets (grid0.coords t) ↔ t.val % 16 = 0)

set_option maxHeartbeats 4000000 in
/-- A point that resets (j = 0): on whole buffers, the inputs' at contents `xr xc lr lc`, the outputs' at anything, the
    accumulators at any `a`, the body leaves the inputs as they were and the accumulators, and the outputs, at one
    update of the zero value by the point's tiles: every store covers its buffer, so each buffer ends at the payload of
    its last store, and a buffer read back after a covering store reads that store's payload. -/
theorem sound_kernel_reset (c : Dev nD) (E : Set ℕ) (i : grid0.Coords)
    (arg2 : Memref sig .tc .vmem S512x256 .bf16) (harg2 : arg2.IsWhole) (arg3 : Memref sig .tc .vmem S512x256 .bf16) (harg3 : arg3.IsWhole)
    (arg4 : Memref sig .tc .vmem S512 .i32) (harg4 : arg4.IsWhole) (arg5 : Memref sig .tc .vmem S512 .i32) (harg5 : arg5.IsWhole)
    (arg6 : Memref sig .tc .vmem S512 .f32) (harg6 : arg6.IsWhole) (arg7 : Memref sig .tc .vmem S512 .f32) (harg7 : arg7.IsWhole)
    (arg8 : Memref sig .tc .vmem S512 .f32) (harg8 : arg8.IsWhole) (arg9 : Memref sig .tc .vmem S512 .f32) (harg9 : arg9.IsWhole)
    (arg10 : Memref sig .tc .vmem S512 .f32) (harg10 : arg10.IsWhole) (arg11 : Memref sig .tc .vmem S512 .f32) (harg11 : arg11.IsWhole)
    (hc : resets i)
    (xr xc : Vec F S512x256 .bf16) (lr lc : Vec F S512 .i32) (a : Acc F) (K : PUnit → sProp 𝕄) :
    iprop(owns (c : Thread nD τ) arg2 fullShare xr ∗ owns (c : Thread nD τ) arg3 fullShare xc
        ∗ owns (c : Thread nD τ) arg4 fullShare lr ∗ owns (c : Thread nD τ) arg5 fullShare lc
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a.1 ∗ owns (c : Thread nD τ) arg10 fullShare a.2.1 ∗ owns (c : Thread nD τ) arg11 fullShare a.2.2
        ∗ (iprop(owns (c : Thread nD τ) arg2 fullShare xr ∗ owns (c : Thread nD τ) arg3 fullShare xc
            ∗ owns (c : Thread nD τ) arg4 fullShare lr ∗ owns (c : Thread nD τ) arg5 fullShare lc
            ∗ owns (c : Thread nD τ) arg6 fullShare (accStep i xr xc lr lc accZero).1
            ∗ owns (c : Thread nD τ) arg7 fullShare (accStep i xr xc lr lc accZero).2.1
            ∗ owns (c : Thread nD τ) arg8 fullShare (accStep i xr xc lr lc accZero).2.2
            ∗ owns (c : Thread nD τ) arg9 fullShare (accStep i xr xc lr lc accZero).1
            ∗ owns (c : Thread nD τ) arg10 fullShare (accStep i xr xc lr lc accZero).2.1
            ∗ owns (c : Thread nD τ) arg11 fullShare (accStep i xr xc lr lc accZero).2.2) -∗ K ⟨⟩))
      ⊢ wp frame (wpE (defs₀ (F := F)) Variants.none c none) E
          (cc0__snnl_kernel i arg2 harg2 arg3 harg3 arg4 harg4 arg5 harg5 arg6 harg6 arg7 harg7 arg8 harg8 arg9 harg9 arg10 harg10 arg11 harg11) K := by
  unfold accStep accZero; dsimp only
  simp only [cc0__snnl_kernel_eq_skeleton]; unfold cc0__snnl_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩,
    ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H7]
  · iexists _; isplitr
    swap; · iexact H7
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H8]
  · iexists _; isplitr
    swap; · iexact H8
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H9]
  · iexists _; isplitr
    swap; · iexact H9
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H10]
  · iexists _; isplitr
    swap; · iexact H10
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  iexists _; isplitr
  swap; · iexact H11
  ipureintro
  sl_unfold_words
  rw [read_writes_cons_whole (S := S512) _ _ hz1]
  simp only [readCov_cons_whole (S := S512) _ hz1, View.readAt_eq_ld, harg2.read_unread, harg3.read_unread, harg4.read_unread,
    harg5.read_unread, harg9.read_unread, harg10.read_unread, harg11.read_unread,
    View.ld_unit_zero (S := S512) hz1, View.ld_unit_zero (S := S512x256) hz2]

set_option maxHeartbeats 4000000 in
/-- A point that does not reset (j ≠ 0): the same, the accumulators and the outputs ending at one update of the value
    `a` the accumulators were handed at. -/
theorem sound_kernel_keep (c : Dev nD) (E : Set ℕ) (i : grid0.Coords)
    (arg2 : Memref sig .tc .vmem S512x256 .bf16) (harg2 : arg2.IsWhole) (arg3 : Memref sig .tc .vmem S512x256 .bf16) (harg3 : arg3.IsWhole)
    (arg4 : Memref sig .tc .vmem S512 .i32) (harg4 : arg4.IsWhole) (arg5 : Memref sig .tc .vmem S512 .i32) (harg5 : arg5.IsWhole)
    (arg6 : Memref sig .tc .vmem S512 .f32) (harg6 : arg6.IsWhole) (arg7 : Memref sig .tc .vmem S512 .f32) (harg7 : arg7.IsWhole)
    (arg8 : Memref sig .tc .vmem S512 .f32) (harg8 : arg8.IsWhole) (arg9 : Memref sig .tc .vmem S512 .f32) (harg9 : arg9.IsWhole)
    (arg10 : Memref sig .tc .vmem S512 .f32) (harg10 : arg10.IsWhole) (arg11 : Memref sig .tc .vmem S512 .f32) (harg11 : arg11.IsWhole)
    (hc : ¬resets i)
    (xr xc : Vec F S512x256 .bf16) (lr lc : Vec F S512 .i32) (a : Acc F) (K : PUnit → sProp 𝕄) :
    iprop(owns (c : Thread nD τ) arg2 fullShare xr ∗ owns (c : Thread nD τ) arg3 fullShare xc
        ∗ owns (c : Thread nD τ) arg4 fullShare lr ∗ owns (c : Thread nD τ) arg5 fullShare lc
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a.1 ∗ owns (c : Thread nD τ) arg10 fullShare a.2.1 ∗ owns (c : Thread nD τ) arg11 fullShare a.2.2
        ∗ (iprop(owns (c : Thread nD τ) arg2 fullShare xr ∗ owns (c : Thread nD τ) arg3 fullShare xc
            ∗ owns (c : Thread nD τ) arg4 fullShare lr ∗ owns (c : Thread nD τ) arg5 fullShare lc
            ∗ owns (c : Thread nD τ) arg6 fullShare (accStep i xr xc lr lc a).1
            ∗ owns (c : Thread nD τ) arg7 fullShare (accStep i xr xc lr lc a).2.1
            ∗ owns (c : Thread nD τ) arg8 fullShare (accStep i xr xc lr lc a).2.2
            ∗ owns (c : Thread nD τ) arg9 fullShare (accStep i xr xc lr lc a).1
            ∗ owns (c : Thread nD τ) arg10 fullShare (accStep i xr xc lr lc a).2.1
            ∗ owns (c : Thread nD τ) arg11 fullShare (accStep i xr xc lr lc a).2.2) -∗ K ⟨⟩))
      ⊢ wp frame (wpE (defs₀ (F := F)) Variants.none c none) E
          (cc0__snnl_kernel i arg2 harg2 arg3 harg3 arg4 harg4 arg5 harg5 arg6 harg6 arg7 harg7 arg8 harg8 arg9 harg9 arg10 harg10 arg11 harg11) K := by
  unfold accStep; dsimp only
  simp only [cc0__snnl_kernel_eq_skeleton]; unfold cc0__snnl_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩,
    ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg9.eq_unread hf9; obtain rfl := harg10.eq_unread hf10; obtain rfl := harg11.eq_unread hf11
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H7]
  · iexists _; isplitr
    swap; · iexact H7
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H8]
  · iexists _; isplitr
    swap; · iexact H8
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H9]
  · iexists _; isplitr
    swap; · iexact H9
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  isplitl [H10]
  · iexists _; isplitr
    swap; · iexact H10
    ipureintro
    sl_unfold_words
    rw [read_writes_cons_whole (S := S512) _ _ hz1]
    simp only [readCov_cons_whole (S := S512) _ hz1, View.readAt_eq_ld, harg2.read_unread, harg3.read_unread, harg4.read_unread,
      harg5.read_unread, harg9.read_unread, harg10.read_unread, harg11.read_unread,
      View.ld_unit_zero (S := S512) hz1, View.ld_unit_zero (S := S512x256) hz2]
  iexists _; isplitr
  swap; · iexact H11
  ipureintro
  sl_unfold_words
  rw [read_writes_cons_whole (S := S512) _ _ hz1]
  simp only [readCov_cons_whole (S := S512) _ hz1, View.readAt_eq_ld, harg2.read_unread, harg3.read_unread, harg4.read_unread,
    harg5.read_unread, harg9.read_unread, harg10.read_unread, harg11.read_unread,
    View.ld_unit_zero (S := S512) hz1, View.ld_unit_zero (S := S512x256) hz2]

section
variable (V : (c : Dev nD) → (b : Ref sig .tc) → Buf (Elt F) ((c : Thread nD τ).loc b))

/-- Each input window's current staging buffer holds its block at every point, fetched there or not: a window whose
    block index does not move between two points keeps the block it was handed. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The accumulators after a point that resets them: one update of the reset value by the point's tiles. -/
theorem accAt_reset (c : Dev nD) (t : Fin cfg0.N) (h : t.val % 16 = 0) :
    accAt V c t.val = accStep (cfg0.grid.coords t) (iblk V c 0 t) (iblk V c 1 t) (iblk V c 2 t) (iblk V c 3 t) accZero := by
  obtain ⟨n, hn⟩ := t
  cases n with
  | zero => exact dif_pos hn
  | succ n =>
    exact (dif_pos hn).trans (congrArg (accStep (cfg0.grid.coords ⟨n + 1, hn⟩) (iblk V c 0 ⟨n + 1, hn⟩) (iblk V c 1 ⟨n + 1, hn⟩)
      (iblk V c 2 ⟨n + 1, hn⟩) (iblk V c 3 ⟨n + 1, hn⟩)) (if_pos h))

/-- The accumulators after a point that does not: one update of what the point before left. -/
theorem accAt_keep (c : Dev nD) (t : Fin cfg0.N) (h : ¬t.val % 16 = 0) :
    accAt V c t.val = accStep (cfg0.grid.coords t) (iblk V c 0 t) (iblk V c 1 t) (iblk V c 2 t) (iblk V c 3 t) (accAt V c (t.val - 1)) := by
  obtain ⟨n, hn⟩ := t
  cases n with
  | zero => exact absurd (Nat.zero_mod 16) h
  | succ n =>
    exact (dif_pos hn).trans (congrArg (accStep (cfg0.grid.coords ⟨n + 1, hn⟩) (iblk V c 0 ⟨n + 1, hn⟩) (iblk V c 1 ⟨n + 1, hn⟩)
      (iblk V c 2 ⟨n + 1, hn⟩) (iblk V c 3 ⟨n + 1, hn⟩)) (if_neg h))

/-- What the body is called with at point `t`: the invariant, what the core owes, and each window's current staging
    buffer at what the pipeline left in it, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

set_option maxHeartbeats 4000000 in
/-- The body at any point: the input windows' buffers hold their blocks; the invariant hands over the three accumulators,
    after the first point at what the point before left; the point either resets them or not, and in either case leaves
    them, and the three output windows' buffers, at the accumulators' value after this point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = Φ0 V c t.succ from rfl, show (dat V c).Φ t.castSucc = Φ0 V c t.castSucc from rfl,
    show (dat V c).owesAt () t.succ = (dat V c).owesAt () t.castSucc from rfl,
    after_0, after_1, after_2, after_3, after_4, after_5, after_6]
  unfold Φ0
  simp only [Fin.val_succ, Fin.coe_castSucc, Nat.add_sub_cancel]
  by_cases h : t.val % 16 = 0
  · rw [accAt_reset V c t h]
    iintro ⟨⟨%a, -, HS0, HS1, HS2, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel_reset c Set.univ (grid0.coords t) _ _ _ _ _ _ _ _ _ _ _ _ _ _ _ _ _ _ _ _ ((resets_iff t).mpr h)
      (iblk V c 0 t) (iblk V c 1 t) (iblk V c 2 t) (iblk V c 3 t) a _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hrest]
    · iexists _; isplitr; · ipureintro; exact fun _ => rfl
      isplitl [HS0]; · iexact HS0
      isplitl [HS1]; · iexact HS1
      isplitl [HS2]; · iexact HS2
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_keep V c t h]
    iintro ⟨⟨%a, %ha, HS0, HS1, HS2, Hrest⟩, Ho, ⟨%d0, H0⟩, ⟨%d1, H1⟩, ⟨%d2, H2⟩, ⟨%d3, H3⟩, ⟨%d4, H4⟩, ⟨%d5, H5⟩, ⟨%d6, H6⟩⟩
    obtain rfl : a = accAt V c (t.val - 1) := ha (Nat.pos_of_ne_zero fun e => h (by rw [e]))
    iapply (sound_kernel_keep c Set.univ (grid0.coords t) _ _ _ _ _ _ _ _ _ _ _ _ _ _ _ _ _ _ _ _ (fun hr => h ((resets_iff t).mp hr))
      (iblk V c 0 t) (iblk V c 1 t) (iblk V c 2 t) (iblk V c 3 t) (accAt V c (t.val - 1)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hrest]
    · iexists _; isplitr; · ipureintro; exact fun _ => rfl
      isplitl [HS0]; · iexact HS0
      isplitl [HS1]; · iexact HS1
      isplitl [HS2]; · iexact HS2
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first region, at every point of its grid. -/
theorem body_obligation (c : Dev nD) : BodyObligation (dat (F := F) V c) (defs₀ (F := F)) Variants.none () Set.univ := fun t => by
  rw [bigSep_W0, bigSep_W0]
  exact sound_body V c t

end

end Cert.KernelIdeal.Region0

end
-- ==== Proof.Body1.lean ====
/-
  The second kernel region (the cross-entropy rows): the body obligation. At every grid point the body,
  called on the three windows' current staging buffers, the logits' and the labels' holding their blocks
  and the result's holding anything, leaves the two inputs as they were and the result's buffer at the
  rows computed from the two blocks. Each access of the body goes through the whole buffer, so a load
  reads the buffer's contents and the one store leaves its payload.
-/
import proofs.«424374_j52003464020705_1_alg».proof.Proof.Data1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles -/

/-- The offsets of the whole-buffer rectangle of a rank-one buffer are zero. -/
theorem offsets_zero_rank1 : (![0] : Fin 1 → ℕ) = fun _ => 0 := funext fun a => by fin_cases a <;> rfl

/-- The offsets of the whole-buffer rectangle of a rank-two buffer are zero. -/
theorem offsets_zero_rank2 : (![0, 0] : Fin 2 → ℕ) = fun _ => 0 := funext fun a => by fin_cases a <;> rfl

/-- The one store of the body, through the whole result buffer, covers every row. -/
theorem store_covers_rows (w : Vec F S1024 .f32) (y : S1024.Idx) :
    ∃ pc ∈ ([⟨Rect.unit (s := S1024) ![0] S1024.size inb_S1024_S1024_0, w⟩] : List (View.Piece (Elt F) S1024 .f32)),
      y ∈ pc.1.set :=
  ⟨_, List.mem_singleton_self _, View.mem_set_unit_zero offsets_zero_rank1 inb_S1024_S1024_0 y⟩

section
variable (V : (c : Dev nD) → (b : Ref sig .tc) → Buf (Elt F) ((c : Thread nD τ).loc b))

/-! ## The inputs' staging buffers hold their blocks -/

/-- The logits' current staging buffer holds the point's block of logits, fetched at this point or not, for any
    proof data whose array is the region's entry contents and whose body leaves the block in place. -/
theorem logits_before_eq_block {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The labels' current staging buffer holds the point's block of labels, likewise. -/
theorem labels_before_eq_block {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

theorem logits_before (c : Dev nD) (t : Fin cfg1.N) (d) : (dat V c).before 0 t d = iblk V c 0 t :=
  logits_before_eq_block V (dat V c) (A_eq V c 0) (after_0 V c) t d

theorem labels_before (c : Dev nD) (t : Fin cfg1.N) (d) : (dat V c).before 1 t d = iblk V c 1 t :=
  labels_before_eq_block V (dat V c) (A_eq V c 1) (after_1 V c) t d

end

/-! ## The body's triple -/

set_option maxHeartbeats 1000000 in
/-- The kernel body on whole staging memrefs, the logits' at contents `x0`, the labels' at `x1` and the result's
    at anything, runs to the continuation holding the inputs' as they were and the result's at the rows computed
    from `x0` and `x1`: the two loads read `x0` and `x1`, the load of the result buffer is not used, and the store
    through the whole result buffer leaves its payload. -/
theorem kernel_leaves_rows (c : Dev nD) (E : Set ℕ) (i : grid1.Coords)
    (arg1 : Memref sig .tc .vmem S1024x1000 .f32) (harg1 : arg1.IsWhole)
    (arg2 : Memref sig .tc .vmem S1024 .i32) (harg2 : arg2.IsWhole)
    (arg3 : Memref sig .tc .vmem S1024 .f32) (harg3 : arg3.IsWhole)
    (x0 : Vec F S1024x1000 .f32) (x1 : Vec F S1024 .i32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outRows x0 x1)) -∗ K ⟨⟩))
      ⊢ wp frame (wpE (defs₀ (F := F)) Variants.none c none) E (cc1__ce_kernel i arg1 harg1 arg2 harg2 arg3 harg3) K := by
  simp only [cc1__ce_kernel_eq_skeleton]; unfold cc1__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers_rows _), View.canon_unit_zero offsets_zero_rank1]
  unfold outRows
  rw [View.readAt_eq_ld, View.readAt_eq_ld, View.ld_unit_zero offsets_zero_rank2, View.ld_unit_zero offsets_zero_rank1]

section
variable (V : (c : Dev nD) → (b : Ref sig .tc) → Buf (Elt F) ((c : Thread nD τ).loc b))

/-! ## The body obligation, at a generic point -/

/-- What the body is called with at point `t`: the invariant, the core's debts, and the three windows' current
    staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the body's triple applies; the invariant and
    the core's debts pass through unread. -/
theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [logits_before, labels_before]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (kernel_leaves_rows c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point: the three windows opened one by one. -/
theorem body_obligation (c : Dev nD) :
    BodyObligation (dat (F := F) V c) (defs₀ (F := F)) Variants.none () Set.univ := fun t => by
  rw [bigSep_W1, bigSep_W1]
  exact body_at_point V c t

end

end Cert.KernelIdeal.Region1

end
-- ==== Proof.Shares0.lean ====
/-
  The first kernel region's arrays at its entry and at its exit, when windows share an array. Of a core's unscoped
  buffers at a valuation, the five distinct buffers behind the seven windows are each held whole at the full share;
  the region's proof data holds the two windows on the normalised matrix at the two halves of that buffer's share,
  the two windows on the labels at the two halves of theirs, and each output window at the full share. A full share
  splits into its two halves and the halves rejoin, at the same contents: that is the whole of the passage in
  either direction.
-/
import proofs.«424374_j52003464020705_1_alg».proof.Proof.Data0
import proofs.«424374_j52003464020705_1_alg».proof.Proof.Gen.KernelIdeal.Launch
import proofs.«424374_j52003464020705_1_alg».proof.Proof.Gen.KernelIdeal.Skeleton
import proofs.«424374_j52003464020705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's unscoped buffers at a valuation are the distinct buffers behind the windows' arrays and the rest. -/
theorem unscoped_split (c : Dev nD) (W : (b : Ref sig .tc) → Buf (Elt F) ((c : Thread nD τ).loc b)) :
    (unscopedBufs c W : sProp 𝕄) = iprop((Pipeline.arrBufs spec0 c W : sProp 𝕄) ∗ Pipeline.unscopedRest spec0 c W) :=
  Pipeline.unscopedBufs_split₀ cfgs 0 winFacts₀0.arr_unscoped c W

/-- The distinct buffers behind the seven windows are five, each whole at the full share. -/
theorem arrBufs_chain (c : Dev nD) (W : (b : Ref sig .tc) → Buf (Elt F) ((c : Thread nD τ).loc b)) :
    (Pipeline.arrBufs spec0 c W : sProp 𝕄)
      = iprop((((c : Thread nD τ).loc main_v5) ↦{fullShare} W main_v5)
        ∗ (((c : Thread nD τ).loc main_arg2) ↦{fullShare} W main_arg2)
        ∗ (((c : Thread nD τ).loc main_v6_0) ↦{fullShare} W main_v6_0)
        ∗ (((c : Thread nD τ).loc main_v6_1) ↦{fullShare} W main_v6_1)
        ∗ (((c : Thread nD τ).loc main_v6_2) ↦{fullShare} W main_v6_2)) := by
  unfold Pipeline.arrBufs
  exact bigSep_eq_bigSepL_of_eq [main_v5, main_arg2, main_v6_0, main_v6_1, main_v6_2] (by decide) (by decide) _

section
variable (V : (c : Dev nD) → (b : Ref sig .tc) → Buf (Elt F) ((c : Thread nD τ).loc b))

/-- The shares the region's data holds the windows' arrays at: the inputs' own halves, the outputs' full. -/
theorem share_0 (c : Dev nD) : (dat V c).share 0 = fullShare.left := rfl
theorem share_1 (c : Dev nD) : (dat V c).share 1 = fullShare.right := rfl
theorem share_2 (c : Dev nD) : (dat V c).share 2 = fullShare.left := rfl
theorem share_3 (c : Dev nD) : (dat V c).share 3 = fullShare.right := rfl
theorem share_4 (c : Dev nD) : (dat V c).share 4 = fullShare := rfl
theorem share_5 (c : Dev nD) : (dat V c).share 5 = fullShare := rfl
theorem share_6 (c : Dev nD) : (dat V c).share 6 = fullShare := rfl

/-- The region's arrays at contents `G`, window by window: every window's array is a whole buffer. -/
theorem arrays_chain (c : Dev nD) (G : (w : Fin cfg0.W) → Buf (Elt F) ((cfg0.win w).arr.view.loc (c : Thread nD τ))) :
    ((dat V c).arrays G : sProp 𝕄)
      = iprop((((c : Thread nD τ).loc main_v5) ↦{fullShare.left} G 0)
        ∗ (((c : Thread nD τ).loc main_v5) ↦{fullShare.right} G 1)
        ∗ (((c : Thread nD τ).loc main_arg2) ↦{fullShare.left} G 2)
        ∗ (((c : Thread nD τ).loc main_arg2) ↦{fullShare.right} G 3)
        ∗ (((c : Thread nD τ).loc main_v6_0) ↦{fullShare} G 4)
        ∗ (((c : Thread nD τ).loc main_v6_1) ↦{fullShare} G 5)
        ∗ (((c : Thread nD τ).loc main_v6_2) ↦{fullShare} G 6)) := by
  unfold Dat.arrays
  -- windows 0 and 1 share one whole buffer, windows 2 and 3 another: the fact for the first of a pair rewrites both
  rewrite [bigSep_W0, (arr_whole0 0).set_eq_univ, (arr_whole0 2).set_eq_univ, (arr_whole0 4).set_eq_univ,
    (arr_whole0 5).set_eq_univ, (arr_whole0 6).set_eq_univ,
    share_0, share_1, share_2, share_3, share_4, share_5, share_6]
  rfl

end

section
variable (V : (c : Dev nD) → (b : Ref sig .tc) → Buf (Elt F) ((c : Thread nD τ).loc b))

/-- ENTRY: a core's unscoped buffers at `V` are the region's arrays at their entry contents and the unscoped rest.
    The buffer behind two windows is split into the two halves of its share, one per window. -/
theorem entry_arrays (c : Dev nD) :
    (unscopedBufs c (V c) : sProp 𝕄) ⊢ iprop((dat V c).arrays ((dat V c).arrAt · 0) ∗ Pipeline.unscopedRest spec0 c (V c)) := by
  rw [unscoped_split, arrBufs_chain, arrays_chain]
  iintro ⟨⟨Hx, Hl, H0, H1, H2⟩, HR⟩
  ihave Hx := (pointsTo_share (PosShare.mem_left_op_right fullShare)).1 $$ Hx
  icases Hx with ⟨Hx₁, Hx₂⟩
  ihave Hl := (pointsTo_share (PosShare.mem_left_op_right fullShare)).1 $$ Hl
  icases Hl with ⟨Hl₁, Hl₂⟩
  isplitr [HR]
  · isplitl [Hx₁]; · iexact Hx₁
    isplitl [Hx₂]; · iexact Hx₂
    isplitl [Hl₁]; · iexact Hl₁
    isplitl [Hl₂]; · iexact Hl₂
    isplitl [H0]; · iexact H0
    isplitl [H1]; · iexact H1
    iexact H2
  · iexact HR

/-- EXIT: the region's arrays at their exit contents and the unscoped rest at `V` are the core's unscoped buffers at
    any valuation `V'` that has the arrays at their exit contents and agrees with `V` off them. The two halves of a
    shared buffer, both at what `V'` has there, rejoin into the full share. -/
theorem exit_arrays (V' : (c : Dev nD) → (b : Ref sig .tc) → Buf (Elt F) ((c : Thread nD τ).loc b)) (c : Dev nD)
    (hF : ∀ w, (dat V c).arrAt w cfg0.N = V' c (Pipeline.arrRef spec0 w))
    (hrest : ∀ b, b ∉ Finset.univ.image (Pipeline.arrRef spec0) → V' c b = V c b) :
    iprop((dat V c).arrays ((dat V c).arrAt · cfg0.N) ∗ Pipeline.unscopedRest spec0 c (V c)) ⊢ (unscopedBufs c (V' c) : sProp 𝕄) := by
  have hR : (Pipeline.unscopedRest spec0 c (V c) : sProp 𝕄) = Pipeline.unscopedRest spec0 c (V' c) := by
    unfold Pipeline.unscopedRest
    exact bigSep_congr fun b hb => by rw [hrest b (Finset.mem_sdiff.mp hb).2]
  rw [unscoped_split, arrBufs_chain, arrays_chain, hR, hF 0, hF 1, hF 2, hF 3, hF 4, hF 5, hF 6]
  iintro ⟨⟨Hx₁, Hx₂, Hl₁, Hl₂, H0, H1, H2⟩, HR⟩
  ihave Hx := (pointsTo_share (PosShare.mem_left_op_right fullShare)).2 $$ [Hx₁ Hx₂]
  · isplitl [Hx₁] <;> iassumption
  ihave Hl := (pointsTo_share (PosShare.mem_left_op_right fullShare)).2 $$ [Hl₁ Hl₂]
  · isplitl [Hl₁] <;> iassumption
  isplitr [HR]
  · isplitl [Hx]; · iexact Hx
    isplitl [Hl]; · iexact Hl
    isplitl [H0]; · iexact H0
    isplitl [H1]; · iexact H1
    iexact H2
  · iexact HR

end

end Cert.KernelIdeal.Region0

end
-- ==== Proof.Run.lean ====
/-
  The kernel program's run, read at every unscoped buffer. @main is eight items: two host stretches (the
  rows' norms; the division and the change of format), the first kernel region (three per-row sums over all columns,
  accumulated block by block), three host stretches (the fallback for rows with no same-label neighbour, the log of
  the quotient and its mean), the second kernel region (the log-probability at each row's label), and the last host
  stretch (its mean and the weighted sum of the two terms). Between two items each core holds every unscoped buffer
  whole at a known valuation: the launch contents pushed through the host stretches, with the regions' result arrays
  replaced by what their write-backs leave. The run is the library's launch of that list of segments; the frame and the
  result's value are read off its last valuation.
-/
import proofs.«424374_j52003464020705_1_alg».proof.Proof.Data0
import proofs.«424374_j52003464020705_1_alg».proof.Proof.Data1
import proofs.«424374_j52003464020705_1_alg».proof.Proof.Body0
import proofs.«424374_j52003464020705_1_alg».proof.Proof.Body1
import proofs.«424374_j52003464020705_1_alg».proof.Proof.Shares0
import proofs.«424374_j52003464020705_1_alg».proof.Proof.Gen.KernelIdeal.Regions
import proofs.«424374_j52003464020705_1_alg».proof.Proof.Gen.KernelIdeal.Launch
import proofs.«424374_j52003464020705_1_alg».proof.Proof.Gen.KernelIdeal.Skeleton
import proofs.«424374_j52003464020705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s unscoped buffers when the first region is entered: the launch contents after the two host stretches
    that normalise the rows. -/
abbrev Win0 (c : Dev nD) : Valuation τ sig (Elt F) := Gen.V2 m c
/-- The same, read at the TensorCore's references. -/
abbrev Vin0 : (c : Dev nD) → (b : Ref sig .tc) → Buf (Elt F) ((c : Thread nD τ).loc b) := fun c b => Win0 m c b

/-- What the first region leaves in its three result arrays. -/
def top0 (c : Dev nD) : Buf (Elt F) ((c : Thread nD τ).loc main_v6_0) := (Region0.dat (Vin0 m) c).arrAt 4 cfg0.N
def bot0 (c : Dev nD) : Buf (Elt F) ((c : Thread nD τ).loc main_v6_1) := (Region0.dat (Vin0 m) c).arrAt 5 cfg0.N
def mask0 (c : Dev nD) : Buf (Elt F) ((c : Thread nD τ).loc main_v6_2) := (Region0.dat (Vin0 m) c).arrAt 6 cfg0.N

/-- What the regions leave, as the unknowns of the contents fold: the first region's three result arrays. -/
def outsA : Gen.Outs (F := F) := fun _ r c =>
  if h : r = main_v6_0 then (by subst h; exact top0 m c)
  else if h : r = main_v6_1 then (by subst h; exact bot0 m c)
  else if h : r = main_v6_2 then (by subst h; exact mask0 m c)
  else m ((c : Thread nD τ).loc r)

/-- Core `c`'s unscoped buffers when the second region is entered. -/
abbrev Win1 (c : Dev nD) : Valuation τ sig (Elt F) := Gen.V6 m (outsA m) c
abbrev Vin1 : (c : Dev nD) → (b : Ref sig .tc) → Buf (Elt F) ((c : Thread nD τ).loc b) := fun c b => Win1 m c b

/-- What the second region leaves in its result array. -/
def sel1 (c : Dev nD) : Buf (Elt F) ((c : Thread nD τ).loc main_v15) := (Region1.dat (Vin1 m) c).arrAt 2 cfg1.N

/-- The unknowns of the fold, all four arrays. -/
def outs : Gen.Outs (F := F) := fun j r c =>
  if h : r = main_v15 then (by subst h; exact sel1 m c) else outsA m j r c

theorem outs_top (j : ℕ) (c : Dev nD) : outs m j main_v6_0 c = top0 m c := by
  unfold outs outsA; rw [dif_neg (by decide), dif_pos rfl]
theorem outs_bot (j : ℕ) (c : Dev nD) : outs m j main_v6_1 c = bot0 m c := by
  unfold outs outsA; rw [dif_neg (by decide), dif_neg (by decide), dif_pos rfl]
theorem outs_mask (j : ℕ) (c : Dev nD) : outs m j main_v6_2 c = mask0 m c := by
  unfold outs outsA; rw [dif_neg (by decide), dif_neg (by decide), dif_neg (by decide), dif_pos rfl]
theorem outs_sel (j : ℕ) (c : Dev nD) : outs m j main_v15 c = sel1 m c := by
  unfold outs; rw [dif_pos rfl]
theorem outsA_top (j : ℕ) (c : Dev nD) : outsA m j main_v6_0 c = top0 m c := by
  unfold outsA; rw [dif_pos rfl]
theorem outsA_bot (j : ℕ) (c : Dev nD) : outsA m j main_v6_1 c = bot0 m c := by
  unfold outsA; rw [dif_neg (by decide), dif_pos rfl]
theorem outsA_mask (j : ℕ) (c : Dev nD) : outsA m j main_v6_2 c = mask0 m c := by
  unfold outsA; rw [dif_neg (by decide), dif_neg (by decide), dif_pos rfl]

/-- The fold up to the second region's entry reads the unknowns only at the first region's arrays. -/
theorem V3_outs (c : Dev nD) : Gen.V3 m (outs m) c = Gen.V3 m (outsA m) c := by
  unfold Gen.V3; rw [outs_top, outs_bot, outs_mask, outsA_top, outsA_bot, outsA_mask]
theorem V6_outs (c : Dev nD) : Gen.V6 m (outs m) c = Win1 m c := by
  unfold Win1 Gen.V6 Gen.V5 Gen.V4; rw [V3_outs]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => Region0.dat (Vin0 m) c
  | ⟨1, _⟩ => fun c => Region1.dat (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev Rest (c : Dev nD) : sProp 𝕄 := iprop((∃ r, prngReg c r) ∗ ∃ W, owes (c : Thread nD τ) (0 : CellTallies nD τ sig Unit) W)
abbrev E : Fin 3 → Dev nD → sProp 𝕄 := fun _ c => Rest c

/-! ## The second region as a segment -/

theorem hF1 (c : Dev nD) (w : Fin cfg1.W) : (Region1.dat (Vin1 m) c).arrAt w cfg1.N = Gen.V7 m (outs m) c (Pipeline.arrRef spec1 w) := by
  have h0 : (Region1.dat (Vin1 m) c).arrAt 0 cfg1.N = Gen.V7 m (outs m) c (Pipeline.arrRef spec1 0) := by
    rw [(Region1.dat (Vin1 m) c).arrAt_in 0 rfl _, Region1.A_eq]
    exact ((Gen.V7_of m (outs m) c main_arg1 (by decide)).trans (congrFun (V6_outs m c) _)).symm
  have h1 : (Region1.dat (Vin1 m) c).arrAt 1 cfg1.N = Gen.V7 m (outs m) c (Pipeline.arrRef spec1 1) := by
    rw [(Region1.dat (Vin1 m) c).arrAt_in 1 rfl _, Region1.A_eq]
    exact ((Gen.V7_of m (outs m) c main_arg2 (by decide)).trans (congrFun (V6_outs m c) _)).symm
  have h2 : (Region1.dat (Vin1 m) c).arrAt 2 cfg1.N = Gen.V7 m (outs m) c (Pipeline.arrRef spec1 2) := by
    show sel1 m c = Function.update (Gen.V6 m (outs m) c) (Proc.devRef .tc main_v15) (outs m 7 main_v15 c) (Proc.devRef .tc main_v15)
    rw [Function.update_self, outs_sel]
  match w with
  | ⟨0, _⟩ => exact h0
  | ⟨1, _⟩ => exact h1
  | ⟨2, _⟩ => exact h2
theorem hrest1 (c : Dev nD) : ∀ b, b ∉ Finset.univ.image (Pipeline.arrRef spec1) → Gen.V7 m (outs m) c b = Vin1 m c b := by
  intro b hb
  have hne : b ≠ main_v15 := fun e => hb (Finset.mem_image.mpr ⟨2, Finset.mem_univ _, e.symm⟩)
  exact (Gen.V7_of m (outs m) c b (by simpa using hne)).trans (congrFun (V6_outs m c) _)

set_option backward.isDefEq.respectTransparency.types false in
/-- The second region over the thread state: entered from every unscoped buffer at its entry contents, left with its
    result array at what the write-backs leave and every other buffer as entered. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (Vin1 m) c).loose
  hwaits := Pipeline.hwaits_of_owed_zero _ _ _ _ L lv 1 fun _ _ => rfl
  pre c := iprop(StableHlo.held (c : Thread nD τ) (Pipeline.ucRefs τ sig) (Gen.V6 m (outs m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V6_outs]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first region as a segment -/

theorem hF0 (c : Dev nD) (w : Fin cfg0.W) : (Region0.dat (Vin0 m) c).arrAt w cfg0.N = Gen.V3 m (outs m) c (Pipeline.arrRef spec0 w) := by
  have hin (w : Fin cfg0.W) (hw : (cfg0.win w).isOut = false) (b : Ref sig .tc) (hb : Pipeline.arrRef spec0 w = b)
      (hn : b ∉ ([main_v6_0, main_v6_1, main_v6_2] : List (Ref sig .tc))) :
      (Region0.dat (Vin0 m) c).arrAt w cfg0.N = Gen.V3 m (outs m) c (Pipeline.arrRef spec0 w) := by
    rw [(Region0.dat (Vin0 m) c).arrAt_in w hw _, Region0.A_eq]
    subst hb
    exact (Gen.V3_of m (outs m) c _ hn).symm
  have h4 : (Region0.dat (Vin0 m) c).arrAt 4 cfg0.N = Gen.V3 m (outs m) c (Pipeline.arrRef spec0 4) := by
    show top0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_0)
    rw [Function.update_of_ne (StableHlo.devRef_ne_of_ne (by decide)), Function.update_of_ne (StableHlo.devRef_ne_of_ne (by decide)), Function.update_self, outs_top]
  have h5 : (Region0.dat (Vin0 m) c).arrAt 5 cfg0.N = Gen.V3 m (outs m) c (Pipeline.arrRef spec0 5) := by
    show bot0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_1)
    rw [Function.update_of_ne (StableHlo.devRef_ne_of_ne (by decide)), Function.update_self, outs_bot]
  have h6 : (Region0.dat (Vin0 m) c).arrAt 6 cfg0.N = Gen.V3 m (outs m) c (Pipeline.arrRef spec0 6) := by
    show mask0 m c = Function.update (Function.update (Function.update (Gen.V2 m c) (Proc.devRef .tc main_v6_0) (outs m 3 main_v6_0 c)) (Proc.devRef .tc main_v6_1) (outs m 3 main_v6_1 c)) (Proc.devRef .tc main_v6_2) (outs m 3 main_v6_2 c) (Proc.devRef .tc main_v6_2)
    rw [Function.update_self, outs_mask]
  match w with
  | ⟨0, _⟩ => exact hin 0 rfl main_v5 rfl (by decide)
  | ⟨1, _⟩ => exact hin 1 rfl main_v5 rfl (by decide)
  | ⟨2, _⟩ => exact hin 2 rfl main_arg2 rfl (by decide)
  | ⟨3, _⟩ => exact hin 3 rfl main_arg2 rfl (by decide)
  | ⟨4, _⟩ => exact h4
  | ⟨5, _⟩ => exact h5
  | ⟨6, _⟩ => exact h6
theorem hrest0 (c : Dev nD) : ∀ b, b ∉ Finset.univ.image (Pipeline.arrRef spec0) → Gen.V3 m (outs m) c b = Vin0 m c b := by
  intro b hb
  have h4 : b ≠ main_v6_0 := fun e => hb (Finset.mem_image.mpr ⟨4, Finset.mem_univ _, e.symm⟩)
  have h5 : b ≠ main_v6_1 := fun e => hb (Finset.mem_image.mpr ⟨5, Finset.mem_univ _, e.symm⟩)
  have h6 : b ≠ main_v6_2 := fun e => hb (Finset.mem_image.mpr ⟨6, Finset.mem_univ _, e.symm⟩)
  exact Gen.V3_of m (outs m) c b (by simp [h4, h5, h6])

set_option backward.isDefEq.respectTransparency.types false in
/-- The first region over the thread state: entered from every unscoped buffer at its entry contents — the normalised
    matrix and the labels each dealt in halves to the two windows that read them —, left with its three result arrays at
    what the write-backs leave and every other buffer as entered; the three accumulators come out of the scoped rest at
    the first point and go back to it, forgotten, after the last. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Region0.body_obligation (Vin0 m) c).loose
  hwaits := Pipeline.hwaits_of_owed_zero _ _ _ _ L lv 0 fun _ _ => rfl
  pre c := iprop(StableHlo.held (c : Thread nD τ) (Pipeline.ucRefs τ sig) (Gen.V2 m c) ∗ E 0 c)
  post c := iprop(StableHlo.held (c : Thread nD τ) (Pipeline.ucRefs τ sig) (Gen.V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Region0.entry_arrays (F := F) (Vin0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Region0.Φ0 (Vin0 m) c 0 from rfl]; unfold Region0.Φ0
    rw [show Pipeline.scopedRest (Pipeline.pin (pcfgs (F := F)) Gen.adm 0).spec c = (Pipeline.scopedRest (Ix := Unit) (Name := ℕ) (U := UR sig nD τ) (Lvl := ℕ) (Val := Elt F) spec0 c : sProp 𝕄) from rfl, scopedRest0_eq]; simp only [owns_whole]
    iintro ⟨Hp, -, ⟨%f0, H0⟩, ⟨%f1, H1⟩, ⟨%f2, H2⟩, Ha, Hb, Hc, Hd, He, Hf⟩
    iexists (f0, f1, f2)
    isplitr; · ipureintro; intro h; exact absurd h (Nat.lt_irrefl 0)
    isplitl [H0]; · iexact H0
    isplitl [H1]; · iexact H1
    isplitl [H2]; · iexact H2
    isplitl [Ha]; · iexact Ha
    isplitl [Hb]; · iexact Hb
    isplitl [Hc]; · iexact Hc
    isplitl [Hd]; · iexact Hd
    isplitl [He]; · iexact He
    isplitl [Hf]; · iexact Hf
    iexact Hp
  hout c := by
    rw [Pipeline.ownSems0_none, show (pdats m 0 c).Φ (Fin.last _) = Region0.Φ0 (Vin0 m) c (Fin.last _) from rfl]; unfold Region0.Φ0
    rw [show Pipeline.scopedRest (Pipeline.pin (pcfgs (F := F)) Gen.adm 0).spec c = (Pipeline.scopedRest (Ix := Unit) (Name := ℕ) (U := UR sig nD τ) (Lvl := ℕ) (Val := Elt F) spec0 c : sProp 𝕄) from rfl, scopedRest0_eq]; simp only [owns_whole]
    iintro ⟨%a, -, H0, H1, H2, Ha, Hb, Hc, Hd, He, Hf, Hp⟩
    isplitl [Hp]; · iexact Hp
    isplitr; · iempintro
    isplitl [H0]; · iexists _; iexact H0
    isplitl [H1]; · iexists _; iexact H1
    isplitl [H2]; · iexists _; iexact H2
    isplitl [Ha]; · iexact Ha
    isplitl [Hb]; · iexact Hb
    isplitl [Hc]; · iexact Hc
    isplitl [Hd]; · iexact Hd
    isplitl [He]; · iexact He
    iexact Hf
  hexit c := by
    have hjoin := Region0.exit_arrays (F := F) (Vin0 m) (fun c b => Gen.V3 m (outs m) c b) c (hF0 m c) (hrest0 m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## The run: every unscoped buffer read at the end -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and every
    unscoped buffer of every core ends at the contents fold's last valuation: the launch contents through the host
    stretches, with the four result arrays of the two regions at what their write-backs leave. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V8 m (outs m) c))
    (hch := fun c => ⟨.rfl, .rfl, .rfl, .rfl, .rfl, .rfl, .rfl, .rfl,
      sep_mono .rfl (show E 2 c ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c)⟩) (run_all m ρ)

/-- The run with the result buffer named: it ends at the last host stretch's value of the fold. -/
theorem run_result : θ_run defs (onTc (τ := τ) (main (F := F))) ⟨m, fun _ => 0, ρ⟩ (fun r => ∀ c : Dev nD,
      r.2.mem ((c.tc : Thread nD τ).loc main_v20) = Gen.V8 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v20 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c)⟩) (run_all m ρ)

end Cert.KernelIdeal.Run

end
-- ==== Proof.Spec.lean ====
/-
  The four per-row quantities both programs compute, as plain formulas over the extended reals.

  From the row-normalised matrix `xn` (8192 rows of 256) and the labels `lab`:
    sim r c   = Σ_k xn r k · xn c k                     (cosine similarity of rows r and c)
    expo r c  = exp (−(1 − sim r c) / T)                  (T the shared temperature literal)
    notSelf   = 1 − [r = c],   same = [lab r = lab c]
    topSum r  = Σ_c expo r c · (same r c · notSelf r c)
    botSum r  = Σ_c expo r c · notSelf r c
    maskSum r = Σ_c same r c · notSelf r c
  and from the logits `yl` (8192 rows of 1000) and the labels:
    rowMax r  = max_c yl r c   (from −∞),   sumExp r = Σ_c exp (yl r c − rowMax r)
    pick r    = Σ_c yl r c · [c = lab r]                  (the logit at the label, as a one-hot sum)
    selLogp r = pick r − (rowMax r + log (sumExp r))
  Each sum starts from the zero literal, as both programs' reductions do.
-/
import Idealize.ShloMosaic.PureOps.Ideal
import Idealize.ShloMosaic.PureOps.Ideal.Laws
import Idealize.ShloMosaic.Lib.ValueIdx

noncomputable section

namespace Cert.Spec

open Idealize.ShloMosaic

/-- The literals the two programs share, as the extended reals their words denote. -/
abbrev one : EReal := Ideal.ofBits .f32 0x3F800000#32
abbrev zero : EReal := Ideal.ofBits .f32 0x00000000#32
abbrev temp : EReal := Ideal.ofBits .f32 0x3F000011#32
abbrev negInf : EReal := Ideal.ofBits .f32 0xFF800000#32

/-- A truth value as the extended real 1 or 0 (an `i1` widened and converted). -/
def ind (p : Prop) [Decidable p] : EReal := if p then ((1 : ℝ) : EReal) else ((0 : ℝ) : EReal)

section Snnl
variable (xn : Fin 8192 → Fin 256 → EReal) (lab : Fin 8192 → BitVec 32)

def sim (r c : Fin 8192) : EReal := ∑ k : Fin 256, xn r k * xn c k
def expo (r c : Fin 8192) : EReal := Ideal.exp (Ideal.div (-(one - sim xn r c)) temp)
def notSelf (r c : Fin 8192) : EReal := one - ind (r = c)
def same (r c : Fin 8192) : EReal := ind (lab r = lab c)
def topSum (r : Fin 8192) : EReal := zero + ∑ c : Fin 8192, expo xn r c * (same lab r c * notSelf r c)
def botSum (r : Fin 8192) : EReal := zero + ∑ c : Fin 8192, expo xn r c * notSelf r c
def maskSum (r : Fin 8192) : EReal := zero + ∑ c : Fin 8192, same lab r c * notSelf r c
end Snnl

section Ce
variable (yl : Fin 8192 → Fin 1000 → EReal) (lab : Fin 8192 → BitVec 32)

def rowMax (r : Fin 8192) : EReal := Finset.univ.sup fun c : Fin 1000 => yl r c
def sumExp (r : Fin 8192) : EReal := zero + ∑ c : Fin 1000, Ideal.exp (yl r c - rowMax yl r)
def pick (r : Fin 8192) : EReal := zero + ∑ c : Fin 1000, yl r c * ind (BitVec.ofNat 32 c.val = lab r)
def selLogp (r : Fin 8192) : EReal := pick yl lab r - (rowMax yl r + Ideal.log (sumExp yl r))
end Ce

end Cert.Spec

end
-- ==== Proof.Tile0.lean ====
/-
  The first kernel region's tile values read at an index, at the ideal instance (floats are extended reals).

  For a grid point `i = (i₀, i₁)`, a row block `xr` and a column block `xc` of the normalised matrix (512 rows of 256),
  the labels `lr`, `lc` of those rows, and a position `(p, q)` of the 512 × 512 tile:
    notSelf (p, q)  = 1 − [i₀·512 + p = i₁·512 + q]
    sameMask (p, q) = [lr p = lc q] · notSelf (p, q)
    expo (p, q)     = exp (−(1 − Σ_k xr p k · xc q k) / T)
    top (p, q)      = expo (p, q) · sameMask (p, q),    bot (p, q) = expo (p, q) · notSelf (p, q)
  and the three running row sums: acc p + (0 + Σ_q v (p, q)), which start from 0.
-/
import proofs.«424374_j52003464020705_1_alg».proof.Proof.Gen.KernelIdeal.Skeleton
import proofs.«424374_j52003464020705_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Region0.Tile

open Cert.KernelIdeal Cert.KernelIdeal.Gen Idealize.ShloMosaic Idealize.ShloMosaic.ValueIdx Cert.Spec

/-! ## Truth values as extended reals -/

/-- Equivalent propositions have the same indicator. -/
theorem ind_congr {P Q : Prop} [Decidable P] [Decidable Q] (h : P ↔ Q) : ind P = ind Q := by
  unfold ind
  by_cases hp : P
  · rw [if_pos hp, if_pos (h.mp hp)]
  · rw [if_neg hp, if_neg (fun hq => hp (h.mpr hq))]

/-- A one-bit word widened to 32 bits and converted to a float is the indicator of the bit: 1 or 0. -/
theorem bit_conv (b : BitVec 1) :
    (FloatOps.sitofp (F := Ideal) .f32 (b.setWidth 32) : EReal) = ind (b = 1#1) := by
  rcases BitVec.eq_zero_or_eq_one b with rfl | rfl
  · show (((((0#1 : BitVec 1).setWidth 32).toInt : ℝ)) : EReal) = ind ((0#1 : BitVec 1) = 1#1)
    unfold ind
    rw [if_neg (by decide)]
    have h : ((0#1 : BitVec 1).setWidth 32).toInt = 0 := by decide
    rw [h, Int.cast_zero]
  · show (((((1#1 : BitVec 1).setWidth 32).toInt : ℝ)) : EReal) = ind ((1#1 : BitVec 1) = 1#1)
    unfold ind
    rw [if_pos rfl]
    have h : ((1#1 : BitVec 1).setWidth 32).toInt = 1 := by decide
    rw [h, Int.cast_one]

/-! ## The tile's row and column numbers as 32-bit words -/

/-- The word `a·512 + p` for a block number `a < 16` and a position `p < 512` is that natural number: nothing wraps. -/
theorem word_toNat (a p : Nat) (ha : a < 16) (hp : p < 512) :
    (IntOp.addi (Scalar.muli (BitVec.ofNat 32 a) 512#32) (BitVec.ofNat 32 p)).toNat = a * 512 + p := by
  unfold IntOp.addi Scalar.muli IntOp.muli
  simp only [BitVec.toNat_add, BitVec.toNat_mul, BitVec.toNat_ofNat]
  omega

/-- Two such words are equal exactly when the numbers are. -/
theorem word_eq_iff (a b p q : Nat) (ha : a < 16) (hb : b < 16) (hp : p < 512) (hq : q < 512) :
    IntOp.cmpi .eq (IntOp.addi (Scalar.muli (BitVec.ofNat 32 a) 512#32) (BitVec.ofNat 32 p))
        (IntOp.addi (Scalar.muli (BitVec.ofNat 32 b) 512#32) (BitVec.ofNat 32 q)) = 1#1
      ↔ a * 512 + p = b * 512 + q := by
  rw [StableHlo.Predicate.cmpi_eq_iff]
  constructor
  · intro h
    have := congrArg BitVec.toNat h
    rwa [word_toNat a p ha hp, word_toNat b q hb hq] at this
  · intro h
    apply BitVec.eq_of_toNat_eq
    rw [word_toNat a p ha hp, word_toNat b q hb hq, h]

/-! ## `notSelf`: the tile's row number differs from its column number -/

/-- The tile's row number at `(p, q)`: the block's first row `i₀·512` plus `p`. -/
theorem rowWord_apply (i : grid0.Coords) (p q : Fin 512) :
    addi (broadcast S512x512 (Scalar.muli (BitVec.ofNat 32 (i 0).val) 512#32))
        (iota .tc S512x512 32 [0] iota_S512x512_d0_w32) (ix2 p q)
      = IntOp.addi (Scalar.muli (BitVec.ofNat 32 (i 0).val) 512#32) (BitVec.ofNat 32 p.val) :=
  congrArg (IntOp.addi (Scalar.muli (BitVec.ofNat 32 (i 0).val) 512#32))
    (iota_single_apply .tc S512x512 32 0 iota_S512x512_d0_w32 (ix2 p q))

/-- The tile's column number at `(p, q)`: the block's first column `i₁·512` plus `q`. -/
theorem colWord_apply (i : grid0.Coords) (p q : Fin 512) :
    addi (broadcast S512x512 (Scalar.muli (BitVec.ofNat 32 (i 1).val) 512#32))
        (iota .tc S512x512 32 [1] iota_S512x512_d1_w32) (ix2 p q)
      = IntOp.addi (Scalar.muli (BitVec.ofNat 32 (i 1).val) 512#32) (BitVec.ofNat 32 q.val) :=
  congrArg (IntOp.addi (Scalar.muli (BitVec.ofNat 32 (i 1).val) 512#32))
    (iota_single_apply .tc S512x512 32 1 iota_S512x512_d1_w32 (ix2 p q))

theorem notself_apply (i : grid0.Coords) (p q : Fin 512) :
    k0_pay8 (F := Ideal) i (ix2 p q) = one - ind ((i 0).val * 512 + p.val = (i 1).val * 512 + q.val) := by
  have h0 : (i 0).val < 16 := (i 0).isLt
  have h1 : (i 1).val < 16 := (i 1).isLt
  unfold k0_pay8
  refine congrArg (one - ·) ?_
  refine (bit_conv _).trans (ind_congr ?_)
  show IntOp.cmpi .eq
      (addi (broadcast S512x512 (Scalar.muli (BitVec.ofNat 32 (i 0).val) 512#32))
        (iota .tc S512x512 32 [0] iota_S512x512_d0_w32) (ix2 p q))
      (addi (broadcast S512x512 (Scalar.muli (BitVec.ofNat 32 (i 1).val) 512#32))
        (iota .tc S512x512 32 [1] iota_S512x512_d1_w32) (ix2 p q)) = 1#1 ↔ _
  rw [rowWord_apply, colWord_apply]
  exact word_eq_iff _ _ _ _ h0 h1 p.isLt q.isLt

/-! ## A vector as a column and as a row, spread over a rectangle -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-- The row labels as a column spread over the tile: at `(p, q)` the label of row `p`. -/
theorem rowLabel_apply (lr : IVec S512 32) (p q : Fin 512) :
    broadcastTo S512x512 (shapeCast S512x1 lr shapeCasts_S512_S512x1) broadcasts_S512x1_S512x512 (ix2 p q) = lr (ix1 p) :=
  (broadcastTo_a1_ab_apply _ broadcasts_S512x1_S512x512 p q).trans (shapeCast_a_a1_apply lr shapeCasts_S512_S512x1 p 0)

/-- The column labels as a row spread over the tile: at `(p, q)` the label of column `q`. -/
theorem colLabel_apply (lc : IVec S512 32) (p q : Fin 512) :
    broadcastTo S512x512 (shapeCast S1x512 lc shapeCasts_S512_S1x512) broadcasts_S1x512_S512x512 (ix2 p q) = lc (ix1 q) :=
  (broadcastTo_1b_ab_apply _ broadcasts_S1x512_S512x512 p q).trans (shapeCast_a_1a_apply lc shapeCasts_S512_S1x512 0 q)

/-! ## `sameMask`: equal labels, off the diagonal -/

theorem samemask_apply (i : grid0.Coords) (lr lc : Vec Ideal S512 .i32) (p q : Fin 512) :
    k0_pay9 (F := Ideal) i lr lc (ix2 p q)
      = ind (lr (ix1 p) = lc (ix1 q)) * (one - ind ((i 0).val * 512 + p.val = (i 1).val * 512 + q.val)) := by
  unfold k0_pay9
  refine (mulf_apply _ _ _).trans ?_
  rw [notself_apply]
  refine congrArg (· * (one - ind ((i 0).val * 512 + p.val = (i 1).val * 512 + q.val))) ?_
  refine (bit_conv _).trans (ind_congr ?_)
  show IntOp.cmpi .eq
      (broadcastTo S512x512 (shapeCast S512x1 lr shapeCasts_S512_S512x1) broadcasts_S512x1_S512x512 (ix2 p q))
      (broadcastTo S512x512 (shapeCast S1x512 lc shapeCasts_S512_S1x512) broadcasts_S1x512_S512x512 (ix2 p q)) = 1#1 ↔ _
  rw [rowLabel_apply, colLabel_apply]
  exact StableHlo.Predicate.cmpi_eq_iff

/-! ## `expo`: the similarity of row `p` and column `q` as a sum over the 256 features -/

/-- The left operand's row at `(i, k)` is the result's row. -/
theorem lhs_sim_0 (i : S512x512.Idx) (k : dot_S512x256_S256x512_S512x512_1_0_0_1_n_n.contr.Idx) :
    (dot_S512x256_S256x512_S512x512_1_0_0_1_n_n.lhsIdx i k 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
/-- The left operand's column is the contracted coordinate. -/
theorem lhs_sim_1 (i : S512x512.Idx) (k : dot_S512x256_S256x512_S512x512_1_0_0_1_n_n.contr.Idx) :
    (dot_S512x256_S256x512_S512x512_1_0_0_1_n_n.lhsIdx i k 1).val = (k ⟨0, by decide⟩).val :=
  dot_S512x256_S256x512_S512x512_1_0_0_1_n_n.lhsIdx_val_of_single rfl i k
/-- The right operand's row is the contracted coordinate. -/
theorem rhs_sim_0 (i : S512x512.Idx) (k : dot_S512x256_S256x512_S512x512_1_0_0_1_n_n.contr.Idx) :
    (dot_S512x256_S256x512_S512x512_1_0_0_1_n_n.rhsIdx i k 0).val = (k ⟨0, by decide⟩).val :=
  dot_S512x256_S256x512_S512x512_1_0_0_1_n_n.rhsIdx_val_of_single rfl i k
/-- The right operand's column at `(i, k)` is the result's column. -/
theorem rhs_sim_1 (i : S512x512.Idx) (k : dot_S512x256_S256x512_S512x512_1_0_0_1_n_n.contr.Idx) :
    (dot_S512x256_S256x512_S512x512_1_0_0_1_n_n.rhsIdx i k 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The matrix product into the zero accumulator, read at `(p, q)`: the sum over `k` of row `p` of the left operand
    times column `q` of the right one. -/
theorem prod_apply (a : FVec Ideal S512x256 .bf16) (b : FVec Ideal S256x512 .bf16) (p q : Fin 512) :
    matmul dot_S512x256_S256x512_S512x512_1_0_0_1_n_n none a b (constant (F := Ideal) S512x512 .f32 0x00000000#32) (ix2 p q)
      = ∑ k : Fin 256, a (ix2 p k) * b (ix2 k q) := by
  refine (Ideal.matmul_constant_zero_apply dot_S512x256_S256x512_S512x512_1_0_0_1_n_n none a b (ix2 p q)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q)
      ((contrEquiv1 dot_S512x256_S256x512_S512x512_1_0_0_1_n_n 256 rfl rfl).symm k) = ix2 p k :=
    funext fun c => Fin.ext (by
      match c with
      | ⟨0, _⟩ => exact lhs_sim_0 _ _
      | ⟨1, _⟩ => exact (lhs_sim_1 _ _).trans hk)
  have er : dot_S512x256_S256x512_S512x512_1_0_0_1_n_n.rhsIdx (ix2 p q)
      ((contrEquiv1 dot_S512x256_S256x512_S512x512_1_0_0_1_n_n 256 rfl rfl).symm k) = ix2 k q :=
    funext fun c => Fin.ext (by
      match c with
      | ⟨0, _⟩ => exact (rhs_sim_0 _ _).trans hk
      | ⟨1, _⟩ => exact rhs_sim_1 _ _)
  rw [el, er]

/-- On the extended reals `0 − a = −a`, with the zero written as the literal's value. -/
theorem zero_sub_eq_neg (a : EReal) : zero - a = -a := by
  show Ideal.ofBits .f32 0x00000000#32 - a = -a
  rw [Ideal.ofBits_zero_f32, zero_sub]

theorem expo_apply (xr xc : Vec Ideal S512x256 .bf16) (p q : Fin 512) :
    k0_pay7 (F := Ideal) xr xc (ix2 p q)
      = Ideal.exp (Ideal.div (-(one - ∑ k : Fin 256, xr (ix2 p k) * xc (ix2 q k))) temp) := by
  unfold k0_pay7
  rw [shapeCast_self, shapeCast_self]
  show Ideal.exp (Ideal.div (zero - (one
      - matmul dot_S512x256_S256x512_S512x512_1_0_0_1_n_n none xr
          (transpose S256x512 [1, 0] xc transposes_S512x256_p1_0_S256x512)
          (constant (F := Ideal) S512x512 .f32 0x00000000#32) (ix2 p q))) temp) = _
  rw [prod_apply, zero_sub_eq_neg]
  refine congrArg (fun s => Ideal.exp (Ideal.div (-(one - s)) temp)) ?_
  exact Finset.sum_congr rfl fun k _ =>
    congrArg (xr (ix2 p k) * ·) (transpose_ix2_apply xc transposes_S512x256_p1_0_S256x512 k q)

/-! ## The two products of the tile -/

theorem top_tile_apply (i : grid0.Coords) (xr xc : Vec Ideal S512x256 .bf16) (lr lc : Vec Ideal S512 .i32) (p q : Fin 512) :
    k0_pay10 (F := Ideal) i xr xc lr lc (ix2 p q)
      = k0_pay7 (F := Ideal) xr xc (ix2 p q) * k0_pay9 (F := Ideal) i lr lc (ix2 p q) := by
  unfold k0_pay10
  exact mulf_apply _ _ _

theorem bot_tile_apply (i : grid0.Coords) (xr xc : Vec Ideal S512x256 .bf16) (p q : Fin 512) :
    k0_pay11 (F := Ideal) i xr xc (ix2 p q)
      = k0_pay7 (F := Ideal) xr xc (ix2 p q) * k0_pay8 (F := Ideal) i (ix2 p q) := by
  unfold k0_pay11
  exact mulf_apply _ _ _

/-! ## The running row sums -/

/-- The sum of a tile along its columns, from the zero accumulator, at row `p`. -/
theorem rowSum_apply (v : FVec Ideal S512x512 .f32) (hφ : FKind.Formats .f32)
    (hacc : (0x00000000#32 : BitVec 32) = 0x00000000#32) (p : Fin 512) :
    multiReduction .add [1] S512 v 0x00000000#32 reduces_S512x512_S512 hφ hacc (ix1 p) = ∑ q : Fin 512, v (ix2 p q) := by
  refine (Ideal.multiReduction_add_single v 0x00000000#32 reduces_S512x512_S512 hφ hacc (ix1 p)).trans ?_
  exact Finset.sum_congr rfl fun k _ => congrArg v (funext fun c => Fin.ext (match c with | ⟨0, _⟩ => rfl | ⟨1, _⟩ => rfl))

/-- Adding to the zero literal's value changes nothing. -/
theorem zero_add_eq (a : EReal) : zero + a = a := by
  show Ideal.ofBits .f32 0x00000000#32 + a = a
  rw [Ideal.ofBits_zero_f32, zero_add]

theorem acc1_apply (v : FVec Ideal S512x512 .f32) (a : Vec Ideal S512 .f32) (p : Fin 512) :
    k0_pay1 (F := Ideal) v a (ix1 p) = a (ix1 p) + (zero + ∑ q : Fin 512, v (ix2 p q)) := by
  unfold k0_pay1
  rw [shapeCast_self, zero_add_eq]
  exact congrArg (a (ix1 p) + ·) (rowSum_apply v _ _ p)

theorem acc2_apply (v : FVec Ideal S512x512 .f32) (a : Vec Ideal S512 .f32) (p : Fin 512) :
    k0_pay2 (F := Ideal) v a (ix1 p) = a (ix1 p) + (zero + ∑ q : Fin 512, v (ix2 p q)) := by
  unfold k0_pay2
  rw [shapeCast_self, zero_add_eq]
  exact congrArg (a (ix1 p) + ·) (rowSum_apply v _ _ p)

theorem acc3_apply (v : FVec Ideal S512x512 .f32) (a : Vec Ideal S512 .f32) (p : Fin 512) :
    k0_pay3 (F := Ideal) v a (ix1 p) = a (ix1 p) + (zero + ∑ q : Fin 512, v (ix2 p q)) := by
  unfold k0_pay3
  rw [shapeCast_self, zero_add_eq]
  exact congrArg (a (ix1 p) + ·) (rowSum_apply v _ _ p)

/-! ## The sums' first value -/

theorem zero1_apply (p : Fin 512) : k0_pay4 (F := Ideal) (ix1 p) = zero := by
  unfold k0_pay4
  rw [shapeCast_self]
  rfl

theorem zero2_apply (p : Fin 512) : k0_pay5 (F := Ideal) (ix1 p) = zero := by
  unfold k0_pay5
  rw [shapeCast_self]
  rfl

theorem zero3_apply (p : Fin 512) : k0_pay6 (F := Ideal) (ix1 p) = zero := by
  unfold k0_pay6
  rw [shapeCast_self]
  rfl

end Cert.KernelIdeal.Region0.Tile

end
-- ==== Proof.Val0.lean ====
/-
  The first kernel region's three result arrays, row by row, as the specification's sums over all 8192 columns.

  The grid is 16 × 16, point `t` at `(i, j) = (t / 16, t % 16)`. At `(i, j)` the body reads rows `512·i …` and rows
  `512·j …` of the normalised matrix and of the labels, so the entry `(p, q)` of each of its three 512 × 512 tiles is the
  specification's summand for row `r = 512·i + p` against column `c = 512·j + q` (the two grid numbers agree exactly
  when `r = c`). Each accumulator, zeroed at `j = 0`, gains the tile's row sums, so by induction on the point it holds
  after `(i, j)` the sum over the column blocks `0 … j`; at `j = 15` that is, regrouped (16 blocks of 512 are the
  8192 columns once each; the zero literal is 0 and the extended reals are a commutative additive monoid), the sum over all
  columns. The arrays are written back at the points `≡ 15 (mod 16)`, block `i` of the array, and every row `r` lies
  in the block of point `16·(r / 512) + 15`.
-/
import proofs.«424374_j52003464020705_1_alg».proof.Proof.Data0
import proofs.«424374_j52003464020705_1_alg».proof.Proof.Spec
import proofs.«424374_j52003464020705_1_alg».proof.Proof.Tile0
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe
open Idealize.ShloMosaic.Pipeline (Dat Cfg Window)
open Idealize.ShloMosaic.ValueIdx

/-! ## Pure algebra: a fold over 16 column blocks of 512 is the sum over 8192 columns -/

/-- Row (or column) number `512·i + p` of the 8192, from the block number and the place inside the block. -/
def rowN (i : ℕ) (p : Fin 512) : Fin 8192 := ⟨(512 * i + p.val) % 8192, Nat.mod_lt _ (by decide)⟩

theorem rowN_val (i : ℕ) (hi : i < 16) (p : Fin 512) : (rowN i p).val = 512 * i + p.val := by
  have hp := p.isLt
  show (512 * i + p.val) % 8192 = _
  omega

/-- The 8192 columns as 16 blocks of 512. -/
def colEquiv : Fin 16 × Fin 512 ≃ Fin 8192 where
  toFun x := rowN x.1.val x.2
  invFun c := (⟨c.val / 512, by have := c.isLt; omega⟩, ⟨c.val % 512, Nat.mod_lt _ (by decide)⟩)
  left_inv x := by
    obtain ⟨j, q⟩ := x
    have hj := j.isLt; have hq := q.isLt
    apply Prod.ext <;> apply Fin.ext
    · show (rowN j.val q).val / 512 = j.val
      rw [rowN_val _ hj]; omega
    · show (rowN j.val q).val % 512 = q.val
      rw [rowN_val _ hj]; omega
  right_inv c := by
    have hc := c.isLt
    apply Fin.ext
    show (rowN (c.val / 512) ⟨c.val % 512, _⟩).val = c.val
    rw [rowN_val _ (by omega)]
    show 512 * (c.val / 512) + c.val % 512 = c.val
    omega

/-- Regrouping: block by block, then inside the block, is every column once. -/
theorem sum_blocks (f : Fin 8192 → EReal) :
    ∑ j ∈ Finset.range 16, ∑ q : Fin 512, f (rowN j q) = ∑ c : Fin 8192, f c := by
  rw [Finset.sum_range (fun j => ∑ q : Fin 512, f (rowN j q))]
  rw [← Equiv.sum_comp colEquiv f, Fintype.sum_prod_type]
  rfl

/-- An accumulator zeroed at the points ≡ 0 (mod 16) that gains `T (n / 16) (n % 16)` at point `n` holds, after
    point `n`, the sum of the gains of its row of points so far. -/
theorem fold_inv (A : ℕ → EReal) (T : ℕ → ℕ → EReal)
    (h0 : A 0 = 0 + T 0 0)
    (hs : ∀ n, n + 1 < 256 → A (n + 1) = (if (n + 1) % 16 = 0 then 0 else A n) + T ((n + 1) / 16) ((n + 1) % 16)) :
    ∀ n, n < 256 → A n = ∑ j ∈ Finset.range (n % 16 + 1), T (n / 16) j
  | 0, _ => by rw [h0]; simp
  | n + 1, h => by
    rw [hs n h]
    by_cases hm : (n + 1) % 16 = 0
    · rw [if_pos hm, hm]; simp
    · rw [if_neg hm, fold_inv A T h0 hs n (by omega)]
      have e1 : (n + 1) / 16 = n / 16 := by omega
      have e2 : (n + 1) % 16 = n % 16 + 1 := by omega
      rw [e1, e2, Finset.sum_range_succ (fun j => T (n / 16) j) (n % 16 + 1)]

/-! ## The grid's points and the windows' blocks -/

theorem lt_N (t : Fin cfg0.N) : t.val < 256 := Nat.lt_of_lt_of_eq t.isLt N_0

/-- Point `t` has coordinates `(t / 16, t % 16)`; the row windows' block index is the first, the column windows' the
    second; decided once over the 256 points. -/
theorem pt_facts : ∀ t : Fin cfg0.N,
    (cfg0.grid.coords t 0).val = t.val / 16 ∧ (cfg0.grid.coords t 1).val = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val / 16
    ∧ win0_3.index t (0 : Fin 1) = t.val % 16
    ∧ win0_4.index t (0 : Fin 1) = t.val / 16
    ∧ win0_5.index t (0 : Fin 1) = t.val / 16
    ∧ win0_6.index t (0 : Fin 1) = t.val / 16 :=
  (by decide +kernel : ∀ t : Fin grid0.N, _)

section
variable (V : (c : Dev nD) → (b : Ref sig .tc) → Buf (Elt Ideal) ((c : Thread nD τ).loc b))

/-- The normalised matrix and the labels as the region finds them, at their literal types. -/
abbrev xarr (c : Dev nD) : Vec Ideal S8192x256 .bf16 := V c main_v5
abbrev larr (c : Dev nD) : Vec Ideal S8192 .i32 := V c main_arg2
/-- The four input blocks at point `t`, at their literal types. -/
abbrev xrB (c : Dev nD) (t : Fin cfg0.N) : Vec Ideal S512x256 .bf16 := iblk V c 0 t
abbrev xcB (c : Dev nD) (t : Fin cfg0.N) : Vec Ideal S512x256 .bf16 := iblk V c 1 t
abbrev lrB (c : Dev nD) (t : Fin cfg0.N) : Vec Ideal S512 .i32 := iblk V c 2 t
abbrev lcB (c : Dev nD) (t : Fin cfg0.N) : Vec Ideal S512 .i32 := iblk V c 3 t

/-- The row block at point `t` is rows `512·(t / 16) …` of the matrix. -/
theorem xrB_apply (c : Dev nD) (t : Fin cfg0.N) (p : Fin 512) (k : Fin 256) :
    xrB V c t (ix2 p k) = xarr V c (ix2 (rowN (t.val / 16) p) k) := by
  obtain ⟨-, -, e0, e1, -⟩ := pt_facts t
  have ht := lt_N t
  have hp := p.isLt
  show ((cfg0.win 0).blk t).view.read (Elt Ideal) (V c (Pipeline.arrRef spec0 0)) (ix2 p k) = _
  rw [View.read_apply]
  show V c main_v5 _ = V c main_v5 _
  congr 1
  funext a
  apply Fin.ext
  match a with
  | ⟨0, _⟩ => show win0_0.index t 0 * 512 + 1 * p.val = (512 * (t.val / 16) + p.val) % 8192; rw [e0]; omega
  | ⟨1, _⟩ => show win0_0.index t 1 * 256 + 1 * k.val = k.val; rw [e1]; omega

/-- The column block at point `t` is rows `512·(t % 16) …` of the matrix. -/
theorem xcB_apply (c : Dev nD) (t : Fin cfg0.N) (q : Fin 512) (k : Fin 256) :
    xcB V c t (ix2 q k) = xarr V c (ix2 (rowN (t.val % 16) q) k) := by
  obtain ⟨-, -, -, -, e0, e1, -⟩ := pt_facts t
  have ht := lt_N t
  have hq := q.isLt
  show ((cfg0.win 1).blk t).view.read (Elt Ideal) (V c (Pipeline.arrRef spec0 1)) (ix2 q k) = _
  rw [View.read_apply]
  show V c main_v5 _ = V c main_v5 _
  congr 1
  funext a
  apply Fin.ext
  match a with
  | ⟨0, _⟩ => show win0_1.index t 0 * 512 + 1 * q.val = (512 * (t.val % 16) + q.val) % 8192; rw [e0]; omega
  | ⟨1, _⟩ => show win0_1.index t 1 * 256 + 1 * k.val = k.val; rw [e1]; omega

/-- The row labels at point `t` are labels `512·(t / 16) …`. -/
theorem lrB_apply (c : Dev nD) (t : Fin cfg0.N) (p : Fin 512) :
    lrB V c t (ix1 p) = larr V c (ix1 (rowN (t.val / 16) p)) := by
  obtain ⟨-, -, -, -, -, -, e0, -⟩ := pt_facts t
  have ht := lt_N t
  have hp := p.isLt
  show ((cfg0.win 2).blk t).view.read (Elt Ideal) (V c (Pipeline.arrRef spec0 2)) (ix1 p) = _
  rw [View.read_apply]
  show V c main_arg2 _ = V c main_arg2 _
  congr 1
  funext a
  apply Fin.ext
  match a with
  | ⟨0, _⟩ => show win0_2.index t 0 * 512 + 1 * p.val = (512 * (t.val / 16) + p.val) % 8192; rw [e0]; omega

/-- The column labels at point `t` are labels `512·(t % 16) …`. -/
theorem lcB_apply (c : Dev nD) (t : Fin cfg0.N) (q : Fin 512) :
    lcB V c t (ix1 q) = larr V c (ix1 (rowN (t.val % 16) q)) := by
  obtain ⟨-, -, -, -, -, -, -, e0, -⟩ := pt_facts t
  have ht := lt_N t
  have hq := q.isLt
  show ((cfg0.win 3).blk t).view.read (Elt Ideal) (V c (Pipeline.arrRef spec0 3)) (ix1 q) = _
  rw [View.read_apply]
  show V c main_arg2 _ = V c main_arg2 _
  congr 1
  funext a
  apply Fin.ext
  match a with
  | ⟨0, _⟩ => show win0_3.index t 0 * 512 + 1 * q.val = (512 * (t.val % 16) + q.val) % 8192; rw [e0]; omega

end

/-! ## The tiles' entries are the specification's summands -/

open Cert.Spec (ind sim expo notSelf same topSum botSum maskSum)

theorem ind_congr {a b : Prop} [Decidable a] [Decidable b] (h : a ↔ b) : ind a = ind b := by
  unfold Cert.Spec.ind
  by_cases ha : a
  · rw [if_pos ha, if_pos (h.mp ha)]
  · rw [if_neg ha, if_neg (fun hb => ha (h.mpr hb))]

/-- Row `512·i + p` against column `512·j + q`, at point `t = 16·i + j`: the same row iff the two numbers agree. -/
theorem rc_iff (t : Fin cfg0.N) (p q : Fin 512) :
    (((cfg0.grid.coords t : grid0.Coords) 0).val * 512 + p.val = ((cfg0.grid.coords t : grid0.Coords) 1).val * 512 + q.val)
      ↔ rowN (t.val / 16) p = rowN (t.val % 16) q := by
  obtain ⟨c0, c1, -⟩ := pt_facts t
  have ht := lt_N t
  have hp := p.isLt
  have hq := q.isLt
  rw [Fin.ext_iff, rowN_val _ (by omega), rowN_val _ (by omega)]
  constructor
  · intro h; rw [c0, c1] at h; omega
  · intro h; rw [c0, c1]; omega

section Entries
variable (i : grid0.Coords) (xr xc : Vec Ideal S512x256 .bf16) (lr lc : Vec Ideal S512 .i32)
  (xn : Fin 8192 → Fin 256 → EReal) (lab : Fin 8192 → BitVec 32) (r c : Fin 8192) (p q : Fin 512)

theorem expo_entry (hxr : ∀ k, xr (ix2 p k) = xn r k) (hxc : ∀ k, xc (ix2 q k) = xn c k) :
    k0_pay7 (F := Ideal) xr xc (ix2 p q) = expo xn r c := by
  rw [Tile.expo_apply]
  unfold Cert.Spec.expo Cert.Spec.sim
  simp only [hxr, hxc]

theorem notself_entry (hrc : ((i 0).val * 512 + p.val = (i 1).val * 512 + q.val) ↔ r = c) :
    k0_pay8 (F := Ideal) i (ix2 p q) = notSelf r c := by
  rw [Tile.notself_apply, ind_congr hrc]
  rfl

theorem samemask_entry (hlr : lr (ix1 p) = lab r) (hlc : lc (ix1 q) = lab c)
    (hrc : ((i 0).val * 512 + p.val = (i 1).val * 512 + q.val) ↔ r = c) :
    k0_pay9 (F := Ideal) i lr lc (ix2 p q) = same lab r c * notSelf r c := by
  rw [Tile.samemask_apply, ind_congr hrc, hlr, hlc]
  rfl

theorem top_entry (hxr : ∀ k, xr (ix2 p k) = xn r k) (hxc : ∀ k, xc (ix2 q k) = xn c k)
    (hlr : lr (ix1 p) = lab r) (hlc : lc (ix1 q) = lab c)
    (hrc : ((i 0).val * 512 + p.val = (i 1).val * 512 + q.val) ↔ r = c) :
    k0_pay10 (F := Ideal) i xr xc lr lc (ix2 p q) = expo xn r c * (same lab r c * notSelf r c) := by
  rw [Tile.top_tile_apply, expo_entry xr xc xn r c p q hxr hxc, samemask_entry i lr lc lab r c p q hlr hlc hrc]

theorem bot_entry (hxr : ∀ k, xr (ix2 p k) = xn r k) (hxc : ∀ k, xc (ix2 q k) = xn c k)
    (hrc : ((i 0).val * 512 + p.val = (i 1).val * 512 + q.val) ↔ r = c) :
    k0_pay11 (F := Ideal) i xr xc (ix2 p q) = expo xn r c * notSelf r c := by
  rw [Tile.bot_tile_apply, expo_entry xr xc xn r c p q hxr hxc, notself_entry i r c p q hrc]

end Entries

/-! ## One point's update, and the accumulators after point `n` -/

theorem zero_eq : Cert.Spec.zero = (0 : EReal) := Ideal.ofBits_zero_f32

section
variable (V : (c : Dev nD) → (b : Ref sig .tc) → Buf (Elt Ideal) ((c : Thread nD τ).loc b))

/-- The specification's inputs, read off the arrays as the region finds them. -/
abbrev xnOf (c : Dev nD) : Fin 8192 → Fin 256 → EReal := fun r k => V c main_v5 (ix2 r k)
abbrev labOf (c : Dev nD) : Fin 8192 → BitVec 32 := fun r => V c main_arg2 (ix1 r)

/-- The three summands of the specification, row `r` against column `cc`. -/
abbrev gTop (c : Dev nD) (r cc : Fin 8192) : EReal := expo (xnOf V c) r cc * (same (labOf V c) r cc * notSelf r cc)
abbrev gBot (c : Dev nD) (r cc : Fin 8192) : EReal := expo (xnOf V c) r cc * notSelf r cc
abbrev gMask (c : Dev nD) (r cc : Fin 8192) : EReal := same (labOf V c) r cc * notSelf r cc

/-- At point `t = 16·i + j` the first accumulator's row `p` gains the summands of row `512·i + p` over the columns of block `j`. -/
theorem step_top (c : Dev nD) (t : Fin cfg0.N) (a : Acc Ideal) (p : Fin 512) :
    (accStep (F := Ideal) (cfg0.grid.coords t) (iblk V c 0 t) (iblk V c 1 t) (iblk V c 2 t) (iblk V c 3 t) a).1 (ix1 p)
      = a.1 (ix1 p) + ∑ q : Fin 512, gTop V c (rowN (t.val / 16) p) (rowN (t.val % 16) q) := by
  show k0_pay1 (F := Ideal) (k0_pay10 (F := Ideal) (cfg0.grid.coords t) (xrB V c t) (xcB V c t) (lrB V c t) (lcB V c t)) a.1 (ix1 p) = _
  rw [Tile.acc1_apply, zero_eq, zero_add]
  congr 1
  exact Finset.sum_congr rfl fun q _ => top_entry (cfg0.grid.coords t) (xrB V c t) (xcB V c t) (lrB V c t) (lcB V c t)
    (xnOf V c) (labOf V c) (rowN (t.val / 16) p) (rowN (t.val % 16) q) p q
    (fun k => xrB_apply V c t p k) (fun k => xcB_apply V c t q k) (lrB_apply V c t p) (lcB_apply V c t q) (rc_iff t p q)

theorem step_bot (c : Dev nD) (t : Fin cfg0.N) (a : Acc Ideal) (p : Fin 512) :
    (accStep (F := Ideal) (cfg0.grid.coords t) (iblk V c 0 t) (iblk V c 1 t) (iblk V c 2 t) (iblk V c 3 t) a).2.1 (ix1 p)
      = a.2.1 (ix1 p) + ∑ q : Fin 512, gBot V c (rowN (t.val / 16) p) (rowN (t.val % 16) q) := by
  show k0_pay2 (F := Ideal) (k0_pay11 (F := Ideal) (cfg0.grid.coords t) (xrB V c t) (xcB V c t)) a.2.1 (ix1 p) = _
  rw [Tile.acc2_apply, zero_eq, zero_add]
  congr 1
  exact Finset.sum_congr rfl fun q _ => bot_entry (cfg0.grid.coords t) (xrB V c t) (xcB V c t)
    (xnOf V c) (rowN (t.val / 16) p) (rowN (t.val % 16) q) p q
    (fun k => xrB_apply V c t p k) (fun k => xcB_apply V c t q k) (rc_iff t p q)

theorem step_mask (c : Dev nD) (t : Fin cfg0.N) (a : Acc Ideal) (p : Fin 512) :
    (accStep (F := Ideal) (cfg0.grid.coords t) (iblk V c 0 t) (iblk V c 1 t) (iblk V c 2 t) (iblk V c 3 t) a).2.2 (ix1 p)
      = a.2.2 (ix1 p) + ∑ q : Fin 512, gMask V c (rowN (t.val / 16) p) (rowN (t.val % 16) q) := by
  show k0_pay3 (F := Ideal) (k0_pay9 (F := Ideal) (cfg0.grid.coords t) (lrB V c t) (lcB V c t)) a.2.2 (ix1 p) = _
  rw [Tile.acc3_apply, zero_eq, zero_add]
  congr 1
  exact Finset.sum_congr rfl fun q _ => samemask_entry (cfg0.grid.coords t) (lrB V c t) (lcB V c t)
    (labOf V c) (rowN (t.val / 16) p) (rowN (t.val % 16) q) p q
    (lrB_apply V c t p) (lcB_apply V c t q) (rc_iff t p q)

theorem pos_N : 0 < cfg0.N := Nat.lt_of_lt_of_eq (by decide : 0 < 256) N_0.symm

/-- After point `n = 16·i + j` the first accumulator's row `p` is the sum over column blocks `0 … j` of the summands of row `512·i + p`. -/
theorem acc_top (c : Dev nD) (p : Fin 512) : ∀ n, n < 256 →
    (accAt V c n).1 (ix1 p) = ∑ j ∈ Finset.range (n % 16 + 1), ∑ q : Fin 512, gTop V c (rowN (n / 16) p) (rowN j q) := by
  refine fold_inv (fun n => (accAt V c n).1 (ix1 p)) (fun i j => ∑ q : Fin 512, gTop V c (rowN i p) (rowN j q)) ?_ ?_
  · show (accAt V c 0).1 (ix1 p) = _
    rw [accAt, dif_pos pos_N, step_top V c ⟨0, pos_N⟩ accZero p]
    congr 1
    exact (Tile.zero1_apply p).trans zero_eq
  · intro n hn
    have hN : n + 1 < cfg0.N := Nat.lt_of_lt_of_eq hn N_0.symm
    show (accAt V c (n + 1)).1 (ix1 p) = _
    rw [accAt, dif_pos hN, step_top V c ⟨n + 1, hN⟩ _ p]
    congr 1
    by_cases hm : (n + 1) % 16 = 0
    · rw [if_pos hm, if_pos hm]; exact (Tile.zero1_apply p).trans zero_eq
    · rw [if_neg hm, if_neg hm]

theorem acc_bot (c : Dev nD) (p : Fin 512) : ∀ n, n < 256 →
    (accAt V c n).2.1 (ix1 p) = ∑ j ∈ Finset.range (n % 16 + 1), ∑ q : Fin 512, gBot V c (rowN (n / 16) p) (rowN j q) := by
  refine fold_inv (fun n => (accAt V c n).2.1 (ix1 p)) (fun i j => ∑ q : Fin 512, gBot V c (rowN i p) (rowN j q)) ?_ ?_
  · show (accAt V c 0).2.1 (ix1 p) = _
    rw [accAt, dif_pos pos_N, step_bot V c ⟨0, pos_N⟩ accZero p]
    congr 1
    exact (Tile.zero2_apply p).trans zero_eq
  · intro n hn
    have hN : n + 1 < cfg0.N := Nat.lt_of_lt_of_eq hn N_0.symm
    show (accAt V c (n + 1)).2.1 (ix1 p) = _
    rw [accAt, dif_pos hN, step_bot V c ⟨n + 1, hN⟩ _ p]
    congr 1
    by_cases hm : (n + 1) % 16 = 0
    · rw [if_pos hm, if_pos hm]; exact (Tile.zero2_apply p).trans zero_eq
    · rw [if_neg hm, if_neg hm]

theorem acc_mask (c : Dev nD) (p : Fin 512) : ∀ n, n < 256 →
    (accAt V c n).2.2 (ix1 p) = ∑ j ∈ Finset.range (n % 16 + 1), ∑ q : Fin 512, gMask V c (rowN (n / 16) p) (rowN j q) := by
  refine fold_inv (fun n => (accAt V c n).2.2 (ix1 p)) (fun i j => ∑ q : Fin 512, gMask V c (rowN i p) (rowN j q)) ?_ ?_
  · show (accAt V c 0).2.2 (ix1 p) = _
    rw [accAt, dif_pos pos_N, step_mask V c ⟨0, pos_N⟩ accZero p]
    congr 1
    exact (Tile.zero3_apply p).trans zero_eq
  · intro n hn
    have hN : n + 1 < cfg0.N := Nat.lt_of_lt_of_eq hn N_0.symm
    show (accAt V c (n + 1)).2.2 (ix1 p) = _
    rw [accAt, dif_pos hN, step_mask V c ⟨n + 1, hN⟩ _ p]
    congr 1
    by_cases hm : (n + 1) % 16 = 0
    · rw [if_pos hm, if_pos hm]; exact (Tile.zero3_apply p).trans zero_eq
    · rw [if_neg hm, if_neg hm]

/-! ## At the last column block the accumulators hold the specification's sums -/

theorem last_top (c : Dev nD) (t : Fin cfg0.N) (h15 : t.val % 16 = 15) (p : Fin 512) :
    (accAt V c t.val).1 (ix1 p) = topSum (xnOf V c) (labOf V c) (rowN (t.val / 16) p) := by
  rw [acc_top V c p t.val (lt_N t), show t.val % 16 + 1 = 16 from by omega,
    sum_blocks (fun cc => gTop V c (rowN (t.val / 16) p) cc)]
  unfold Cert.Spec.topSum
  rw [zero_eq, zero_add]

theorem last_bot (c : Dev nD) (t : Fin cfg0.N) (h15 : t.val % 16 = 15) (p : Fin 512) :
    (accAt V c t.val).2.1 (ix1 p) = botSum (xnOf V c) (rowN (t.val / 16) p) := by
  rw [acc_bot V c p t.val (lt_N t), show t.val % 16 + 1 = 16 from by omega,
    sum_blocks (fun cc => gBot V c (rowN (t.val / 16) p) cc)]
  unfold Cert.Spec.botSum
  rw [zero_eq, zero_add]

theorem last_mask (c : Dev nD) (t : Fin cfg0.N) (h15 : t.val % 16 = 15) (p : Fin 512) :
    (accAt V c t.val).2.2 (ix1 p) = maskSum (labOf V c) (rowN (t.val / 16) p) := by
  rw [acc_mask V c p t.val (lt_N t), show t.val % 16 + 1 = 16 from by omega,
    sum_blocks (fun cc => gMask V c (rowN (t.val / 16) p) cc)]
  unfold Cert.Spec.maskSum
  rw [zero_eq, zero_add]

/-! ## From the blocks to the arrays -/

/-- What the three result arrays end holding, row by row. -/
abbrev GTop (c : Dev nD) : Vec Ideal S8192 .f32 := fun i => topSum (xnOf V c) (labOf V c) (i 0)
abbrev GBot (c : Dev nD) : Vec Ideal S8192 .f32 := fun i => botSum (xnOf V c) (i 0)
abbrev GMask (c : Dev nD) : Vec Ideal S8192 .f32 := fun i => maskSum (labOf V c) (i 0)

/-- The write-back at a point `≡ 15 (mod 16)` writes rows `512·(t / 16) …` of the specification's sums. -/
theorem flushed_top (c : Dev nD) (t : Fin cfg0.N) (hf : (cfg0.win 4).flush t = true) :
    (dat (F := Ideal) V c).flushed 4 t = ((cfg0.win 4).blk t).view.read (Elt Ideal) (GTop V c) := by
  have h15 := (flush0_4 t).mp hf
  obtain ⟨-, -, -, -, -, -, -, -, e4, -⟩ := pt_facts t
  have ht := lt_N t
  show (cfg0.win 4).cut (grid0.coords t) ((dat (F := Ideal) V c).after 4 t) = _
  rw [after_4]
  funext j
  obtain ⟨p, rfl⟩ : ∃ p : Fin 512, j = ix1 p := ⟨j 0, eq_ix1 j⟩
  have hp := p.isLt
  rw [View.read_apply]
  show (accAt V c t.val).1 (ix1 p) = topSum (xnOf V c) (labOf V c) ((((cfg0.win 4).blk t).view.emb (ix1 p)) 0)
  rw [last_top V c t h15 p]
  congr 1
  apply Fin.ext
  show (512 * (t.val / 16) + p.val) % 8192 = win0_4.index t 0 * 512 + 1 * p.val
  rw [e4]; omega

theorem flushed_bot (c : Dev nD) (t : Fin cfg0.N) (hf : (cfg0.win 5).flush t = true) :
    (dat (F := Ideal) V c).flushed 5 t = ((cfg0.win 5).blk t).view.read (Elt Ideal) (GBot V c) := by
  have h15 := (flush0_5 t).mp hf
  obtain ⟨-, -, -, -, -, -, -, -, e4, e5, e6⟩ := pt_facts t
  have ht := lt_N t
  show (cfg0.win 5).cut (grid0.coords t) ((dat (F := Ideal) V c).after 5 t) = _
  rw [after_5]
  funext j
  obtain ⟨p, rfl⟩ : ∃ p : Fin 512, j = ix1 p := ⟨j 0, eq_ix1 j⟩
  have hp := p.isLt
  rw [View.read_apply]
  show (accAt V c t.val).2.1 (ix1 p) = botSum (xnOf V c) ((((cfg0.win 5).blk t).view.emb (ix1 p)) 0)
  rw [last_bot V c t h15 p]
  congr 1
  apply Fin.ext
  show (512 * (t.val / 16) + p.val) % 8192 = win0_5.index t 0 * 512 + 1 * p.val
  rw [e5]; omega

theorem flushed_mask (c : Dev nD) (t : Fin cfg0.N) (hf : (cfg0.win 6).flush t = true) :
    (dat (F := Ideal) V c).flushed 6 t = ((cfg0.win 6).blk t).view.read (Elt Ideal) (GMask V c) := by
  have h15 := (flush0_6 t).mp hf
  obtain ⟨-, -, -, -, -, -, -, -, e4, e5, e6⟩ := pt_facts t
  have ht := lt_N t
  show (cfg0.win 6).cut (grid0.coords t) ((dat (F := Ideal) V c).after 6 t) = _
  rw [after_6]
  funext j
  obtain ⟨p, rfl⟩ : ∃ p : Fin 512, j = ix1 p := ⟨j 0, eq_ix1 j⟩
  have hp := p.isLt
  rw [View.read_apply]
  show (accAt V c t.val).2.2 (ix1 p) = maskSum (labOf V c) ((((cfg0.win 6).blk t).view.emb (ix1 p)) 0)
  rw [last_mask V c t h15 p]
  congr 1
  apply Fin.ext
  show (512 * (t.val / 16) + p.val) % 8192 = win0_6.index t 0 * 512 + 1 * p.val
  rw [e6]; omega

/-- An index of the array is in point `t`'s block iff its row is in the block's range. -/
theorem mem_blk4 (t : Fin cfg0.N) (i : S8192.Idx) :
    i ∈ ((cfg0.win 4).blk t).view.set ↔ ∀ a : Fin 1, win0_4.index t a * S512.size a ≤ (i a).val ∧ (i a).val < win0_4.index t a * S512.size a + S512.size a := by
  show i ∈ ((View.whole main_v6_0).slice (win0_4.rect t)).set ↔ _
  rw [View.set_slice_whole, Rect.mem_set_unit]
  exact Iff.rfl

/-- Row `r` is written back at point `16·(r / 512) + 15`. -/
theorem cover4 (i : S8192.Idx) : ∃ t : Fin cfg0.N, (cfg0.win 4).flush t = true ∧ i ∈ ((cfg0.win 4).blk t).view.set := by
  have hi : (i 0).val < 8192 := (i 0).isLt
  have hN : 16 * ((i 0).val / 512) + 15 < cfg0.N := Nat.lt_of_lt_of_eq (by omega : 16 * ((i 0).val / 512) + 15 < 256) N_0.symm
  obtain ⟨-, -, -, -, -, -, -, -, e4, e5, e6⟩ := pt_facts ⟨16 * ((i 0).val / 512) + 15, hN⟩
  refine ⟨⟨16 * ((i 0).val / 512) + 15, hN⟩, (flush0_4 _).mpr (by show (16 * ((i 0).val / 512) + 15) % 16 = 15; omega), ?_⟩
  rw [mem_blk4]
  intro a
  match a with
  | ⟨0, _⟩ =>
    show win0_4.index ⟨16 * ((i 0).val / 512) + 15, hN⟩ 0 * 512 ≤ (i 0).val ∧ (i 0).val < win0_4.index ⟨16 * ((i 0).val / 512) + 15, hN⟩ 0 * 512 + 512
    rw [e4]
    show (16 * ((i 0).val / 512) + 15) / 16 * 512 ≤ (i 0).val ∧ (i 0).val < (16 * ((i 0).val / 512) + 15) / 16 * 512 + 512
    omega

/-- An index of the array is in point `t`'s block iff its row is in the block's range. -/
theorem mem_blk5 (t : Fin cfg0.N) (i : S8192.Idx) :
    i ∈ ((cfg0.win 5).blk t).view.set ↔ ∀ a : Fin 1, win0_5.index t a * S512.size a ≤ (i a).val ∧ (i a).val < win0_5.index t a * S512.size a + S512.size a := by
  show i ∈ ((View.whole main_v6_1).slice (win0_5.rect t)).set ↔ _
  rw [View.set_slice_whole, Rect.mem_set_unit]
  exact Iff.rfl

/-- Row `r` is written back at point `16·(r / 512) + 15`. -/
theorem cover5 (i : S8192.Idx) : ∃ t : Fin cfg0.N, (cfg0.win 5).flush t = true ∧ i ∈ ((cfg0.win 5).blk t).view.set := by
  have hi : (i 0).val < 8192 := (i 0).isLt
  have hN : 16 * ((i 0).val / 512) + 15 < cfg0.N := Nat.lt_of_lt_of_eq (by omega : 16 * ((i 0).val / 512) + 15 < 256) N_0.symm
  obtain ⟨-, -, -, -, -, -, -, -, e4, e5, e6⟩ := pt_facts ⟨16 * ((i 0).val / 512) + 15, hN⟩
  refine ⟨⟨16 * ((i 0).val / 512) + 15, hN⟩, (flush0_5 _).mpr (by show (16 * ((i 0).val / 512) + 15) % 16 = 15; omega), ?_⟩
  rw [mem_blk5]
  intro a
  match a with
  | ⟨0, _⟩ =>
    show win0_5.index ⟨16 * ((i 0).val / 512) + 15, hN⟩ 0 * 512 ≤ (i 0).val ∧ (i 0).val < win0_5.index ⟨16 * ((i 0).val / 512) + 15, hN⟩ 0 * 512 + 512
    rw [e5]
    show (16 * ((i 0).val / 512) + 15) / 16 * 512 ≤ (i 0).val ∧ (i 0).val < (16 * ((i 0).val / 512) + 15) / 16 * 512 + 512
    omega

/-- An index of the array is in point `t`'s block iff its row is in the block's range. -/
theorem mem_blk6 (t : Fin cfg0.N) (i : S8192.Idx) :
    i ∈ ((cfg0.win 6).blk t).view.set ↔ ∀ a : Fin 1, win0_6.index t a * S512.size a ≤ (i a).val ∧ (i a).val < win0_6.index t a * S512.size a + S512.size a := by
  show i ∈ ((View.whole main_v6_2).slice (win0_6.rect t)).set ↔ _
  rw [View.set_slice_whole, Rect.mem_set_unit]
  exact Iff.rfl

/-- Row `r` is written back at point `16·(r / 512) + 15`. -/
theorem cover6 (i : S8192.Idx) : ∃ t : Fin cfg0.N, (cfg0.win 6).flush t = true ∧ i ∈ ((cfg0.win 6).blk t).view.set := by
  have hi : (i 0).val < 8192 := (i 0).isLt
  have hN : 16 * ((i 0).val / 512) + 15 < cfg0.N := Nat.lt_of_lt_of_eq (by omega : 16 * ((i 0).val / 512) + 15 < 256) N_0.symm
  obtain ⟨-, -, -, -, -, -, -, -, e4, e5, e6⟩ := pt_facts ⟨16 * ((i 0).val / 512) + 15, hN⟩
  refine ⟨⟨16 * ((i 0).val / 512) + 15, hN⟩, (flush0_6 _).mpr (by show (16 * ((i 0).val / 512) + 15) % 16 = 15; omega), ?_⟩
  rw [mem_blk6]
  intro a
  match a with
  | ⟨0, _⟩ =>
    show win0_6.index ⟨16 * ((i 0).val / 512) + 15, hN⟩ 0 * 512 ≤ (i 0).val ∧ (i 0).val < win0_6.index ⟨16 * ((i 0).val / 512) + 15, hN⟩ 0 * 512 + 512
    rw [e6]
    show (16 * ((i 0).val / 512) + 15) / 16 * 512 ≤ (i 0).val ∧ (i 0).val < (16 * ((i 0).val / 512) + 15) / 16 * 512 + 512
    omega

/-! ## The three result arrays after the region -/

/-- The first result array, row `r`: the sum over all 8192 columns of `exp(−(1 − ⟨x_r, x_c⟩)/T)` where the labels agree and `c ≠ r`. -/
theorem arr_top (c : Dev nD) (r : Fin 8192) :
    (dat (F := Ideal) V c).arrAt 4 cfg0.N (ix1 r)
      = Cert.Spec.topSum (fun r k => V c main_v5 (ix2 r k)) (fun r => V c main_arg2 (ix1 r)) r :=
  congrFun ((dat (F := Ideal) V c).arrAt_eq_of_cover 4 (GTop V c) (flushed_top V c) cover4) (ix1 r)

/-- The second result array, row `r`: the same sum over the columns `c ≠ r`. -/
theorem arr_bot (c : Dev nD) (r : Fin 8192) :
    (dat (F := Ideal) V c).arrAt 5 cfg0.N (ix1 r)
      = Cert.Spec.botSum (fun r k => V c main_v5 (ix2 r k)) r :=
  congrFun ((dat (F := Ideal) V c).arrAt_eq_of_cover 5 (GBot V c) (flushed_bot V c) cover5) (ix1 r)

/-- The third result array, row `r`: the number of columns `c ≠ r` with the label of `r`. -/
theorem arr_mask (c : Dev nD) (r : Fin 8192) :
    (dat (F := Ideal) V c).arrAt 6 cfg0.N (ix1 r)
      = Cert.Spec.maskSum (fun r => V c main_arg2 (ix1 r)) r :=
  congrFun ((dat (F := Ideal) V c).arrAt_eq_of_cover 6 (GMask V c) (flushed_mask V c) cover6) (ix1 r)

end

end Cert.KernelIdeal.Region0

end
-- ==== Proof.Val1.lean ====
/-
  The value of the second kernel region's result array over the extended reals.

  The region runs eight grid points. Point `t` reads rows `1024·t … 1024·t + 1023` of the logits (all thousand
  columns) and of the labels, and writes the same rows of the result. For one row with logits `y` and label `l`
  the body computes
      Σ_c y c · [c = l]  −  ( max_c y c  +  log Σ_c exp (y c − max_c y c) ),
  the maximum taken from −∞ and both sums from the zero literal.

  First the body's result is read at a row of a block: the lane maximum is the supremum of the row, each lane sum
  the sum over the row's thousand entries, the column and broadcast forms between them read the row's one value,
  and the comparison of the lane number with the label, widened and converted, is the indicator of their equality.
  Then the blocks are put together: row `p` of point `t`'s blocks is row `1024·t + p` of each array, so what
  point `t` writes back is block `t` of one function of the whole arrays; every row `r` is written at point
  `r / 1024`, so after the eight points the result array holds that function, which is the specification's
  `selLogp` of the logits and labels the region found.
-/
import proofs.«424374_j52003464020705_1_alg».proof.Proof.Data1
import proofs.«424374_j52003464020705_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

section Layout
variable {α : Type}

/-- A vector `[a]` viewed as a column `[a, 1]` reads, at `(p, u)`, the vector at `p`. -/
theorem cast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` viewed as a vector `[a]` reads, at `p`, the column at `(p, 0)`. -/
theorem cast_vec_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A column `[a, 1]` broadcast along the lanes to `[a, b]` reads, at `(p, q)`, the column at `(p, 0)`. -/
theorem bcast_col_apply {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Reduce

/-- The word `0xFF800000` denotes `-∞`, the least extended real. -/
theorem negInf_bot : FloatOps.ofBits (F := Ideal) .f32 0xFF800000#32 = (⊥ : EReal) := by
  simp [Ideal.ofBits, Ideal.ieee]

/-- The block index over row `p` with lane coordinate `k` inserted is `(p, k)`. -/
theorem lift_row (h : S1024x1000.Reduces [1] S1024) (p : Fin 1024) (k : Fin 1000) :
    h.lift (ix1 p) k = ix2 p k := by
  funext c
  apply Fin.ext
  match c with
  | ⟨0, _⟩ => rfl
  | ⟨1, _⟩ => rfl

/-- The lane maximum from `-∞` of row `p` is the supremum of the row's thousand entries. -/
theorem rowmax_apply (x0 : FVec Ideal S1024x1000 .f32) (h : S1024x1000.Reduces [1] S1024) (hφ : FKind.Formats .f32)
    (hacc : (0xFF800000#32 : BitVec 32) = FKind.maximumf.neutral .f32 hφ) (p : Fin 1024) :
    multiReduction (F := Ideal) .maximumf [1] S1024 x0 0xFF800000#32 h hφ hacc (ix1 p)
      = Finset.univ.sup fun q : Fin 1000 => x0 (ix2 p q) := by
  refine (Ideal.multiReduction_maximumf_single x0 _ h hφ hacc (ix1 p)).trans ?_
  rw [negInf_bot]
  have e : (x0 ∘ h.lift (ix1 p)) = fun q : Fin 1000 => x0 (ix2 p q) :=
    funext fun k => congrArg x0 (lift_row h p k)
  rw [e]
  rfl

/-- The lane sum from zero of row `p` is the sum of the row's thousand entries. -/
theorem rowsum_apply (x : FVec Ideal S1024x1000 .f32) (h : S1024x1000.Reduces [1] S1024) (hφ : FKind.Formats .f32)
    (hacc : (0x00000000#32 : BitVec 32) = FKind.add.neutral .f32 hφ) (p : Fin 1024) :
    multiReduction (F := Ideal) .add [1] S1024 x 0x00000000#32 h hφ hacc (ix1 p)
      = ∑ q : Fin 1000, x (ix2 p q) := by
  refine (Ideal.multiReduction_add_single x _ h hφ hacc (ix1 p)).trans ?_
  exact Finset.sum_congr rfl fun k _ => congrArg x (lift_row h p k)

/-- An `i1` comparison word widened to 32 bits and converted to a float is the indicator of the equality. -/
theorem ind_word (a b : BitVec 32) :
    (FloatOps.sitofp (F := Ideal) .f32 ((IntOp.cmpi .eq a b).setWidth 32) : EReal) = Cert.Spec.ind (a = b) := by
  show (((((IntOp.cmpi .eq a b).setWidth 32).toInt : ℤ) : ℝ) : EReal) = _
  unfold Cert.Spec.ind IntOp.cmpi
  by_cases h : a = b
  · rw [if_pos h]; subst h; simp
  · rw [if_neg h]
    have hb : (a == b) = false := by simpa using h
    simp [hb]

end Reduce

section Payload

variable {s : Shape} {φ : FTy}

/-- An exponential at an index is the exponential of the element … -/
theorem exp_at (a : FVec Ideal s φ) (i : s.Idx) : exp a i = Ideal.exp (a i) := rfl
/-- … a logarithm the logarithm of the element … -/
theorem log_at (a : FVec Ideal s φ) (i : s.Idx) : log a i = Ideal.log (a i) := rfl
/-- … and an integer comparison the comparison of the elements. -/
theorem cmpi_at {w : ℕ} (pr : CmpIPredicate) (a b : IVec s w) (i : s.Idx) : cmpi pr a b i = IntOp.cmpi pr (a i) (b i) := rfl

/-- ROW `p` OF THE BODY'S RESULT, from a block of logits `x0` and a block of labels `x1`: the one-hot sum that picks
    the logit at the label, minus the row's maximum plus the logarithm of the sum of the exponentials of the
    row's entries less that maximum. -/
theorem pay_apply (x0 : Vec Ideal S1024x1000 .f32) (x1 : Vec Ideal S1024 .i32) (p : Fin 1024) :
    k1_pay1 (F := Ideal) x0 x1 (ix1 p)
      = (∑ q : Fin 1000, x0 (ix2 p q) * Cert.Spec.ind (BitVec.ofNat 32 q.val = x1 (ix1 p)))
        - ((Finset.univ.sup fun q : Fin 1000 => x0 (ix2 p q))
            + Ideal.log (∑ q : Fin 1000, Ideal.exp (x0 (ix2 p q) - Finset.univ.sup fun q' : Fin 1000 => x0 (ix2 p q')))) := by
  unfold k1_pay1
  dsimp only
  rw [cast_vec_apply, subf_apply, cast_col_apply, addf_apply, cast_col_apply, log_at, cast_col_apply]
  refine congrArg₂ (· - ·) ?_ (congrArg₂ (· + ·) ?_ (congrArg Ideal.log ?_))
  · refine (rowsum_apply _ _ _ _ p).trans (Finset.sum_congr rfl fun q _ => ?_)
    rw [mulf_apply, sitofp_apply, extui_apply, cmpi_at, iota_single_apply, bcast_col_apply, cast_col_apply]
    exact congrArg (x0 (ix2 p q) * ·) (ind_word _ _)
  · exact rowmax_apply x0 _ _ _ p
  · refine (rowsum_apply _ _ _ _ p).trans (Finset.sum_congr rfl fun q _ => ?_)
    rw [exp_at, subf_apply, bcast_col_apply, cast_col_apply]
    exact congrArg (fun m => Ideal.exp (x0 (ix2 p q) - m)) (rowmax_apply x0 _ _ _ p)

end Payload

section Array

variable (V : (c : Dev nD) → (b : Ref sig .tc) → Buf (Elt Ideal) ((c : Thread nD τ).loc b))

/-- The logits the region finds, by row and column, and the labels, by row. -/
abbrev logits (c : Dev nD) : Fin 8192 → Fin 1000 → EReal := fun r k => V c main_arg1 (ix2 r k)
abbrev labels (c : Dev nD) : Fin 8192 → BitVec 32 := fun r => V c main_arg2 (ix1 r)

/-- What the result array ends holding: at row `r`, the specification's row value of the logits and labels. -/
def rowsOut (c : Dev nD) : S8192.Idx → EReal := fun i => Cert.Spec.selLogp (logits V c) (labels V c) (i 0 : Fin 8192)

/-- The printed index maps over the eight points: every window's block index is the point's number, the
    logits' column block the only one. -/
theorem idx_facts : ∀ t : Fin cfg1.N, win1_0.index t (0 : Fin 2) = t.val ∧ win1_0.index t (1 : Fin 2) = 0
    ∧ win1_1.index t (0 : Fin 1) = t.val ∧ win1_2.index t (0 : Fin 1) = t.val :=
  (by decide +kernel : ∀ t : Fin grid1.N, _)

/-- Row `p` of point `t`'s blocks is row `1024·t + p` of the arrays. -/
def rowOf (t : Fin cfg1.N) (p : Fin 1024) : Fin 8192 :=
  ⟨1024 * t.val + p.val, by have := t.isLt; have hN : cfg1.N = 8 := N_1; have := p.isLt; omega⟩

/-- The logits' block at point `t` reads rows `1024·t …` of the logits, all thousand columns. -/
theorem logits_blk (c : Dev nD) (t : Fin cfg1.N) (p : Fin 1024) (q : Fin 1000) :
    (iblk V c 0 t : Vec Ideal S1024x1000 .f32) (ix2 p q) = V c main_arg1 (ix2 (rowOf t p) q) := by
  obtain ⟨e0, e1, -, -⟩ := idx_facts t
  show V c main_arg1 (((cfg1.win 0).blk t).view.emb (ix2 p q)) = V c main_arg1 (ix2 (rowOf t p) q)
  refine congrArg (V c main_arg1) (funext fun a => Fin.ext ?_)
  match a with
  | ⟨0, _⟩ => show win1_0.index t (0 : Fin 2) * 1024 + 1 * p.val = 1024 * t.val + p.val; omega
  | ⟨1, _⟩ => show win1_0.index t (1 : Fin 2) * 1000 + 1 * q.val = q.val; omega

/-- The labels' block at point `t` reads the same rows of the labels. -/
theorem labels_blk (c : Dev nD) (t : Fin cfg1.N) (p : Fin 1024) :
    (iblk V c 1 t : Vec Ideal S1024 .i32) (ix1 p) = V c main_arg2 (ix1 (rowOf t p)) := by
  obtain ⟨-, -, e2, -⟩ := idx_facts t
  show V c main_arg2 (((cfg1.win 1).blk t).view.emb (ix1 p)) = V c main_arg2 (ix1 (rowOf t p))
  refine congrArg (V c main_arg2) (funext fun a => Fin.ext ?_)
  match a with
  | ⟨0, _⟩ => show win1_1.index t (0 : Fin 1) * 1024 + 1 * p.val = 1024 * t.val + p.val; omega

/-- Row `p` of the result's block at point `t` sits at row `1024·t + p` of the result array. -/
theorem out_emb (t : Fin cfg1.N) (p : Fin 1024) :
    ((cfg1.win 2).blk t).view.emb (ix1 p) = (ix1 (rowOf t p) : S8192.Idx) := by
  obtain ⟨-, -, -, e3⟩ := idx_facts t
  refine funext fun a => Fin.ext ?_
  match a with
  | ⟨0, _⟩ => show win1_2.index t (0 : Fin 1) * 1024 + 1 * p.val = 1024 * t.val + p.val; omega

/-- WHAT POINT `t` WRITES BACK is block `t` of `rowsOut`. -/
theorem flushed_eq (c : Dev nD) (t : Fin cfg1.N) :
    (dat (F := Ideal) V c).flushed 2 t = ((cfg1.win 2).blk t).view.read (Elt Ideal) (rowsOut V c) := by
  show (cfg1.win 2).cut (grid1.coords t) ((dat (F := Ideal) V c).after 2 t) = _
  rw [after_2]
  funext j
  obtain ⟨p, rfl⟩ : ∃ p : Fin 1024, j = ix1 p := ⟨j 0, eq_ix1 j⟩
  show k1_pay1 (F := Ideal) (iblk V c 0 t) (iblk V c 1 t) (ix1 p) = rowsOut V c (((cfg1.win 2).blk t).view.emb (ix1 p))
  rw [out_emb]
  refine (pay_apply (iblk V c 0 t) (iblk V c 1 t) p).trans ?_
  simp only [logits_blk, labels_blk]
  show _ = Cert.Spec.selLogp (logits V c) (labels V c) (rowOf t p)
  unfold Cert.Spec.selLogp Cert.Spec.pick Cert.Spec.sumExp Cert.Spec.rowMax
  simp only [Ideal.ofBits_zero_f32, zero_add]

/-- An index of the result array is in point `t`'s block iff its row is among the block's 1024. -/
theorem mem_blk (t : Fin cfg1.N) (i : S8192.Idx) :
    i ∈ ((cfg1.win 2).blk t).view.set ↔ ∀ a : Fin 1, win1_2.index t a * S1024.size a ≤ (i a).val ∧ (i a).val < win1_2.index t a * S1024.size a + S1024.size a := by
  show i ∈ ((View.whole main_v15).slice (win1_2.rect t)).set ↔ _
  rw [View.set_slice_whole, Rect.mem_set_unit]
  exact Iff.rfl

/-- Every row of the result is written: row `r` at point `r / 1024`. -/
theorem covered (i : S8192.Idx) : ∃ t : Fin cfg1.N, (cfg1.win 2).flush t = true ∧ i ∈ ((cfg1.win 2).blk t).view.set := by
  have hi : (i 0).val < 8192 := (i 0).isLt
  have hN : cfg1.N = 8 := N_1
  refine ⟨⟨(i 0).val / 1024, by omega⟩, flush1_2 _, ?_⟩
  rw [mem_blk]
  intro a
  obtain ⟨-, -, -, e3⟩ := idx_facts ⟨(i 0).val / 1024, by omega⟩
  match a with
  | ⟨0, _⟩ =>
    show win1_2.index ⟨(i 0).val / 1024, _⟩ (0 : Fin 1) * 1024 ≤ (i 0).val ∧ (i 0).val < win1_2.index ⟨(i 0).val / 1024, _⟩ (0 : Fin 1) * 1024 + 1024
    rw [e3]
    show (i 0).val / 1024 * 1024 ≤ (i 0).val ∧ (i 0).val < (i 0).val / 1024 * 1024 + 1024
    omega

/-- THE RESULT ARRAY after the region's eight points holds `rowsOut`. -/
theorem arr_eq (c : Dev nD) : (dat (F := Ideal) V c).arrAt 2 cfg1.N = rowsOut V c :=
  (dat (F := Ideal) V c).arrAt_eq_of_cover 2 (rowsOut V c) (fun t _ => flushed_eq V c t) (covered)

/-- Row by row: the result at row `r` is the specification's formula of the logits and labels the region found. -/
theorem arr_out (c : Dev nD) (r : Fin 8192) :
    (dat (F := Ideal) V c).arrAt 2 cfg1.N (ix1 r)
      = Cert.Spec.selLogp (fun r k => V c main_arg1 (ix2 r k)) (fun r => V c main_arg2 (ix1 r)) r := by
  rw [arr_eq]
  rfl

end Array

end Cert.KernelIdeal.Region1

end
-- ==== Proof.LibTakeAlong.lean ====
/-
  TAKE-ALONG-AXIS. jnp's take_along_axis(x, idx, axis = 1) on a rank-2 operand x : [A, N], with the index array
  reshaped to [A, B, 1], is a stablehlo.gather whose operand axis 0 is a BATCHING axis (paired with the start
  indices' axis 0) and whose operand axis 1 is collapsed and start-indexed, the index vector on axis 2, no offset
  axes. Result element (a, b) is x at row a and at the column idx[a, b, 0], read signed and clamped into [0, N − 1].

  The lemmas take the dimension numbers by hypotheses on their fields (each closes by rfl on a literal instance):
    * operandIdx_row / operandIdx_col : the two coordinates of the operand index that result index j reads;
    * gather_apply / gather_apply_ix : the gather read at a result index;
    * gather_map₂ / gather_subf / gather_subf_apply : a gather of an elementwise binary operation is the operation of
      the gathers (any dimension numbers);
    * gather_rowconst / gather_rowfn : a gather of an operand that depends on its row only reads the result's row.
-/
import Idealize.ShloMosaic.PureOps
import Idealize.ShloMosaic.Lib.ValueIdx

namespace Idealize.ShloMosaic.TakeAlong

open Idealize.ShloMosaic Idealize.ShloMosaic.ValueIdx

/-- The start-indices index [a, b, 0] that result index (a, b) of a take-along-axis reads. -/
abbrev ix3' {A B : Nat} (j : (⟨2, ![A, B]⟩ : Shape).Idx) : (⟨3, ![A, B, 1]⟩ : Shape).Idx :=
  ix3 (n0 := A) (n1 := B) (n2 := 1) (j 0) (j 1) (0 : Fin 1)

/-- At a result index given by its coordinates, the start-indices index is the coordinates followed by 0. -/
theorem ix3'_ix2 {A B : Nat} (a : Fin A) (b : Fin B) : ix3' (ix2 a b) = ix3 a b (0 : Fin 1) := rfl

section Coordinates
variable {A N B w : Nat}

/-- THE ROW. The operand index that result index j reads has, on the batching axis 0, j's own row: the start
    indices do not enter (axis 0 is not in the start index map) and there is no offset on a batching axis. -/
theorem operandIdx_row (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (j : (⟨2, ![A, B]⟩ : Shape).Idx) (idx : IVec ⟨3, ![A, B, 1]⟩ w) :
    ((d.operandIdx j idx) (0 : Fin 2)).val = (j (0 : Fin 2)).val := by
  obtain ⟨od, cd, ob, sb, sim, ivd, ss, wf⟩ := d
  dsimp only at hoff hcoll hob hsb hsim hivd
  subst hoff hcoll hob hsb hsim hivd
  show GatherDims.start _ j idx 0 + GatherDims.batchCoord _ j 0 + GatherDims.offCoord _ j 0 = _
  rw [GatherDims.start_batching _ j idx 0 (List.mem_singleton.mpr rfl),
    GatherDims.offCoord_eq_zero _ j 0 (fun h => ((GatherDims.mem_sKept _ _).mp h).2 (List.mem_singleton.mpr rfl)),
    Nat.zero_add, Nat.add_zero]
  unfold GatherDims.batchCoord
  rw [dif_pos (List.mem_singleton.mpr rfl)]
  rfl

/-- THE COLUMN. On the collapsed, start-indexed axis 1 the operand index is the start index at (row, position, 0),
    read as a SIGNED integer and clamped into [0, N − 1] (the slice on that axis has size 1): a negative index reads
    column 0, one past the end reads the last column. No batching or offset coordinate is added there. -/
theorem operandIdx_col (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (j : (⟨2, ![A, B]⟩ : Shape).Idx) (idx : IVec ⟨3, ![A, B, 1]⟩ w) :
    ((d.operandIdx j idx) (1 : Fin 2)).val = min (idx (ix3' j)).toInt.toNat (N - 1) := by
  have hsl : d.sliceSizes 1 = 1 := d.slice_collapsed 1 (by rw [hcoll]; exact List.mem_singleton.mpr rfl)
  obtain ⟨od, cd, ob, sb, sim, ivd, ss, wf⟩ := d
  dsimp only at hoff hcoll hob hsb hsim hivd hsl
  subst hoff hcoll hob hsb hsim hivd
  show GatherDims.start _ j idx 1 + GatherDims.batchCoord _ j 1 + GatherDims.offCoord _ j 1 = _
  rw [GatherDims.batchCoord_eq_zero _ j 1 (fun h => Nat.one_ne_zero (congrArg Fin.val (List.mem_singleton.mp h))),
    GatherDims.offCoord_eq_zero _ j 1 (fun h => ((GatherDims.mem_sKept _ _).mp h).1 (List.mem_singleton.mpr rfl))]
  simp only [Nat.add_zero]
  unfold GatherDims.start
  rw [dif_pos (List.mem_singleton.mpr rfl)]
  -- the start-indices index read: j's two batch coordinates, then component 0 on the index vector's axis
  have hsi : GatherDims.siIdx (⟨[], [1], [0], [0], [1], 2, ss, wf⟩ : GatherDims ⟨2, ![A, N]⟩ ⟨3, ![A, B, 1]⟩ ⟨2, ![A, B]⟩) j
      ⟨List.idxOf (1 : Fin 2) [1], List.idxOf_lt_length_iff.2 (List.mem_singleton.mpr rfl)⟩ = ix3' j := by
    funext b; refine Fin.ext ?_
    match b with
    | ⟨0, _⟩ => rfl
    | ⟨1, _⟩ => rfl
    | ⟨2, _⟩ => rfl
  rw [hsi]
  show min (idx (ix3' j)).toInt.toNat (N - ss 1) = _
  rw [hsl]

end Coordinates

section Read
variable {A N B w : Nat} {α : Type}

/-- THE GATHER READ AT A RESULT INDEX: row j 0 of the operand, at the column the start index at (j 0, j 1, 0)
    names, read signed and clamped into [0, N − 1]. -/
theorem gather_apply (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hN : 0 < N) (x : (⟨2, ![A, N]⟩ : Shape).Idx → α) (idx : IVec ⟨3, ![A, B, 1]⟩ w) (j : (⟨2, ![A, B]⟩ : Shape).Idx) :
    Host.gather d x idx j
      = x (ix2 (n0 := A) (n1 := N) (j 0) ⟨min (idx (ix3' j)).toInt.toNat (N - 1), by omega⟩) := by
  unfold Host.gather
  congr 1
  funext c
  refine Fin.ext ?_
  match c with
  | ⟨0, _⟩ => exact operandIdx_row d hoff hcoll hob hsb hsim hivd j idx
  | ⟨1, _⟩ => exact operandIdx_col d hoff hcoll hob hsb hsim hivd j idx

/-- The same read with the result index given by its coordinates (a, b): the operand at
    (a, clamp idx[a, b, 0]). -/
theorem gather_apply_ix (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (hN : 0 < N) (x : (⟨2, ![A, N]⟩ : Shape).Idx → α) (idx : IVec ⟨3, ![A, B, 1]⟩ w) (a : Fin A) (b : Fin B) :
    Host.gather d x idx (ix2 a b)
      = x (ix2 a ⟨min (idx (ix3 a b (0 : Fin 1))).toInt.toNat (N - 1), by omega⟩) :=
  gather_apply d hoff hcoll hob hsb hsim hivd hN x idx (ix2 a b)

/-- An operand that depends on its ROW only is gathered to its value on the result's row, whatever the start
    indices hold: i is any operand index on row j 0. -/
theorem gather_rowconst (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (y : (⟨2, ![A, N]⟩ : Shape).Idx → α) (hy : ∀ i i' : (⟨2, ![A, N]⟩ : Shape).Idx, (i 0).val = (i' 0).val → y i = y i')
    (idx : IVec ⟨3, ![A, B, 1]⟩ w) (j : (⟨2, ![A, B]⟩ : Shape).Idx) (i : (⟨2, ![A, N]⟩ : Shape).Idx)
    (hi : (i 0).val = (j 0).val) :
    Host.gather d y idx j = y i :=
  hy _ _ ((operandIdx_row d hoff hcoll hob hsb hsim hivd j idx).trans hi.symm)

/-- A function c of the row coordinate alone is gathered to c at the result's row. -/
theorem gather_rowfn (d : GatherDims ⟨2, ![A, N]⟩ ⟨3, ![A, B, 1]⟩ ⟨2, ![A, B]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (c : Fin A → α) (idx : IVec ⟨3, ![A, B, 1]⟩ w) (j : (⟨2, ![A, B]⟩ : Shape).Idx) :
    Host.gather d (fun i : (⟨2, ![A, N]⟩ : Shape).Idx => c ⟨(i 0).val, idx2_lt0 i⟩) idx j = c ⟨(j 0).val, idx2_lt0 j⟩ :=
  congrArg c (Fin.ext (operandIdx_row d hoff hcoll hob hsb hsim hivd j idx))

end Read

/-! ## A gather of an elementwise binary operation (any dimension numbers)

A gather re-indexes its operand, so it commutes with every operation applied element by element. -/

section Elementwise
variable {s si t : Shape} {w : Nat}

/-- A gather of the elementwise f of x and y is f of the two gathers, at every result index. -/
theorem gather_map₂ {α β γ : Type} (d : GatherDims s si t) (f : α → β → γ) (x : s.Idx → α) (y : s.Idx → β)
    (idx : IVec si w) :
    Host.gather d (fun i => f (x i) (y i)) idx = fun j => f (Host.gather d x idx j) (Host.gather d y idx j) := rfl

/-- A gather of a vector difference is the difference of the gathers (every float instance). -/
theorem gather_subf {F : FTy → Type} [FloatOps F] {φ : FTy} (d : GatherDims s si t) (x y : FVec F s φ)
    (idx : IVec si w) :
    Host.gather d (subf x y) idx
      = subf (F := F) (φ := φ) (Host.gather d x idx) (Host.gather d y idx) := rfl

/-- At the ideal instance, read at a result index: the extended reals' difference of the two gathers there. -/
theorem gather_subf_apply {φ : FTy} (d : GatherDims s si t) (x y : FVec Ideal s φ) (idx : IVec si w) (j : t.Idx) :
    Host.gather d (subf x y) idx j = Host.gather d x idx j - Host.gather d y idx j := rfl

end Elementwise

end Idealize.ShloMosaic.TakeAlong
-- ==== Proof.RefValue.lean ====
/-
  The reference's four per-row arrays are the specification's, at the ideal instance (a float an extended real).

  Read at a matrix index (r, c), each stage of the reference is the specification's term there:
    the cosine-similarity product  Σ_k xn r k · xn c k,  its exponential  exp (−(1 − sim) / T),
    the off-diagonal mask  1 − [r = c]  (row and column numbers compared as 32-bit words, both below 2³²),
    the same-label mask  [lab r = lab c];
  the three masked row sums are then the specification's sums term by term.
  For the log-probability at the label: the row maximum is the supremum of the row (a fold of max from −∞),
  the range test on the label passes, the gather reads the label's column, the one-hot sum collapses to that
  column, and (a − M) − L = a − (M + L) in the reals, every entry being finite.
-/
import proofs.«424374_j52003464020705_1_alg».proof.Proof.RefRead
import proofs.«424374_j52003464020705_1_alg».proof.Proof.Spec
import Idealize.ShloMosaic.Lib.ValueIdx
import Idealize.ShloMosaic.PureOps.Ideal.Laws
import Idealize.ShloMosaic.Lib.Affine
import proofs.«424374_j52003464020705_1_alg».proof.Proof.LibTakeAlong

noncomputable section

namespace Cert.ReferenceIdeal.RefValue

open Cert.ReferenceIdeal Cert.ReferenceIdeal.Gen Cert.ReferenceIdeal.ReadP Idealize.ShloMosaic Idealize.ShloMosaic.ValueIdx

/-! ## Words: a comparison's bit as the extended real 1 or 0 -/

/-- The bit of an equality test, widened and converted, is the indicator of the equality. -/
theorem uitofp_cmpi_eq {w : Nat} (a b : BitVec w) :
    FloatOps.uitofp (F := Ideal) .f32 (IntOp.cmpi .eq a b) = Cert.Spec.ind (a = b) := by
  unfold Cert.Spec.ind
  by_cases h : a = b
  · rw [if_pos h, IntOp.cmpi_eq.mpr h]; show (((1#1 : BitVec 1).toNat : ℝ) : EReal) = _; norm_num
  · rw [if_neg h, eq_zero_of_ne_one (fun e => h (IntOp.cmpi_eq.mp e))]
    show (((0#1 : BitVec 1).toNat : ℝ) : EReal) = _; norm_num

/-- Two row numbers below 8192 are equal as 32-bit words exactly when they are equal. -/
theorem ofNat_eq_iff (r c : Fin 8192) : (BitVec.ofNat 32 r.val + 0#32 = BitVec.ofNat 32 c.val) ↔ r = c := by
  constructor
  · intro h
    have h' := congrArg BitVec.toNat h
    rw [BitVec.add_zero, BitVec.toNat_ofNat, BitVec.toNat_ofNat] at h'
    have hr := r.isLt; have hc := c.isLt
    exact Fin.ext (by omega)
  · intro h; rw [h, BitVec.add_zero]

/-! ## The stages at a matrix index -/

section Stages
variable (x0 : (⟨S8192x256, .f32⟩ : BufTy).Contents (Elt Ideal)) (x2 : (⟨S8192, .i32⟩ : BufTy).Contents (Elt Ideal))

/-- The similarity product at (r, c): Σ_k xn r k · xn c k. -/
theorem v6_at (r c : Fin 8192) :
    val_main_v6 (F := Ideal) x0 (ix2 r c) = Cert.Spec.sim (fun r k => val_main_v4 (F := Ideal) x0 (ix2 r k)) r c := by
  rw [val_main_v6_apply]
  unfold Cert.Spec.sim
  refine Finset.sum_congr rfl fun k _ => ?_
  rw [val_main_v5_apply]
  have e1 : lidx_main_v6 (ix2 r c) k = ix2 r k :=
    funext fun a => Fin.ext (by match a with | ⟨0, _⟩ => rfl | ⟨1, _⟩ => rfl)
  have e2 : idx_main_v5 (ridx_main_v6 (ix2 r c) k) = ix2 c k :=
    funext fun a => Fin.ext (by match a with | ⟨0, _⟩ => rfl | ⟨1, _⟩ => rfl)
  rw [e1, e2]

/-- The exponential at (r, c): exp (−(1 − sim r c) / T). -/
theorem v12_at (r c : Fin 8192) :
    val_main_v12 (F := Ideal) x0 (ix2 r c) = Cert.Spec.expo (fun r k => val_main_v4 (F := Ideal) x0 (ix2 r k)) r c := by
  rw [val_main_v12_apply, val_main_v11_apply, val_main_v9_apply, val_main_v8_apply, val_main_v7_apply, val_main_v10_apply,
    val_main_cst_0_apply, val_main_cst_1_apply, v6_at]
  rfl

/-- The off-diagonal mask at (r, c): 1 − [r = c]. -/
theorem v20_at (r c : Fin 8192) : val_main_v20 (F := Ideal) (ix2 r c) = Cert.Spec.notSelf r c := by
  rw [val_main_v20_apply, val_main_v19_apply, val_main_cst_2_apply, val_main_v18_apply, val_main_v17_apply, val_main_v16_apply,
    val_main_v13_apply, val_main_v14_apply, val_main_v15_apply, val_main_c_apply, uitofp_cmpi_eq]
  unfold Cert.Spec.notSelf Cert.Spec.ind
  show Ideal.ofBits .f32 0x3F800000#32 - (if BitVec.ofNat 32 r.val + 0#32 = BitVec.ofNat 32 c.val then _ else _) = _
  by_cases h : r = c
  · rw [if_pos ((ofNat_eq_iff r c).mpr h), if_pos h]
  · rw [if_neg (fun e => h ((ofNat_eq_iff r c).mp e)), if_neg h]

/-- The same-label mask at (r, c): [lab r = lab c]. -/
theorem v26_at (r c : Fin 8192) :
    val_main_v26 (F := Ideal) x2 (ix2 r c) = Cert.Spec.same (fun r => x2 (ix1 r)) r c := by
  rw [val_main_v26_apply, val_main_v25_apply, val_main_v23_apply, val_main_v24_apply, val_main_v21_apply, val_main_v22_apply,
    uitofp_cmpi_eq]
  have e1 : idx_main_v21 (idx_main_v23 (ix2 r c)) = ix1 r :=
    funext fun a => Fin.ext (by match a with | ⟨0, _⟩ => rfl)
  have e2 : idx_main_v22 (idx_main_v24 (ix2 r c)) = ix1 c :=
    funext fun a => Fin.ext (by match a with | ⟨0, _⟩ => rfl)
  rw [e1, e2]
  rfl

/-- The positive-pair mask at (r, c): [lab r = lab c] · (1 − [r = c]). -/
theorem v27_at (r c : Fin 8192) :
    val_main_v27 (F := Ideal) x2 (ix2 r c) = Cert.Spec.same (fun r => x2 (ix1 r)) r c * Cert.Spec.notSelf r c := by
  rw [val_main_v27_apply, v26_at, v20_at]; rfl

end Stages

/-- A row sum's index at (row r, column k) is the matrix index (r, k). -/
theorem idx_row (r k : Fin 8192) : idx_main_v29 (ix1 r) k = ix2 r k :=
  funext fun a => Fin.ext (by match a with | ⟨0, _⟩ => rfl | ⟨1, _⟩ => rfl)

/-! ## The three masked row sums -/

theorem ref_top (x0 : (⟨S8192x256, .f32⟩ : BufTy).Contents (Elt Ideal)) (x2 : (⟨S8192, .i32⟩ : BufTy).Contents (Elt Ideal))
    (r : Fin 8192) :
    val_main_v29 (F := Ideal) x0 x2 (ix1 r)
      = Cert.Spec.topSum (fun r k => val_main_v4 (F := Ideal) x0 (ix2 r k)) (fun r => x2 (ix1 r)) r := by
  rw [val_main_v29_apply, val_main_cst_3_apply]
  unfold Cert.Spec.topSum
  refine congrArg (Ideal.ofBits .f32 0x00000000#32 + ·) (Finset.sum_congr rfl fun c _ => ?_)
  rw [idx_row, val_main_v28_apply, v12_at, v27_at]; rfl

theorem ref_bot (x0 : (⟨S8192x256, .f32⟩ : BufTy).Contents (Elt Ideal)) (r : Fin 8192) :
    val_main_v35 (F := Ideal) x0 (ix1 r)
      = Cert.Spec.botSum (fun r k => val_main_v4 (F := Ideal) x0 (ix2 r k)) r := by
  rw [val_main_v35_apply, val_main_cst_7_apply]
  unfold Cert.Spec.botSum
  refine congrArg (Ideal.ofBits .f32 0x00000000#32 + ·) (Finset.sum_congr rfl fun c _ => ?_)
  rw [show idx_main_v35 (ix1 r) c = ix2 r c from idx_row r c, val_main_v34_apply, v12_at, v20_at]; rfl

theorem ref_mask (x2 : (⟨S8192, .i32⟩ : BufTy).Contents (Elt Ideal)) (r : Fin 8192) :
    val_main_v30 (F := Ideal) x2 (ix1 r) = Cert.Spec.maskSum (fun r => x2 (ix1 r)) r := by
  rw [val_main_v30_apply, val_main_cst_4_apply]
  unfold Cert.Spec.maskSum
  refine congrArg (Ideal.ofBits .f32 0x00000000#32 + ·) (Finset.sum_congr rfl fun c _ => ?_)
  rw [show idx_main_v30 (ix1 r) c = ix2 r c from idx_row r c, v27_at]

/-! ## The label's log-probability -/

/-- The pattern 0xFF800000 denotes −∞, the least extended real. -/
theorem negInf_eq_bot : Ideal.ofBits .f32 0xFF800000#32 = (⊥ : EReal) := by
  simp [Ideal.ofBits, Ideal.ieee]

/-! ### Words: a label in [0, 1000) -/

section Label
variable (y : BitVec 32) (h0 : 0 ≤ y.toInt) (h1 : y.toInt < 1000)
include h0

/-- A label that is not negative fails the test "below zero". -/
theorem lab_slt : IntOp.cmpi .slt y 0#32 = 0#1 :=
  eq_zero_of_ne_one fun e => by
    have := IntOp.cmpi_slt.mp e
    rw [show (0#32 : BitVec 32).toInt = 0 from rfl] at this
    omega

/-- A label that is not negative passes the test "at least zero". -/
theorem lab_sge : IntOp.cmpi .sge y 0#32 = 1#1 :=
  IntOp.cmpi_sge.mpr (by rw [show (0#32 : BitVec 32).toInt = 0 from rfl]; exact h0)

/-- A label in range read signed is the label read unsigned. -/
theorem lab_toNat : y.toInt.toNat = y.toNat := by
  have e := BitVec.toInt_eq_toNat_cond y; have := y.isLt; omega

include h1

/-- A label below 1000 passes the test "at most 999". -/
theorem lab_sle : IntOp.cmpi .sle y 999#32 = 1#1 :=
  IntOp.cmpi_sle.mpr (by rw [show (999#32 : BitVec 32).toInt = 999 from rfl]; omega)

theorem lab_lt : y.toNat < 1000 := by
  have e := BitVec.toInt_eq_toNat_cond y; have := y.isLt; omega

end Label

/-- A fold of `and` from 1 over words that are all 1 is 1. -/
theorem fold_andi_one {ι : Type} (S : Finset ι) (g : ι → BitVec 1) (hg : ∀ i, g i = 1#1) :
    S.fold IntOp.andi 1#1 g = 1#1 := by
  classical
  induction S using Finset.induction_on with
  | empty => rfl
  | insert a S ha ih => rw [Finset.fold_insert ha, hg, ih]; rfl

section Take
variable (x1 : (⟨S8192x1000, .f32⟩ : BufTy).Contents (Elt Ideal)) (x2 : (⟨S8192, .i32⟩ : BufTy).Contents (Elt Ideal))
  (hlab : ∀ i : S8192.Idx, 0 ≤ (x2 i).toInt ∧ (x2 i).toInt < 1000)
include hlab

/-- The start index of row r is the row's label: it is not negative, so the wrap-around select keeps it. -/
theorem c3v5_at (r : Fin 8192) (a b : Fin 1) : val_main_call3_v5 (F := Ideal) x2 (ix3 r a b) = x2 (ix1 r) := by
  rw [val_main_call3_v5_apply, val_main_call3_v4_apply, val_main_call3_v1_apply, val_main_call3_v0_apply, val_main_call3_c_apply,
    val_main_v42_apply]
  have e : idx_main_v42 (idx_main_call3_v5 (ix3 r a b)) = ix1 r :=
    funext fun d => Fin.ext (by
      match d with
      | ⟨0, _⟩ =>
        show ((r.val * 1 + a.val) * 1 + b.val) / 1 = r.val
        have := a.isLt; have := b.isLt; omega)
  rw [e, lab_slt _ (hlab _).1, select_zero]

/-- The range test 0 ≤ index ≤ 999 passes at every position. -/
theorem c3v11_one (i : S8192x1x1.Idx) : val_main_call3_v11 (F := Ideal) x2 i = 1#1 := by
  obtain ⟨r, a, b, rfl⟩ : ∃ (r : Fin 8192) (a b : Fin 1), i = ix3 r a b := ⟨_, _, _, eq_ix3 i⟩
  rw [val_main_call3_v11_apply, val_main_call3_v7_apply, val_main_call3_v10_apply, c3v5_at x2 hlab, val_main_call3_v6_apply,
    val_main_call3_c_2_apply, val_main_call3_v9_apply, val_main_call3_v8_apply, val_main_call3_c_1_apply,
    lab_sge _ (hlab _).1, lab_sle _ (hlab _).1 (hlab _).2]
  rfl

/-- Reduced by `and` over the index vector's axis, the range test still passes. -/
theorem c3v12_one (j : S8192x1.Idx) : val_main_call3_v12 (F := Ideal) x2 j = 1#1 := by
  unfold val_main_call3_v12
  rw [Host.reduce_eq_fold]
  exact fold_andi_one _ _ (c3v11_one x2 hlab)

/-- The gather reads, in row r, the column the row's label names. -/
theorem c3v13_at (r : Fin 8192) :
    val_main_call3_v13 (F := Ideal) x1 x2 (ix2 r (0 : Fin 1))
      = val_main_v41 (F := Ideal) x1 (ix2 r ⟨(x2 (ix1 r)).toNat, lab_lt _ (hlab _).1 (hlab _).2⟩) := by
  unfold val_main_call3_v13
  rw [TakeAlong.gather_apply_ix gather_S8192x1000_S8192x1x1_S8192x1_n_1_0_0_1_2_11 rfl rfl rfl rfl rfl rfl (by decide)]
  refine congrArg (val_main_v41 (F := Ideal) x1) (congrArg (ix2 r) (Fin.ext ?_))
  show min (val_main_call3_v5 (F := Ideal) x2 (ix3 r 0 0)).toInt.toNat (1000 - 1) = (x2 (ix1 r)).toNat
  rw [c3v5_at x2 hlab, lab_toNat _ (hlab _).1]
  have := lab_lt _ (hlab (ix1 r)).1 (hlab _).2
  omega

/-- The taken value at row r: the test passes, so the select keeps the gathered element. -/
theorem v44_at (r : Fin 8192) :
    val_main_v44 (F := Ideal) x1 x2 (ix1 r)
      = val_main_v41 (F := Ideal) x1 (ix2 r ⟨(x2 (ix1 r)).toNat, lab_lt _ (hlab _).1 (hlab _).2⟩) := by
  rw [val_main_v44_apply, val_main_v43_apply, c3v12_one x2 hlab, select_one]
  have e : idx_main_v44 (ix1 r) = ix2 r (0 : Fin 1) :=
    funext fun d => Fin.ext (by
      match d with
      | ⟨0, _⟩ => exact Nat.div_one _
      | ⟨1, _⟩ => rfl)
  rw [e, c3v13_at x1 x2 hlab]

end Take

/-! ### The row maximum, the shifted row, and the log-softmax at (r, c) -/

/-- A fold of max from −∞ is the supremum. -/
theorem fold_max_eq_sup {ι : Type} (S : Finset ι) (g : ι → EReal) :
    S.fold (FloatOps.maximumf (F := Ideal) (φ := .f32)) (⊥ : EReal) g = S.sup g := by
  classical
  induction S using Finset.induction_on with
  | empty => rfl
  | insert a S ha ih => rw [Finset.fold_insert ha, Finset.sup_insert, ih]; rfl

section Softmax
variable (x1 : (⟨S8192x1000, .f32⟩ : BufTy).Contents (Elt Ideal))

/-- The row maximum at r is the supremum of row r (the fold starts at −∞, and the later max with −∞ changes nothing). -/
theorem rowmax_at (r : Fin 8192) :
    val_main_call2_v2 (F := Ideal) x1 (ix1 r) = Cert.Spec.rowMax (fun r k => x1 (ix2 r k)) r := by
  rw [val_main_call2_v2_apply, val_main_call2_v1_apply, val_main_call2_cst_0_apply]
  unfold val_main_call2_v0
  have key : Host.reduce (FloatOps.maximumf (F := Ideal) (φ := .f32)) x1 (val_main_call2_cst (F := Ideal)) reducesTo_S8192x1000_S8192_d1 h_S_ (ix1 r)
      = _ := Host.reduce_eq_fold_single _ _ _ _ (by decide) _ _
  rw [key, val_main_call2_cst_apply, Ideal.ofBits_def, negInf_eq_bot]
  show max (⊥ : EReal) _ = _
  rw [max_eq_right bot_le]
  unfold Cert.Spec.rowMax
  refine (fold_max_eq_sup _ _).trans ?_
  refine Finset.sup_congr rfl fun k _ => ?_
  exact congrArg x1 (funext fun a => Fin.ext (by match a with | ⟨0, _⟩ => rfl | ⟨1, _⟩ => rfl))

/-- The shifted entry at (r, c): the entry minus the row maximum. -/
theorem c2v5_at (r : Fin 8192) (c : Fin 1000) :
    val_main_call2_v5 (F := Ideal) x1 (ix2 r c) = x1 (ix2 r c) - Cert.Spec.rowMax (fun r k => x1 (ix2 r k)) r := by
  rw [val_main_call2_v5_apply, val_main_call2_v4_apply, val_main_call2_v3_apply]
  have e : idx_main_call2_v3 (idx_main_call2_v4 (ix2 r c)) = ix1 r :=
    funext fun a => Fin.ext (by match a with | ⟨0, _⟩ => rfl)
  rw [e, rowmax_at]; rfl

/-- The sum of the shifted row's exponentials. -/
theorem c2v7_at (r : Fin 8192) :
    val_main_call2_v7 (F := Ideal) x1 (ix1 r) = Cert.Spec.sumExp (fun r k => x1 (ix2 r k)) r := by
  rw [val_main_call2_v7_apply, val_main_call2_cst_1_apply]
  unfold Cert.Spec.sumExp
  refine congrArg (Ideal.ofBits .f32 0x00000000#32 + ·) (Finset.sum_congr rfl fun c _ => ?_)
  have e : idx_main_call2_v7 (ix1 r) c = ix2 r c :=
    funext fun a => Fin.ext (by match a with | ⟨0, _⟩ => rfl | ⟨1, _⟩ => rfl)
  rw [e, val_main_call2_v6_apply, c2v5_at]; rfl

/-- The log-softmax at (r, c): (entry − row maximum) − log of the sum. -/
theorem v41_at (r : Fin 8192) (c : Fin 1000) :
    val_main_v41 (F := Ideal) x1 (ix2 r c)
      = (x1 (ix2 r c) - Cert.Spec.rowMax (fun r k => x1 (ix2 r k)) r)
          - Ideal.log (Cert.Spec.sumExp (fun r k => x1 (ix2 r k)) r) := by
  rw [val_main_v41_apply, c2v5_at, val_main_call2_v10_apply, val_main_call2_v9_apply, val_main_call2_v8_apply]
  have e : idx_main_call2_v8 (idx_main_call2_v10 (ix2 r c)) = ix1 r :=
    funext fun a => Fin.ext (by match a with | ⟨0, _⟩ => rfl)
  rw [e, c2v7_at]; rfl

end Softmax

/-! ### In the reals: a finite row has a finite maximum and a positive finite sum of exponentials -/

/-- A finite sum of reals, coerced, is the sum of the coercions. -/
theorem coe_sum {ι : Type} (S : Finset ι) (f : ι → ℝ) : ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

section Reals
variable (yl : Fin 8192 → Fin 1000 → EReal) (hy : ∀ r c, ∃ a : ℝ, yl r c = (a : EReal))
include hy

/-- The maximum of a finite row is one of its entries, so finite. -/
theorem rowMax_real (r : Fin 8192) : ∃ M : ℝ, Cert.Spec.rowMax yl r = (M : EReal) := by
  unfold Cert.Spec.rowMax
  obtain ⟨c, _, hc⟩ := Finset.exists_mem_eq_sup (Finset.univ : Finset (Fin 1000))
    ⟨⟨0, by decide⟩, Finset.mem_univ _⟩ (fun c => yl r c)
  obtain ⟨a, ha⟩ := hy r c
  exact ⟨a, hc.trans ha⟩

/-- The sum of the shifted row's exponentials is a positive real. -/
theorem sumExp_real (r : Fin 8192) : ∃ s : ℝ, 0 < s ∧ Cert.Spec.sumExp yl r = (s : EReal) := by
  obtain ⟨M, hM⟩ := rowMax_real yl hy r
  choose a ha using hy r
  refine ⟨∑ c : Fin 1000, Real.exp (a c - M), ?_, ?_⟩
  · exact Finset.sum_pos (fun c _ => Real.exp_pos _) ⟨⟨0, by decide⟩, Finset.mem_univ _⟩
  · unfold Cert.Spec.sumExp Cert.Spec.zero
    rw [hM, Ideal.ofBits_zero_f32, zero_add, coe_sum]
    refine Finset.sum_congr rfl fun c _ => ?_
    rw [ha c, ← EReal.coe_sub, Ideal.exp_coe]

end Reals

/-- The one-hot sum over a row is the entry at the label's column: every other term is the entry times 0. -/
theorem pick_eq (yl : Fin 8192 → Fin 1000 → EReal) (lab : Fin 8192 → BitVec 32) (r : Fin 8192) (h : (lab r).toNat < 1000) :
    Cert.Spec.pick yl lab r = yl r ⟨(lab r).toNat, h⟩ := by
  unfold Cert.Spec.pick Cert.Spec.zero
  rw [Ideal.ofBits_zero_f32, zero_add, Finset.sum_eq_single (⟨(lab r).toNat, h⟩ : Fin 1000)]
  · unfold Cert.Spec.ind
    rw [if_pos (BitVec.eq_of_toNat_eq (by rw [BitVec.toNat_ofNat]; exact Nat.mod_eq_of_lt (lab r).isLt)),
      EReal.coe_one, mul_one]
  · intro c _ hc
    unfold Cert.Spec.ind
    rw [if_neg, EReal.coe_zero, mul_zero]
    intro e
    refine hc (Fin.ext ?_)
    show c.val = (lab r).toNat
    rw [← e, BitVec.toNat_ofNat]
    have := c.isLt
    omega
  · intro h'; exact absurd (Finset.mem_univ _) h'

/-! ## The log-probability at the label -/

theorem ref_sel (x1 : (⟨S8192x1000, .f32⟩ : BufTy).Contents (Elt Ideal)) (x2 : (⟨S8192, .i32⟩ : BufTy).Contents (Elt Ideal))
    (hfin : ∀ i : S8192x1000.Idx, ∃ a : ℝ, x1 i = (a : EReal))
    (hlab : ∀ i : S8192.Idx, 0 ≤ (x2 i).toInt ∧ (x2 i).toInt < 1000) (r : Fin 8192) :
    val_main_v44 (F := Ideal) x1 x2 (ix1 r)
      = Cert.Spec.selLogp (fun r k => x1 (ix2 r k)) (fun r => x2 (ix1 r)) r := by
  have hy : ∀ (r : Fin 8192) (c : Fin 1000), ∃ a : ℝ, (fun r k => x1 (ix2 r k)) r c = (a : EReal) := fun r c => hfin _
  have hc : (x2 (ix1 r)).toNat < 1000 := lab_lt _ (hlab (ix1 r)).1 (hlab (ix1 r)).2
  have hp : Cert.Spec.pick (fun r k => x1 (ix2 r k)) (fun r => x2 (ix1 r)) r = x1 (ix2 r ⟨(x2 (ix1 r)).toNat, hc⟩) :=
    pick_eq _ _ r hc
  obtain ⟨M, hM⟩ := rowMax_real _ hy r
  obtain ⟨s, hs, hS⟩ := sumExp_real _ hy r
  obtain ⟨a, ha⟩ := hfin (ix2 r ⟨(x2 (ix1 r)).toNat, hc⟩)
  rw [v44_at x1 x2 hlab, v41_at]
  unfold Cert.Spec.selLogp
  rw [hp, hM, hS, ha, Ideal.log_coe, if_neg (not_le.mpr hs), ← EReal.coe_sub, ← EReal.coe_sub, ← EReal.coe_add,
    ← EReal.coe_sub, sub_sub]

end Cert.ReferenceIdeal.RefValue

end
-- ==== Proof.PreFacts.lean ====
/-
  DECODING THE PRECONDITION at the extended-real instance. The precondition is a printed predicate: for each of the
  two float arguments, the conjunction over all entries of |x| < +inf; for the labels, the conjunction over all entries
  of (0 ≤ y) ∧ (y < 1000), compared signed; the three conjoined. "The predicate is all ones" therefore says: every entry
  of the two float arguments is a real number (neither infinity nor junk), and every label lies in [0, 1000).

  * a conjunction of one-bit words is 1 exactly when both are; a reduction by `and` to a single result that is 1 met a 1
    at every operand index;
  * on the extended reals |x| = max x (-x), the pattern 0x7F800000 denotes ⊤, and max x (-x) < ⊤ fails at ⊤ and at ⊥
    (where -⊥ = ⊤), so it leaves the reals;
  * a signed compare word being 1 is the inequality of the signed readings, and the constants 0 and 1000 read as
    themselves.
-/
import Idealize.ShloMosaic.Lib.ValueIdx
import Idealize.ShloMosaic.Lib.ReduceAll
import Idealize.ShloMosaic.Lib.StableHlo.Predicate
import Idealize.ShloMosaic.PureOps.Ideal.Laws
import proofs.«424374_j52003464020705_1_alg».proof.Pre_finite_inputs
import proofs.«424374_j52003464020705_1_alg».proof.Proof.Gen.Pre_finite_inputs

noncomputable section

namespace Cert.PreFacts

open Idealize.ShloMosaic Cert.Pre_finite_inputs

/-- The scalar shape has one index. -/
instance subsingleton_S_ : Subsingleton S_.Idx := ⟨fun a b => funext fun d => d.elim0⟩

/-- The pattern of +inf denotes ⊤. -/
theorem inf_bits : FloatOps.ofBits (F := Ideal) .f32 0x7F800000#32 = (⊤ : EReal) := by
  simp [Ideal.ofBits, Ideal.ieee]

/-- An extended real whose absolute value max x (-x) is below ⊤ is a real number. -/
theorem real_of_abs_lt_top (x : EReal) (h : max x (-x) < (⊤ : EReal)) : ∃ a : ℝ, x = (a : EReal) := by
  induction x using EReal.rec with
  | bot => simp at h
  | coe a => exact ⟨a, rfl⟩
  | top => simp at h

/-- THE ELEMENT FACT for a float entry: the compare word of |x| < +inf being 1 makes x a real number. -/
theorem real_of_word (x : Ideal .f32)
    (h : FloatOps.cmpf (F := Ideal) .olt (FloatOps.hostAbsf x) (FloatOps.ofBits (F := Ideal) .f32 0x7F800000#32) = 1#1) :
    ∃ a : ℝ, x = (a : EReal) := by
  rw [inf_bits, Ideal.hostAbsf_def, Ideal.cmpf_def, Ideal.absf_def] at h
  simp only [Ideal.cmp, StableHlo.Predicate.ofBool_eq_one_iff, decide_eq_true_eq] at h
  exact real_of_abs_lt_top x h

/-- THE ELEMENT FACT for a label: both signed compare words being 1 put the label in [0, 1000). -/
theorem range_of_words (y : BitVec 32) (h0 : IntOp.cmpi .sge y 0#32 = 1#1) (h1 : IntOp.cmpi .slt y 1000#32 = 1#1) :
    0 ≤ y.toInt ∧ y.toInt < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  exact ⟨h0, h1⟩

/-- The predicate being all ones is its three reductions each being 1 at the one result index. -/
theorem split [Facts] (x0 : FVec Ideal S8192x256 .f32) (x1 : FVec Ideal S8192x1000 .f32) (x2 : IVec S8192 32)
    (h : fn (F := Ideal) x0 x1 x2 = fun _ => 1#1) :
    (Host.reduce IntOp.andi
        (cmpf .olt (Host.absf x0) (broadcastInDim S8192x256 ![] Facts.bcast_S_S8192x256 (constant S_ .f32 0x7F800000#32)))
        (constantI S_ 1 1#1) Facts.reducesTo_S8192x256_S_d0_1 Facts.h_S_ ValueIdx.ix0 = 1#1
      ∧ Host.reduce IntOp.andi
        (cmpf .olt (Host.absf x1) (broadcastInDim S8192x1000 ![] Facts.bcast_S_S8192x1000 (constant S_ .f32 0x7F800000#32)))
        (constantI S_ 1 1#1) Facts.reducesTo_S8192x1000_S_d0_1 Facts.h_S_ ValueIdx.ix0 = 1#1)
      ∧ Host.reduce IntOp.andi
        (andi (cmpi .sge x2 (broadcastInDim S8192 ![] Facts.bcast_S_S8192 (constantI S_ 32 0#32)))
          (cmpi .slt x2 (broadcastInDim S8192 ![] Facts.bcast_S_S8192 (constantI S_ 32 1000#32))))
        (constantI S_ 1 1#1) Facts.reducesTo_S8192_S_d0 Facts.h_S_ ValueIdx.ix0 = 1#1 := by
  have e := congrFun h ValueIdx.ix0
  dsimp only [fn] at e
  exact (IntOp.andi_eq_one.1 e).imp_left IntOp.andi_eq_one.1

/-- Every entry of the first argument is a real number. -/
theorem finite_arg0 [Facts] (x0 : FVec Ideal S8192x256 .f32) (x1 : FVec Ideal S8192x1000 .f32) (x2 : IVec S8192 32)
    (h : fn (F := Ideal) x0 x1 x2 = fun _ => 1#1) : ∀ i : S8192x256.Idx, ∃ a : ℝ, x0 i = (a : EReal) := by
  intro i
  have e := Host.reduce_andi_all _ _ _ _ _ (split x0 x1 x2 h).1.1 i
  exact real_of_word (x0 i) e

/-- Every entry of the second argument is a real number. -/
theorem finite_arg1 [Facts] (x0 : FVec Ideal S8192x256 .f32) (x1 : FVec Ideal S8192x1000 .f32) (x2 : IVec S8192 32)
    (h : fn (F := Ideal) x0 x1 x2 = fun _ => 1#1) : ∀ i : S8192x1000.Idx, ∃ a : ℝ, x1 i = (a : EReal) := by
  intro i
  have e := Host.reduce_andi_all _ _ _ _ _ (split x0 x1 x2 h).1.2 i
  exact real_of_word (x1 i) e

/-- Every label lies in [0, 1000), read signed. -/
theorem labels_in_range [Facts] (x0 : FVec Ideal S8192x256 .f32) (x1 : FVec Ideal S8192x1000 .f32) (x2 : IVec S8192 32)
    (h : fn (F := Ideal) x0 x1 x2 = fun _ => 1#1) : ∀ i : S8192.Idx, 0 ≤ (x2 i).toInt ∧ (x2 i).toInt < 1000 := by
  intro i
  have e := Host.reduce_andi_all _ _ _ _ _ (split x0 x1 x2 h).2 i
  obtain ⟨e0, e1⟩ := IntOp.andi_eq_one.1 e
  exact range_of_words (x2 i) e0 e1

end Cert.PreFacts

end
-- ==== Proof.HostGlue.lean ====
/-
  The host operations around the two kernel regions, at the ideal instance (floats are extended reals).

  (1) The matrix the first region reads is the reference's normalised matrix: each row of the argument divided by
      max (its Euclidean norm, a small constant); the change of float format in between is the identity.
  (2) The labels and the logits reach the regions as launched.
  (3) Each program's final scalar is ONE function `tail` of four per-row arrays `top`, `bot`, `mask`, `sel`:
        −mean sel + (1/10) · (−mean (log (top' / bot))),   top' = top where mask > 0, a small positive constant elsewhere,
      the means being sums from zero divided by 8192.
-/
import proofs.«424374_j52003464020705_1_alg».proof.Proof.Run
import proofs.«424374_j52003464020705_1_alg».proof.Proof.RefRead
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-! ## The shared end of both programs -/

/-- The final scalar from the four per-row arrays: minus the mean of the selected log-probabilities, plus one tenth of
    minus the mean of `log (top' / bot)`, where `top'` is `top` on the rows whose mask sum is positive and a small
    positive constant on the others. -/
def tail (top bot mask sel : (⟨S8192, .f32⟩ : BufTy).Contents (Elt Ideal)) : (⟨S_, .f32⟩ : BufTy).Contents (Elt Ideal) :=
  addf (F := Ideal)
    (Host.negf (F := Ideal) (Host.divf (F := Ideal)
      (Host.reduceAdd (F := Ideal) sel (constant (F := Ideal) S_ .f32 0x00000000#32) reducesTo_S8192_S_d0 h_S_)
      (constant (F := Ideal) S_ .f32 0x46000000#32)))
    (mulf (F := Ideal) (constant (F := Ideal) S_ .f32 0x3DCCCCCD#32)
      (Host.negf (F := Ideal) (Host.divf (F := Ideal)
        (Host.reduceAdd (F := Ideal)
          (Host.log (F := Ideal) (Host.divf (F := Ideal)
            (select (cmpf (F := Ideal) .ogt mask (broadcastInDim S8192 ![] bcast_S_S8192 (constant (F := Ideal) S_ .f32 0x00000000#32)))
              top (broadcastInDim S8192 ![] bcast_S_S8192 (constant (F := Ideal) S_ .f32 0x358637BD#32)))
            bot))
          (constant (F := Ideal) S_ .f32 0x00000000#32) reducesTo_S8192_S_d0 h_S_)
        (constant (F := Ideal) S_ .f32 0x46000000#32))))

variable (m : (ℓ : Loc nD τ sig) → Buf (Elt Ideal) ℓ) (c : Dev nD)

/-! ## The kernel program's last host operations, one stretch at a time -/

section Stretches
variable (outs : Gen.Outs (F := Ideal))

/-- After the first stretch behind region 0: the rows whose mask sum is positive. -/
theorem V4_v8 : (Gen.V4 m outs c main_v8 : (⟨S8192, .i1⟩ : BufTy).Contents (Elt Ideal))
    = cmpf (F := Ideal) .ogt (Gen.V3 m outs c main_v6_2)
        (broadcastInDim S8192 ![] bcast_S_S8192 (constant (F := Ideal) S_ .f32 0x00000000#32)) := by
  show StableHlo.after hostOps1 _ (Proc.devRef .tc main_v8) = _
  after_results

/-- … and the small positive constant. -/
theorem V4_cst_1 : (Gen.V4 m outs c main_cst_1 : (⟨S_, .f32⟩ : BufTy).Contents (Elt Ideal))
    = constant (F := Ideal) S_ .f32 0x358637BD#32 := by
  show StableHlo.after hostOps1 _ (Proc.devRef .tc main_cst_1) = _
  after_results

/-- After the second: `top` where the mask sum is positive, the constant elsewhere. -/
theorem V5_v9 : (Gen.V5 m outs c main_v9 : (⟨S8192, .f32⟩ : BufTy).Contents (Elt Ideal))
    = select (Gen.V4 m outs c main_v8) (Gen.V4 m outs c main_v6_0)
        (broadcastInDim S8192 ![] bcast_S_S8192 (Gen.V4 m outs c main_cst_1)) := by
  show StableHlo.after hostOps1_1 _ (Proc.devRef .tc main_v9) = _
  after_results
  rfl

/-- After the third: minus the mean of the logs of the quotients. -/
theorem V6_v14 : (Gen.V6 m outs c main_v14 : (⟨S_, .f32⟩ : BufTy).Contents (Elt Ideal))
    = Host.negf (F := Ideal) (Host.divf (F := Ideal)
        (Host.reduceAdd (F := Ideal)
          (Host.log (F := Ideal) (Host.divf (F := Ideal) (Gen.V5 m outs c main_v9) (Gen.V5 m outs c main_v6_1)))
          (constant (F := Ideal) S_ .f32 0x00000000#32) reducesTo_S8192_S_d0 h_S_)
        (constant (F := Ideal) S_ .f32 0x46000000#32)) := by
  show StableHlo.after hostOps1_2 _ (Proc.devRef .tc main_v14) = _
  after_results

/-- After the last: the weighted sum of the two terms. -/
theorem V8_v20 : (Gen.V8 m outs c main_v20 : (⟨S_, .f32⟩ : BufTy).Contents (Elt Ideal))
    = addf (F := Ideal)
        (Host.negf (F := Ideal) (Host.divf (F := Ideal)
          (Host.reduceAdd (F := Ideal) (Gen.V7 m outs c main_v15) (constant (F := Ideal) S_ .f32 0x00000000#32) reducesTo_S8192_S_d0 h_S_)
          (constant (F := Ideal) S_ .f32 0x46000000#32)))
        (mulf (F := Ideal) (constant (F := Ideal) S_ .f32 0x3DCCCCCD#32) (Gen.V7 m outs c main_v14)) := by
  show StableHlo.after hostOps2 _ (Proc.devRef .tc main_v20) = _
  after_results

end Stretches

/-! ## Across the regions: the four arrays the end reads -/

/-- Region 0's first result array, as the later stretches find it. -/
theorem V3_top : Gen.V3 m (Run.outs m) c main_v6_0 = Run.top0 m c := by
  show Function.update (Function.update (Function.update (Gen.V2 m c) (Proc.devRef .tc main_v6_0) (Run.outs m 3 main_v6_0 c))
    (Proc.devRef .tc main_v6_1) (Run.outs m 3 main_v6_1 c)) (Proc.devRef .tc main_v6_2) (Run.outs m 3 main_v6_2 c) (Proc.devRef .tc main_v6_0) = _
  rw [Function.update_of_ne (StableHlo.devRef_ne_of_ne (by decide)), Function.update_of_ne (StableHlo.devRef_ne_of_ne (by decide)),
    Function.update_self, Run.outs_top]
/-- Its second. -/
theorem V3_bot : Gen.V3 m (Run.outs m) c main_v6_1 = Run.bot0 m c := by
  show Function.update (Function.update (Function.update (Gen.V2 m c) (Proc.devRef .tc main_v6_0) (Run.outs m 3 main_v6_0 c))
    (Proc.devRef .tc main_v6_1) (Run.outs m 3 main_v6_1 c)) (Proc.devRef .tc main_v6_2) (Run.outs m 3 main_v6_2 c) (Proc.devRef .tc main_v6_1) = _
  rw [Function.update_of_ne (StableHlo.devRef_ne_of_ne (by decide)), Function.update_self, Run.outs_bot]
/-- Its third. -/
theorem V3_mask : Gen.V3 m (Run.outs m) c main_v6_2 = Run.mask0 m c := by
  show Function.update (Function.update (Function.update (Gen.V2 m c) (Proc.devRef .tc main_v6_0) (Run.outs m 3 main_v6_0 c))
    (Proc.devRef .tc main_v6_1) (Run.outs m 3 main_v6_1 c)) (Proc.devRef .tc main_v6_2) (Run.outs m 3 main_v6_2 c) (Proc.devRef .tc main_v6_2) = _
  rw [Function.update_self, Run.outs_mask]
/-- Region 1's result array. -/
theorem V7_sel : Gen.V7 m (Run.outs m) c main_v15 = Run.sel1 m c := by
  show Function.update (Gen.V6 m (Run.outs m) c) (Proc.devRef .tc main_v15) (Run.outs m 7 main_v15 c) (Proc.devRef .tc main_v15) = _
  rw [Function.update_self, Run.outs_sel]

/-- The kernel program's result is the shared end applied to the regions' four arrays. -/
theorem result_kernel :
    (Gen.V8 m (Run.outs m) c main_v20 : (⟨S_, .f32⟩ : BufTy).Contents (Elt Ideal))
      = tail (Run.top0 m c) (Run.bot0 m c) (Run.mask0 m c) (Run.sel1 m c) := by
  have e14 : Gen.V7 m (Run.outs m) c main_v14 = Gen.V6 m (Run.outs m) c main_v14 := Gen.V7_of m _ c main_v14 (by decide)
  have ebot : Gen.V5 m (Run.outs m) c main_v6_1 = Run.bot0 m c :=
    (Gen.V5_of m _ c main_v6_1 (by decide)).trans ((Gen.V4_of m _ c main_v6_1 (by decide)).trans (V3_bot m c))
  have etop : Gen.V4 m (Run.outs m) c main_v6_0 = Run.top0 m c :=
    (Gen.V4_of m _ c main_v6_0 (by decide)).trans (V3_top m c)
  unfold tail
  rw [V8_v20, V7_sel, e14, V6_v14, V5_v9, ebot, V4_v8, V4_cst_1, etop, V3_mask]

/-! ## The reference's last stages are the same end -/

/-- The reference's result is the shared end applied to its four per-row arrays. -/
theorem result_ref (x0 : (⟨Cert.ReferenceIdeal.S8192x256, .f32⟩ : BufTy).Contents (Elt Ideal))
    (x1 : (⟨Cert.ReferenceIdeal.S8192x1000, .f32⟩ : BufTy).Contents (Elt Ideal))
    (x2 : (⟨Cert.ReferenceIdeal.S8192, .i32⟩ : BufTy).Contents (Elt Ideal)) :
    Cert.ReferenceIdeal.ReadP.val_main_v49 (F := Ideal) x0 x1 x2
      = tail (Cert.ReferenceIdeal.ReadP.val_main_v29 (F := Ideal) x0 x2) (Cert.ReferenceIdeal.ReadP.val_main_v35 (F := Ideal) x0)
          (Cert.ReferenceIdeal.ReadP.val_main_v30 (F := Ideal) x2) (Cert.ReferenceIdeal.ReadP.val_main_v44 (F := Ideal) x1 x2) := by
  unfold tail
  unfold Cert.ReferenceIdeal.ReadP.val_main_v49 Cert.ReferenceIdeal.ReadP.val_main_v48 Cert.ReferenceIdeal.ReadP.val_main_v47
    Cert.ReferenceIdeal.ReadP.val_main_v46 Cert.ReferenceIdeal.ReadP.val_main_v45 Cert.ReferenceIdeal.ReadP.val_main_v40
    Cert.ReferenceIdeal.ReadP.val_main_v39 Cert.ReferenceIdeal.ReadP.val_main_v38 Cert.ReferenceIdeal.ReadP.val_main_v37
    Cert.ReferenceIdeal.ReadP.val_main_v36 Cert.ReferenceIdeal.ReadP.val_main_v33 Cert.ReferenceIdeal.ReadP.val_main_v32
    Cert.ReferenceIdeal.ReadP.val_main_v31 Cert.ReferenceIdeal.ReadP.val_main_call1_v0
    Cert.ReferenceIdeal.ReadP.val_main_cst_5 Cert.ReferenceIdeal.ReadP.val_main_cst_6 Cert.ReferenceIdeal.ReadP.val_main_cst_8
    Cert.ReferenceIdeal.ReadP.val_main_cst_9 Cert.ReferenceIdeal.ReadP.val_main_cst_10 Cert.ReferenceIdeal.ReadP.val_main_cst_11
    Cert.ReferenceIdeal.ReadP.val_main_cst_12
  rfl

/-! ## The arguments reach the regions unchanged -/

/-- The labels, as region 0 finds them. -/
theorem labels0_eq : Run.Vin0 m c main_arg2 = m ((c.tc : Thread nD τ).loc main_arg2) :=
  (Gen.V2_of m c main_arg2 (by decide)).trans ((Gen.V1_of m c main_arg2 (by decide)).trans rfl)

/-- The logits, as region 1 finds them. -/
theorem logits1_eq : Run.Vin1 m c main_arg1 = m ((c.tc : Thread nD τ).loc main_arg1) :=
  (Gen.V6_of m (Run.outsA m) c main_arg1 (by decide)).trans <| (Gen.V5_of m (Run.outsA m) c main_arg1 (by decide)).trans <|
    (Gen.V4_of m (Run.outsA m) c main_arg1 (by decide)).trans <| (Gen.V3_of m (Run.outsA m) c main_arg1 (by decide)).trans <|
    (Gen.V2_of m c main_arg1 (by decide)).trans <| (Gen.V1_of m c main_arg1 (by decide)).trans rfl

/-- The labels, as region 1 finds them. -/
theorem labels1_eq : Run.Vin1 m c main_arg2 = m ((c.tc : Thread nD τ).loc main_arg2) :=
  (Gen.V6_of m (Run.outsA m) c main_arg2 (by decide)).trans <| (Gen.V5_of m (Run.outsA m) c main_arg2 (by decide)).trans <|
    (Gen.V4_of m (Run.outsA m) c main_arg2 (by decide)).trans <| (Gen.V3_of m (Run.outsA m) c main_arg2 (by decide)).trans <|
    (Gen.V2_of m c main_arg2 (by decide)).trans <| (Gen.V1_of m c main_arg2 (by decide)).trans rfl

/-! ## The normalised matrix is the reference's -/

/-- After the first stretch: the rows' norms, as a column. -/
theorem V1_v0 : (Gen.V1 m c main_v0 : (⟨S8192x1, .f32⟩ : BufTy).Contents (Elt Ideal))
    = Host.sqrt (F := Ideal) (broadcastInDim S8192x1 ![0] bcast_S8192_S8192x1_0
        (Host.reduceAdd (F := Ideal) (mulf (F := Ideal) (m ((c.tc : Thread nD τ).loc main_arg0)) (m ((c.tc : Thread nD τ).loc main_arg0)))
          (constant (F := Ideal) S_ .f32 0x00000000#32) reducesTo_S8192x256_S8192_d1 h_S_)) := by
  show StableHlo.after hostOps0 _ (Proc.devRef .tc main_v0) = _
  after_results
  rfl

/-- After the second stretch: each row divided by its norm (the norm kept away from zero by a small constant), in the
    matrix format of the regions. -/
theorem V2_v5 : (Gen.V2 m c main_v5 : (⟨S8192x256, .bf16⟩ : BufTy).Contents (Elt Ideal))
    = truncf (F := Ideal) .bf16
        (Host.divf (F := Ideal) (Gen.V1 m c main_arg0)
          (broadcastInDim S8192x256 ![0, 1] bcast_S8192x1_S8192x256_0_1
            (maximumf (F := Ideal) (Gen.V1 m c main_v0)
              (broadcastInDim S8192x1 ![] bcast_S_S8192x1 (constant (F := Ideal) S_ .f32 0x322BCC77#32)))))
        bitsLt_bf16_f32 := by
  show StableHlo.after hostOps0_1 _ (Proc.devRef .tc main_v5) = _
  after_results

/-- The argument matrix, as the second stretch finds it. -/
theorem V1_arg0 : Gen.V1 m c main_arg0 = m ((c.tc : Thread nD τ).loc main_arg0) :=
  (Gen.V1_of m c main_arg0 (by decide)).trans rfl

/-- A change of float format is the identity on extended reals, for a whole array. -/
theorem truncf_bf16_eq (x : (⟨S8192x256, .f32⟩ : BufTy).Contents (Elt Ideal)) :
    (truncf (F := Ideal) .bf16 x bitsLt_bf16_f32 : S8192x256.Idx → EReal) = x := rfl

/-- The matrix region 0 reads is the reference's normalised matrix. -/
theorem xn_eq : (Run.Vin0 m c main_v5 : S8192x256.Idx → EReal)
    = Cert.ReferenceIdeal.ReadP.val_main_v4 (F := Ideal) (m ((c.tc : Thread nD τ).loc main_arg0)) := by
  show (Gen.V2 m c main_v5 : S8192x256.Idx → EReal) = _
  rw [V2_v5, truncf_bf16_eq, V1_arg0, V1_v0]
  unfold Cert.ReferenceIdeal.ReadP.val_main_v4 Cert.ReferenceIdeal.ReadP.val_main_v3 Cert.ReferenceIdeal.ReadP.val_main_v2
    Cert.ReferenceIdeal.ReadP.val_main_v1 Cert.ReferenceIdeal.ReadP.val_main_cst Cert.ReferenceIdeal.ReadP.val_main_v0
    Cert.ReferenceIdeal.ReadP.val_main_call0_v2 Cert.ReferenceIdeal.ReadP.val_main_call0_v1
    Cert.ReferenceIdeal.ReadP.val_main_call0_cst Cert.ReferenceIdeal.ReadP.val_main_call0_v0
  rfl

end Cert.KernelIdeal.Glue

end
-- ==== Proof.Bridge.lean ====
/-
  The two idealized programs compute the same scalar. Each ends with the same twelve host operations applied to four
  per-row arrays (HostGlue's `tail`): the masked sum, the unmasked sum and the mask count of the soft-nearest-neighbour
  term, and the log-probability at the label. So it suffices that the four arrays agree row by row, and each side's
  array is the specification's formula of the same normalised matrix, logits and labels: for the kernel program the
  sums accumulated block by block over the grid (Val0, Val1), for the reference the whole-array operations read at an
  index (RefValue). The first three need no hypothesis; the fourth uses that the logits are real numbers and that the
  labels lie in [0, 1000), which is what the precondition says (PreFacts).
-/
import proofs.«424374_j52003464020705_1_alg».proof.Defs
import proofs.«424374_j52003464020705_1_alg».proof.Proof.Run
import proofs.«424374_j52003464020705_1_alg».proof.Proof.Val0
import proofs.«424374_j52003464020705_1_alg».proof.Proof.Val1
import proofs.«424374_j52003464020705_1_alg».proof.Proof.RefValue
import proofs.«424374_j52003464020705_1_alg».proof.Proof.PreFacts
import proofs.«424374_j52003464020705_1_alg».proof.Proof.HostGlue
import proofs.«424374_j52003464020705_1_alg».proof.Proof.Gen.Pre_finite_inputs

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three arguments' launch contents on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)

/-- Row by row the kernel program's masked sum is the reference's. -/
theorem top_eq (c : Dev nD) : Run.top0 m c = Cert.ReferenceIdeal.ReadP.val_main_v29 (F := Ideal) (a0 m c) (a2 m c) := by
  funext i
  obtain ⟨r, rfl⟩ : ∃ r : Fin 8192, i = ix1 r := ⟨i 0, eq_ix1 i⟩
  refine (Region0.arr_top (Run.Vin0 m) c r).trans ?_
  rw [Glue.xn_eq, Glue.labels0_eq]
  exact (Cert.ReferenceIdeal.RefValue.ref_top _ _ r).symm

theorem bot_eq (c : Dev nD) : Run.bot0 m c = Cert.ReferenceIdeal.ReadP.val_main_v35 (F := Ideal) (a0 m c) := by
  funext i
  obtain ⟨r, rfl⟩ : ∃ r : Fin 8192, i = ix1 r := ⟨i 0, eq_ix1 i⟩
  refine (Region0.arr_bot (Run.Vin0 m) c r).trans ?_
  rw [Glue.xn_eq]
  exact (Cert.ReferenceIdeal.RefValue.ref_bot _ r).symm

theorem mask_eq (c : Dev nD) : Run.mask0 m c = Cert.ReferenceIdeal.ReadP.val_main_v30 (F := Ideal) (a2 m c) := by
  funext i
  obtain ⟨r, rfl⟩ : ∃ r : Fin 8192, i = ix1 r := ⟨i 0, eq_ix1 i⟩
  refine (Region0.arr_mask (Run.Vin0 m) c r).trans ?_
  rw [Glue.labels0_eq]
  exact (Cert.ReferenceIdeal.RefValue.ref_mask _ r).symm

/-- Under the precondition the kernel program's log-probability row is the reference's. -/
theorem sel_eq (hpre : Cert.Pre_KernelIdeal m) (c : Dev nD) :
    Run.sel1 m c = Cert.ReferenceIdeal.ReadP.val_main_v44 (F := Ideal) (a1 m c) (a2 m c) := by
  funext i
  obtain ⟨r, rfl⟩ : ∃ r : Fin 8192, i = ix1 r := ⟨i 0, eq_ix1 i⟩
  refine (Region1.arr_out (Run.Vin1 m) c r).trans ?_
  rw [Glue.logits1_eq, Glue.labels1_eq]
  exact (Cert.ReferenceIdeal.RefValue.ref_sel _ _ (Cert.PreFacts.finite_arg1 _ _ _ (hpre c)) (Cert.PreFacts.labels_in_range _ _ _ (hpre c)) r).symm

/-- The reference's result term is the kernel program's last valuation at its result buffer. -/
theorem result_eq (hpre : Cert.Pre_KernelIdeal m) (c : Dev nD) :
    Cert.ReferenceIdeal.ReadP.val_main_v49 (F := Ideal) (a0 m c) (a1 m c) (a2 m c) = Gen.V8 m (Run.outs m) c main_v20 := by
  rw [Glue.result_kernel, Glue.result_ref, top_eq, bot_eq, mask_eq, sel_eq m hpre]

end Cert.Proof.Bridge

namespace Cert.Proof

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' hpre hagree
  refine ⟨fun c => Cert.KernelIdeal.Gen.V8 m (Cert.KernelIdeal.Run.outs m) c Cert.KernelIdeal.main_v20, Cert.KernelIdeal.Run.run_result (F := Ideal) m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v49_eq, (hagree c).1, (hagree c).2.1, (hagree c).2.2]
  exact Bridge.result_eq m hpre c

end Cert.Proof

end
-- ==== Proof.lean ====
/-
  The certificate's claim. Three frames, one trivial preservation (the idealization rewrote nothing), and the equality
  of the two idealized programs' results under the precondition "both float inputs finite, every label in [0, 1000)".

  The kernel program runs two pipelined regions between stretches of host operations. The first accumulates, for each
  of the 8192 rows, three sums over all 8192 columns — exp(−(1 − cos)/T) over the other rows with the same label, over
  all other rows, and the count of the former — one 512 × 512 tile per grid point, sixteen tiles per row block, the
  running sums kept in scratch between the points of a row block. The second computes, per row, the logit at the label
  minus the log-sum-exp of the row. The reference computes the same four per-row arrays by whole-array operations, and
  both programs finish with the same host arithmetic. Each frame is the run of the program's items with every argument
  read back unchanged (the two kernel programs share one text, generic in the float family); the equality of results is
  Bridge's.
-/
import proofs.«424374_j52003464020705_1_alg».proof.Defs
import proofs.«424374_j52003464020705_1_alg».proof.Proof.Gen.Kernel
import proofs.«424374_j52003464020705_1_alg».proof.Proof.Gen.KernelIdeal
import proofs.«424374_j52003464020705_1_alg».proof.Proof.Gen.ReferenceIdeal
import proofs.«424374_j52003464020705_1_alg».proof.Proof.Gen.Pre_finite_inputs
import proofs.«424374_j52003464020705_1_alg».proof.Proof.WordRun
import proofs.«424374_j52003464020705_1_alg».proof.Proof.Run
import proofs.«424374_j52003464020705_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame (F := Bits) m ρ,
  fun m ρ _ => Cert.KernelIdeal.Run.frame (F := Ideal) m ρ,
  frame_ri,
  trivial,
  algebraic⟩

end Cert.Proof

end
